-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x12x1000x32 : Shape := ⟨4, ![8, 12, 1000, 32]⟩
abbrev S8x12x20000x32 : Shape := ⟨4, ![8, 12, 20000, 32]⟩
abbrev S60000 : Shape := ⟨1, ![60000]⟩
abbrev S768x768 : Shape := ⟨2, ![768, 768]⟩
abbrev S768 : Shape := ⟨1, ![768]⟩
abbrev S768x12 : Shape := ⟨2, ![768, 12]⟩
abbrev S12 : Shape := ⟨1, ![12]⟩
abbrev S_ : Shape := ⟨0, ![]⟩

class Facts : Prop where
  bcast_S_S8x12x1000x32 : S_.BroadcastsInDim S8x12x1000x32 (![] : Fin 0 → Fin S8x12x1000x32.rank)
  reducesTo_S8x12x1000x32_S_d0_1_2_3 : S8x12x1000x32.ReducesTo [0, 1, 2, 3] S_
  h_S_ : 0 < S_.numel
  bcast_S_S8x12x20000x32 : S_.BroadcastsInDim S8x12x20000x32 (![] : Fin 0 → Fin S8x12x20000x32.rank)
  reducesTo_S8x12x20000x32_S_d0_1_2_3 : S8x12x20000x32.ReducesTo [0, 1, 2, 3] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S768x12 : S_.BroadcastsInDim S768x12 (![] : Fin 0 → Fin S768x12.rank)
  reducesTo_S768x12_S_d0_1 : S768x12.ReducesTo [0, 1] S_
  bcast_S_S12 : S_.BroadcastsInDim S12 (![] : Fin 0 → Fin S12.rank)
  reducesTo_S12_S_d0 : S12.ReducesTo [0] S_
  bcast_S_S60000 : S_.BroadcastsInDim S60000 (![] : Fin 0 → Fin S60000.rank)
  reducesTo_S60000_S_d0 : S60000.ReducesTo [0] S_

variable [Facts]

def fn_part2 {F : FTy → Type} [FloatOps F] (main_arg2 : IVec S60000 32) (main_arg3 : IVec S60000 32) (main_v32 : IVec S_ 1) (main_c_12 : IVec S_ 32) : IVec S_ 1 :=
  let main_v33 : IVec S60000 32 := broadcastInDim S60000 ![] bcast_S_S60000 main_c_12
  let main_v34 : IVec S60000 1 := cmpi .slt main_arg2 main_v33
  let main_c_13 : IVec S_ 1 := constantI S_ 1 1#1
  let main_v35 : IVec S_ 1 := (fun x v => Host.reduce IntOp.andi x v reducesTo_S60000_S_d0 h_S_) main_v34 main_c_13
  let main_v36 : IVec S_ 1 := andi main_v32 main_v35
  let main_c_14 : IVec S_ 32 := constantI S_ 32 0#32
  let main_v37 : IVec S60000 32 := broadcastInDim S60000 ![] bcast_S_S60000 main_c_14
  let main_v38 : IVec S60000 1 := cmpi .sge main_arg3 main_v37
  let main_c_15 : IVec S_ 1 := constantI S_ 1 1#1
  let main_v39 : IVec S_ 1 := (fun x v => Host.reduce IntOp.andi x v reducesTo_S60000_S_d0 h_S_) main_v38 main_c_15
  let main_v40 : IVec S_ 1 := andi main_v36 main_v39
  let main_c_16 : IVec S_ 32 := constantI S_ 32 20000#32
  let main_v41 : IVec S60000 32 := broadcastInDim S60000 ![] bcast_S_S60000 main_c_16
  let main_v42 : IVec S60000 1 := cmpi .slt main_arg3 main_v41
  let main_c_17 : IVec S_ 1 := constantI S_ 1 1#1
  let main_v43 : IVec S_ 1 := (fun x v => Host.reduce IntOp.andi x v reducesTo_S60000_S_d0 h_S_) main_v42 main_c_17
  let main_v44 : IVec S_ 1 := andi main_v40 main_v43
  main_v44

def fn_part1 {F : FTy → Type} [FloatOps F] (main_arg2 : IVec S60000 32) (main_arg3 : IVec S60000 32) (main_arg6 : FVec F S768x12 .f32) (main_arg7 : FVec F S12 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x12 .f32 := Host.absf main_arg6
  let main_cst_6 : FVec F S_ .f32 := constant S_ .f32 0x7F800000#32
  let main_v20 : FVec F S768x12 .f32 := broadcastInDim S768x12 ![] bcast_S_S768x12 main_cst_6
  let main_v21 : IVec S768x12 1 := cmpf .olt main_v19 main_v20
  let main_c_7 : IVec S_ 1 := constantI S_ 1 1#1
  let main_v22 : IVec S_ 1 := (fun x v => Host.reduce IntOp.andi x v reducesTo_S768x12_S_d0_1 h_S_) main_v21 main_c_7
  let main_v23 : IVec S_ 1 := andi main_v18 main_v22
  let main_v24 : FVec F S12 .f32 := Host.absf main_arg7
  let main_cst_8 : FVec F S_ .f32 := constant S_ .f32 0x7F800000#32
  let main_v25 : FVec F S12 .f32 := broadcastInDim S12 ![] bcast_S_S12 main_cst_8
  let main_v26 : IVec S12 1 := cmpf .olt main_v24 main_v25
  let main_c_9 : IVec S_ 1 := constantI S_ 1 1#1
  let main_v27 : IVec S_ 1 := (fun x v => Host.reduce IntOp.andi x v reducesTo_S12_S_d0 h_S_) main_v26 main_c_9
  let main_v28 : IVec S_ 1 := andi main_v23 main_v27
  let main_c_10 : IVec S_ 32 := constantI S_ 32 0#32
  let main_v29 : IVec S60000 32 := broadcastInDim S60000 ![] bcast_S_S60000 main_c_10
  let main_v30 : IVec S60000 1 := cmpi .sge main_arg2 main_v29
  let main_c_11 : IVec S_ 1 := constantI S_ 1 1#1
  let main_v31 : IVec S_ 1 := (fun x v => Host.reduce IntOp.andi x v reducesTo_S60000_S_d0 h_S_) main_v30 main_c_11
  let main_v32 : IVec S_ 1 := andi main_v28 main_v31
  let main_c_12 : IVec S_ 32 := constantI S_ 32 1000#32
  fn_part2 (F := F) main_arg2 main_arg3 main_v32 main_c_12

def fn {F : FTy → Type} [FloatOps F] (main_arg0 : FVec F S8x12x1000x32 .f32) (main_arg1 : FVec F S8x12x20000x32 .f32) (main_arg2 : IVec S60000 32) (main_arg3 : IVec S60000 32) (main_arg4 : FVec F S768x768 .f32) (main_arg5 : FVec F S768 .f32) (main_arg6 : FVec F S768x12 .f32) (main_arg7 : FVec F S12 .f32) : IVec S_ 1 :=
  let main_v0 : FVec F S8x12x1000x32 .f32 := Host.absf main_arg0
  let main_cst : FVec F S_ .f32 := constant S_ .f32 0x7F800000#32
  let main_v1 : FVec F S8x12x1000x32 .f32 := broadcastInDim S8x12x1000x32 ![] bcast_S_S8x12x1000x32 main_cst
  let main_v2 : IVec S8x12x1000x32 1 := cmpf .olt main_v0 main_v1
  let main_c : IVec S_ 1 := constantI S_ 1 1#1
  let main_v3 : IVec S_ 1 := (fun x v => Host.reduce IntOp.andi x v reducesTo_S8x12x1000x32_S_d0_1_2_3 h_S_) main_v2 main_c
  let main_v4 : FVec F S8x12x20000x32 .f32 := Host.absf main_arg1
  let main_cst_0 : FVec F S_ .f32 := constant S_ .f32 0x7F800000#32
  let main_v5 : FVec F S8x12x20000x32 .f32 := broadcastInDim S8x12x20000x32 ![] bcast_S_S8x12x20000x32 main_cst_0
  let main_v6 : IVec S8x12x20000x32 1 := cmpf .olt main_v4 main_v5
  let main_c_1 : IVec S_ 1 := constantI S_ 1 1#1
  let main_v7 : IVec S_ 1 := (fun x v => Host.reduce IntOp.andi x v reducesTo_S8x12x20000x32_S_d0_1_2_3 h_S_) main_v6 main_c_1
  let main_v8 : IVec S_ 1 := andi main_v3 main_v7
  let main_v9 : FVec F S768x768 .f32 := Host.absf main_arg4
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg5
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg2 main_arg3 main_arg6 main_arg7 main_v13 main_v16
-- ==== Kernel.lean ====
abbrev S8x12x1000x32 : Shape := ⟨4, ![8, 12, 1000, 32]⟩
abbrev S8x12x20000x32 : Shape := ⟨4, ![8, 12, 20000, 32]⟩
abbrev S60000 : Shape := ⟨1, ![60000]⟩
abbrev S768x768 : Shape := ⟨2, ![768, 768]⟩
abbrev S768 : Shape := ⟨1, ![768]⟩
abbrev S768x12 : Shape := ⟨2, ![768, 12]⟩
abbrev S12 : Shape := ⟨1, ![12]⟩
abbrev S_ : Shape := ⟨0, ![]⟩
abbrev S20000000 : Shape := ⟨1, ![20000000]⟩
abbrev S60000x1 : Shape := ⟨2, ![60000, 1]⟩
abbrev S20000x1000 : Shape := ⟨2, ![20000, 1000]⟩
abbrev S20000 : Shape := ⟨1, ![20000]⟩
abbrev S20000x1 : Shape := ⟨2, ![20000, 1]⟩
abbrev S8x1000x12x32 : Shape := ⟨4, ![8, 1000, 12, 32]⟩
abbrev S8x1000x384 : Shape := ⟨3, ![8, 1000, 384]⟩
abbrev S8x20000x12x32 : Shape := ⟨4, ![8, 20000, 12, 32]⟩
abbrev S8x20000x384 : Shape := ⟨3, ![8, 20000, 384]⟩
abbrev S384x768 : Shape := ⟨2, ![384, 768]⟩
abbrev S1x768 : Shape := ⟨2, ![1, 768]⟩
abbrev S1x12 : Shape := ⟨2, ![1, 12]⟩
abbrev S8x20000x12 : Shape := ⟨3, ![8, 20000, 12]⟩
abbrev S800x1000 : Shape := ⟨2, ![800, 1000]⟩
abbrev S800x1 : Shape := ⟨2, ![800, 1]⟩
abbrev S8x800x384 : Shape := ⟨3, ![8, 800, 384]⟩
abbrev S8x800x12 : Shape := ⟨3, ![8, 800, 12]⟩
abbrev S1x1000x384 : Shape := ⟨3, ![1, 1000, 384]⟩
abbrev S1000x384 : Shape := ⟨2, ![1000, 384]⟩
abbrev S800x384 : Shape := ⟨2, ![800, 384]⟩
abbrev S1x800x384 : Shape := ⟨3, ![1, 800, 384]⟩
abbrev S800x768 : Shape := ⟨2, ![800, 768]⟩
abbrev S800x12 : Shape := ⟨2, ![800, 12]⟩
abbrev S1x800x12 : Shape := ⟨3, ![1, 800, 12]⟩

abbrev nBuf : Space → Nat
  | .hbm => 47
  | .vmem => 14
  | .smem => 0
  | _ => 0

abbrev bufTy : (tb : Table) → Fin (tcTables nBuf tb) → BufTy
  | .hbm, ⟨0, _⟩ => ⟨S8x12x1000x32, .f32⟩
  | .hbm, ⟨1, _⟩ => ⟨S8x12x20000x32, .f32⟩
  | .hbm, ⟨2, _⟩ => ⟨S60000, .i32⟩
  | .hbm, ⟨3, _⟩ => ⟨S60000, .i32⟩
  | .hbm, ⟨4, _⟩ => ⟨S768x768, .f32⟩
  | .hbm, ⟨5, _⟩ => ⟨S768, .f32⟩
  | .hbm, ⟨6, _⟩ => ⟨S768x12, .f32⟩
  | .hbm, ⟨7, _⟩ => ⟨S12, .f32⟩
  | .hbm, ⟨8, _⟩ => ⟨S_, .i32⟩
  | .hbm, ⟨9, _⟩ => ⟨S60000, .i32⟩
  | .hbm, ⟨10, _⟩ => ⟨S60000, .i32⟩
  | .hbm, ⟨11, _⟩ => ⟨S60000, .i32⟩
  | .hbm, ⟨12, _⟩ => ⟨S_, .f32⟩
  | .hbm, ⟨13, _⟩ => ⟨S60000, .f32⟩
  | .hbm, ⟨14, _⟩ => ⟨S_, .f32⟩
  | .hbm, ⟨15, _⟩ => ⟨S20000000, .f32⟩
  | .hbm, ⟨16, _⟩ => ⟨S60000x1, .i32⟩
  | .hbm, ⟨17, _⟩ => ⟨S20000000, .f32⟩
  | .hbm, ⟨18, _⟩ => ⟨S20000x1000, .f32⟩
  | .hbm, ⟨19, _⟩ => ⟨S20000x1000, .bf16⟩
  | .hbm, ⟨20, _⟩ => ⟨S_, .f32⟩
  | .hbm, ⟨21, _⟩ => ⟨S60000, .f32⟩
  | .hbm, ⟨22, _⟩ => ⟨S_, .f32⟩
  | .hbm, ⟨23, _⟩ => ⟨S20000, .f32⟩
  | .hbm, ⟨24, _⟩ => ⟨S60000x1, .i32⟩
  | .hbm, ⟨25, _⟩ => ⟨S20000, .f32⟩
  | .hbm, ⟨26, _⟩ => ⟨S_, .f32⟩
  | .hbm, ⟨27, _⟩ => ⟨S20000, .f32⟩
  | .hbm, ⟨28, _⟩ => ⟨S20000, .f32⟩
  | .hbm, ⟨29, _⟩ => ⟨S_, .f32⟩
  | .hbm, ⟨30, _⟩ => ⟨S20000, .f32⟩
  | .hbm, ⟨31, _⟩ => ⟨S20000, .f32⟩
  | .hbm, ⟨32, _⟩ => ⟨S20000x1, .f32⟩
  | .hbm, ⟨33, _⟩ => ⟨S8x12x1000x32, .bf16⟩
  | .hbm, ⟨34, _⟩ => ⟨S8x1000x12x32, .bf16⟩
  | .hbm, ⟨35, _⟩ => ⟨S8x1000x384, .bf16⟩
  | .hbm, ⟨36, _⟩ => ⟨S8x12x20000x32, .bf16⟩
  | .hbm, ⟨37, _⟩ => ⟨S8x20000x12x32, .bf16⟩
  | .hbm, ⟨38, _⟩ => ⟨S8x20000x384, .bf16⟩
  | .hbm, ⟨39, _⟩ => ⟨S384x768, .f32⟩
  | .hbm, ⟨40, _⟩ => ⟨S384x768, .bf16⟩
  | .hbm, ⟨41, _⟩ => ⟨S384x768, .f32⟩
  | .hbm, ⟨42, _⟩ => ⟨S384x768, .bf16⟩
  | .hbm, ⟨43, _⟩ => ⟨S768x12, .bf16⟩
  | .hbm, ⟨44, _⟩ => ⟨S1x768, .f32⟩
  | .hbm, ⟨45, _⟩ => ⟨S1x12, .f32⟩
  | .hbm, ⟨46, _⟩ => ⟨S8x20000x12, .f32⟩
  | .local _ .vmem, ⟨0, _⟩ => ⟨S800x1000, .bf16⟩
  | .local _ .vmem, ⟨1, _⟩ => ⟨S800x1000, .bf16⟩
  | .local _ .vmem, ⟨2, _⟩ => ⟨S800x1, .f32⟩
  | .local _ .vmem, ⟨3, _⟩ => ⟨S800x1, .f32⟩
  | .local _ .vmem, ⟨4, _⟩ => ⟨S8x1000x384, .bf16⟩
  | .local _ .vmem, ⟨5, _⟩ => ⟨S8x800x384, .bf16⟩
  | .local _ .vmem, ⟨6, _⟩ => ⟨S8x800x384, .bf16⟩
  | .local _ .vmem, ⟨7, _⟩ => ⟨S384x768, .bf16⟩
  | .local _ .vmem, ⟨8, _⟩ => ⟨S384x768, .bf16⟩
  | .local _ .vmem, ⟨9, _⟩ => ⟨S1x768, .f32⟩
  | .local _ .vmem, ⟨10, _⟩ => ⟨S768x12, .bf16⟩
  | .local _ .vmem, ⟨11, _⟩ => ⟨S1x12, .f32⟩
  | .local _ .vmem, ⟨12, _⟩ => ⟨S8x800x12, .f32⟩
  | .local _ .vmem, ⟨13, _⟩ => ⟨S8x800x12, .f32⟩
  | _, _ => ⟨S8x12x1000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![25], ![false]⟩

@[reducible] def k0_t1_loop : Scf.Loop 32 :=
  let c0_i32 : BitVec 32 := 0#32
  let c8_i32 : BitVec 32 := 8#32
  let v14 : BitVec 32 := Scalar.addi c0_i32 c8_i32
  let c1_i32 : BitVec 32 := 1#32
  ⟨c0_i32, v14, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v15 : Index := Scalar.indexCast arg11
  let c0_14 : Index := 0#32
  let c0_15 : Index := 0#32
  ![v15.toNat, 0, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let v22 : Index := Scalar.indexCast arg11
  let c0_16 : Index := 0#32
  let c0_17 : Index := 0#32
  ![v22.toNat, 0, 0]
def k0_off3 (k0_t1 : Fin k0_t1_loop.trips) : Fin 3 → Nat :=
  let c0_i32 : BitVec 32 := 0#32
  let c1_i32 : BitVec 32 := 1#32
  let arg11 : BitVec 32 := Scf.iv c0_i32 c1_i32 k0_t1
  let v36 : Index := Scalar.indexCast arg11
  let c0_22 : Index := 0#32
  let c0_23 : Index := 0#32
  ![v36.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S800x1000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1000x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x800x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x12 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x800x12 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S60000 : S_.BroadcastsInDim S60000 (![] : Fin 0 → Fin S60000.rank)
  bcast_S_S20000000 : S_.BroadcastsInDim S20000000 (![] : Fin 0 → Fin S20000000.rank)
  bcast_S60000_S60000x1_0 : S60000.BroadcastsInDim S60000x1 (![0] : Fin 1 → Fin S60000x1.rank)
  shapeCasts_S20000000_S20000x1000 : S20000000.ShapeCasts S20000x1000
  bitsLt_bf16_f32 : FTy.bits .bf16 < FTy.bits .f32
  bcast_S_S20000 : S_.BroadcastsInDim S20000 (![] : Fin 0 → Fin S20000.rank)
  shapeCasts_S20000_S20000x1 : S20000.ShapeCasts S20000x1
  transposes_S8x12x1000x32_S8x1000x12x32_0_2_1_3 : S8x12x1000x32.Transposes [0, 2, 1, 3] S8x1000x12x32
  shapeCasts_S8x1000x12x32_S8x1000x384 : S8x1000x12x32.ShapeCasts S8x1000x384
  transposes_S8x12x20000x32_S8x20000x12x32_0_2_1_3 : S8x12x20000x32.Transposes [0, 2, 1, 3] S8x20000x12x32
  shapeCasts_S8x20000x12x32_S8x20000x384 : S8x20000x12x32.ShapeCasts S8x20000x384
  slices_S768x768_S384x768_0_0 : S768x768.Slices ![0, 0] S384x768
  slices_S768x768_S384x768_384_0 : S768x768.Slices ![384, 0] S384x768
  shapeCasts_S768_S1x768 : S768.ShapeCasts S1x768
  shapeCasts_S12_S1x12 : S12.ShapeCasts S1x12
  inb_S800x1000_S800x1000_0_0 : ∀ a, (![0, 0] : Fin 2 → Nat) a + S800x1000.size a ≤ S800x1000.size a
  h_S800x1000 : 0 < S800x1000.numel
  shapeCasts_S800x1000_S800x1000 : S800x1000.ShapeCasts S800x1000
  inb_S800x1_S800x1_0_0 : ∀ a, (![0, 0] : Fin 2 → Nat) a + S800x1.size a ≤ S800x1.size a
  h_S800x1 : 0 < S800x1.numel
  shapeCasts_S800x1_S800x1 : S800x1.ShapeCasts S800x1
  inb_S384x768_S384x768_0_0 : ∀ a, (![0, 0] : Fin 2 → Nat) a + S384x768.size a ≤ S384x768.size a
  h_S384x768 : 0 < S384x768.numel
  shapeCasts_S384x768_S384x768 : S384x768.ShapeCasts S384x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S768x12_S768x12_0_0 : ∀ a, (![0, 0] : Fin 2 → Nat) a + S768x12.size a ≤ S768x12.size a
  h_S768x12 : 0 < S768x12.numel
  shapeCasts_S768x12_S768x12 : S768x12.ShapeCasts S768x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  h_S1x1000x384 : 0 < S1x1000x384.numel
  shapeCasts_S1x1000x384_S1000x384 : S1x1000x384.ShapeCasts S1000x384
  broadcasts_S800x1_S800x384 : S800x1.Broadcasts S800x384
  h_S1x800x384 : 0 < S1x800x384.numel
  shapeCasts_S1x800x384_S800x384 : S1x800x384.ShapeCasts S800x384
  broadcasts_S1x768_S800x768 : S1x768.Broadcasts S800x768
  broadcasts_S1x12_S800x12 : S1x12.Broadcasts S800x12
  h_S1x800x12 : 0 < S1x800x12.numel
  shapeCasts_S1x800x12_S800x12 : S1x800x12.ShapeCasts S800x12
  shapeCasts_S800x12_S1x800x12 : S800x12.ShapeCasts S1x800x12
  scatter_S20000000_S60000x1_S60000_n_0_0_1_wf : ScatterDims.WF S20000000 S60000x1 S60000 [] [0] [0] 1
  scatter_S20000_S60000x1_S60000_n_0_0_1_wf : ScatterDims.WF S20000 S60000x1 S60000 [] [0] [0] 1
  dot_S800x1000_S1000x384_S800x384_1_0_0_1_n_n_wf : DotDims.WF S800x1000 S1000x384 S800x384 [1] [0] [0] [1] [] []
  dot_S800x384_S384x768_S800x768_1_0_0_1_n_n_wf : DotDims.WF S800x384 S384x768 S800x768 [1] [0] [0] [1] [] []
  dot_S800x768_S768x12_S800x12_1_0_0_1_n_n_wf : DotDims.WF S800x768 S768x12 S800x12 [1] [0] [0] [1] [] []
  hrank0 : 0 < grid0.rank
  k0_t1_ok : k0_t1_loop.OK
  k0_off1_inb : ∀ k0_t1 : Fin k0_t1_loop.trips, ∀ a, (k0_off1 k0_t1) a + S1x1000x384.size a ≤ S8x1000x384.size a
  k0_off2_inb : ∀ k0_t1 : Fin k0_t1_loop.trips, ∀ a, (k0_off2 k0_t1) a + S1x800x384.size a ≤ S8x800x384.size a
  k0_off3_inb : ∀ k0_t1 : Fin k0_t1_loop.trips, ∀ a, (k0_off3 k0_t1) a + S1x800x12.size a ≤ S8x800x12.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x1000.size a ≤ S20000x1000.size a
  hwx0_0 : ∀ i : grid0.Coords, EltTy.bits .bf16 = 32 ∨ (Rect.block (s := S20000x1000) S800x1000.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x1.size a ≤ S20000x1.size a
  hwx0_1 : ∀ i : grid0.Coords, EltTy.bits .f32 = 32 ∨ (Rect.block (s := S20000x1) S800x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1000x384.size a ≤ S8x1000x384.size a
  hwx0_2 : ∀ i : grid0.Coords, EltTy.bits .bf16 = 32 ∨ (Rect.block (s := S8x1000x384) S8x1000x384.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x800x384.size a ≤ S8x20000x384.size a
  hwx0_3 : ∀ i : grid0.Coords, EltTy.bits .bf16 = 32 ∨ (Rect.block (s := S8x20000x384) S8x800x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x768.size a ≤ S384x768.size a
  hwx0_4 : ∀ i : grid0.Coords, EltTy.bits .bf16 = 32 ∨ (Rect.block (s := S384x768) S384x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x768.size a ≤ S384x768.size a
  hwx0_5 : ∀ i : grid0.Coords, EltTy.bits .bf16 = 32 ∨ (Rect.block (s := S384x768) S384x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x12.size a ≤ S768x12.size a
  hwx0_7 : ∀ i : grid0.Coords, EltTy.bits .bf16 = 32 ∨ (Rect.block (s := S768x12) S768x12.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x12.size a ≤ S1x12.size a
  hwx0_8 : ∀ i : grid0.Coords, EltTy.bits .f32 = 32 ∨ (Rect.block (s := S1x12) S1x12.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x800x12.size a ≤ S8x20000x12.size a
  hwx0_9 : ∀ i : grid0.Coords, EltTy.bits .f32 = 32 ∨ (Rect.block (s := S8x20000x12) S8x800x12.size (cc0_transform_9 i) (hinb0_9 i)).WholeWords (EltTy.packing .f32)

variable [Facts₀]

def scatter_S20000000_S60000x1_S60000_n_0_0_1 : ScatterDims S20000000 S60000x1 S60000 where
  updateWindowDims := []
  insertedWindowDims := [0]
  scatterDimsToOperandDims := [0]
  indexVectorDim := 1
  wf := scatter_S20000000_S60000x1_S60000_n_0_0_1_wf
def scatter_S20000_S60000x1_S60000_n_0_0_1 : ScatterDims S20000 S60000x1 S60000 where
  updateWindowDims := []
  insertedWindowDims := [0]
  scatterDimsToOperandDims := [0]
  indexVectorDim := 1
  wf := scatter_S20000_S60000x1_S60000_n_0_0_1_wf
def dot_S800x1000_S1000x384_S800x384_1_0_0_1_n_n : DotDims S800x1000 S1000x384 S800x384 where
  lhsContracting := [1]
  rhsContracting := [0]
  lhsNonContracting := [0]
  rhsNonContracting := [1]
  lhsBatch := []
  rhsBatch := []
  wf := dot_S800x1000_S1000x384_S800x384_1_0_0_1_n_n_wf
def dot_S800x384_S384x768_S800x768_1_0_0_1_n_n : DotDims S800x384 S384x768 S800x768 where
  lhsContracting := [1]
  rhsContracting := [0]
  lhsNonContracting := [0]
  rhsNonContracting := [1]
  lhsBatch := []
  rhsBatch := []
  wf := dot_S800x384_S384x768_S800x768_1_0_0_1_n_n_wf
def dot_S800x768_S768x12_S800x12_1_0_0_1_n_n : DotDims S800x768 S768x12 S800x12 where
  lhsContracting := [1]
  rhsContracting := [0]
  lhsNonContracting := [0]
  rhsNonContracting := [1]
  lhsBatch := []
  rhsBatch := []
  wf := dot_S800x768_S768x12_S800x12_1_0_0_1_n_n_wf

abbrev win0_0 : Pipeline.Window sig grid0 :=
  Pipeline.Window.ofSpec (Memref.whole main_v8) S800x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S800x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S8x1000x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S8x800x384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S384x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S384x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S768x12.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x12.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S8x800x12.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x12x1000x32 : Shape := ⟨4, ![8, 12, 1000, 32]⟩
abbrev S8x12x20000x32 : Shape := ⟨4, ![8, 12, 20000, 32]⟩
abbrev S60000 : Shape := ⟨1, ![60000]⟩
abbrev S768x768 : Shape := ⟨2, ![768, 768]⟩
abbrev S768 : Shape := ⟨1, ![768]⟩
abbrev S768x12 : Shape := ⟨2, ![768, 12]⟩
abbrev S12 : Shape := ⟨1, ![12]⟩
abbrev S_ : Shape := ⟨0, ![]⟩
abbrev S60000x1 : Shape := ⟨2, ![60000, 1]⟩
abbrev S8x12x60000x32 : Shape := ⟨4, ![8, 12, 60000, 32]⟩
abbrev S60000x8x12x32 : Shape := ⟨4, ![60000, 8, 12, 32]⟩
abbrev S20000x8x12x32 : Shape := ⟨4, ![20000, 8, 12, 32]⟩
abbrev S20000 : Shape := ⟨1, ![20000]⟩
abbrev S20000x1x1x1 : Shape := ⟨4, ![20000, 1, 1, 1]⟩
abbrev S8x20000x12x32 : Shape := ⟨4, ![8, 20000, 12, 32]⟩
abbrev S8x20000x384 : Shape := ⟨3, ![8, 20000, 384]⟩
abbrev S8x20000x768 : Shape := ⟨3, ![8, 20000, 768]⟩
abbrev S1x1x768 : Shape := ⟨3, ![1, 1, 768]⟩
abbrev S8x20000x12 : Shape := ⟨3, ![8, 20000, 12]⟩
abbrev S1x1x12 : Shape := ⟨3, ![1, 1, 12]⟩

abbrev nBuf : Space → Nat
  | .hbm => 51
  | .vmem => 0
  | .smem => 0
  | _ => 0

abbrev bufTy : (tb : Table) → Fin (tcTables nBuf tb) → BufTy
  | .hbm, ⟨0, _⟩ => ⟨S8x12x1000x32, .f32⟩
  | .hbm, ⟨1, _⟩ => ⟨S8x12x20000x32, .f32⟩
  | .hbm, ⟨2, _⟩ => ⟨S60000, .i32⟩
  | .hbm, ⟨3, _⟩ => ⟨S60000, .i32⟩
  | .hbm, ⟨4, _⟩ => ⟨S768x768, .f32⟩
  | .hbm, ⟨5, _⟩ => ⟨S768, .f32⟩
  | .hbm, ⟨6, _⟩ => ⟨S768x12, .f32⟩
  | .hbm, ⟨7, _⟩ => ⟨S12, .f32⟩
  | .hbm, ⟨8, _⟩ => ⟨S_, .i32⟩
  | .hbm, ⟨9, _⟩ => ⟨S60000, .i32⟩
  | .hbm, ⟨10, _⟩ => ⟨S60000, .i1⟩
  | .hbm, ⟨11, _⟩ => ⟨S_, .i32⟩
  | .hbm, ⟨12, _⟩ => ⟨S60000, .i32⟩
  | .hbm, ⟨13, _⟩ => ⟨S60000, .i32⟩
  | .hbm, ⟨14, _⟩ => ⟨S60000, .i32⟩
  | .hbm, ⟨15, _⟩ => ⟨S60000x1, .i32⟩
  | .hbm, ⟨16, _⟩ => ⟨S8x12x60000x32, .f32⟩
  | .hbm, ⟨17, _⟩ => ⟨S60000x8x12x32, .f32⟩
  | .hbm, ⟨18, _⟩ => ⟨S_, .f32⟩
  | .hbm, ⟨19, _⟩ => ⟨S20000x8x12x32, .f32⟩
  | .hbm, ⟨20, _⟩ => ⟨S60000x1, .i32⟩
  | .hbm, ⟨21, _⟩ => ⟨S20000x8x12x32, .f32⟩
  | .hbm, ⟨22, _⟩ => ⟨S_, .f32⟩
  | .hbm, ⟨23, _⟩ => ⟨S60000, .f32⟩
  | .hbm, ⟨24, _⟩ => ⟨S_, .f32⟩
  | .hbm, ⟨25, _⟩ => ⟨S20000, .f32⟩
  | .hbm, ⟨26, _⟩ => ⟨S60000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S20000x1x1x1, .f32⟩
  | .hbm, ⟨32, _⟩ => ⟨S20000x8x12x32, .f32⟩
  | .hbm, ⟨33, _⟩ => ⟨S20000x8x12x32, .f32⟩
  | .hbm, ⟨34, _⟩ => ⟨S8x12x20000x32, .f32⟩
  | .hbm, ⟨35, _⟩ => ⟨S8x20000x12x32, .f32⟩
  | .hbm, ⟨36, _⟩ => ⟨S8x20000x384, .f32⟩
  | .hbm, ⟨37, _⟩ => ⟨S8x20000x12x32, .f32⟩
  | .hbm, ⟨38, _⟩ => ⟨S8x20000x384, .f32⟩
  | .hbm, ⟨39, _⟩ => ⟨S8x20000x768, .f32⟩
  | .hbm, ⟨40, _⟩ => ⟨S8x20000x768, .f32⟩
  | .hbm, ⟨41, _⟩ => ⟨S1x1x768, .f32⟩
  | .hbm, ⟨42, _⟩ => ⟨S8x20000x768, .f32⟩
  | .hbm, ⟨43, _⟩ => ⟨S8x20000x768, .f32⟩
  | .hbm, ⟨44, _⟩ => ⟨S_, .f32⟩
  | .hbm, ⟨45, _⟩ => ⟨S8x20000x768, .f32⟩
  | .hbm, ⟨46, _⟩ => ⟨S8x20000x768, .f32⟩
  | .hbm, ⟨47, _⟩ => ⟨S8x20000x12, .f32⟩
  | .hbm, ⟨48, _⟩ => ⟨S1x1x12, .f32⟩
  | .hbm, ⟨49, _⟩ => ⟨S8x20000x12, .f32⟩
  | .hbm, ⟨50, _⟩ => ⟨S8x20000x12, .f32⟩
  | _, _ => ⟨S8x12x1000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S60000 : S_.BroadcastsInDim S60000 (![] : Fin 0 → Fin S60000.rank)
  bcast_S60000_S60000x1_0 : S60000.BroadcastsInDim S60000x1 (![0] : Fin 1 → Fin S60000x1.rank)
  transposes_S8x12x60000x32_S60000x8x12x32_2_0_1_3 : S8x12x60000x32.Transposes [2, 0, 1, 3] S60000x8x12x32
  bcast_S_S20000x8x12x32 : S_.BroadcastsInDim S20000x8x12x32 (![] : Fin 0 → Fin S20000x8x12x32.rank)
  bcast_S_S20000 : S_.BroadcastsInDim S20000 (![] : Fin 0 → Fin S20000.rank)
  bcast_S20000_S20000x1x1x1_0 : S20000.BroadcastsInDim S20000x1x1x1 (![0] : Fin 1 → Fin S20000x1x1x1.rank)
  bcast_S20000x1x1x1_S20000x8x12x32_0_1_2_3 : S20000x1x1x1.BroadcastsInDim S20000x8x12x32 (![0, 1, 2, 3] : Fin 4 → Fin S20000x8x12x32.rank)
  transposes_S20000x8x12x32_S8x12x20000x32_1_2_0_3 : S20000x8x12x32.Transposes [1, 2, 0, 3] S8x12x20000x32
  transposes_S8x12x20000x32_S8x20000x12x32_0_2_1_3 : S8x12x20000x32.Transposes [0, 2, 1, 3] S8x20000x12x32
  shapeCasts_S8x20000x12x32_S8x20000x384 : S8x20000x12x32.ShapeCasts S8x20000x384
  concatenates_S8x20000x384_S8x20000x384_S8x20000x768_d2 : Shape.Concatenates [S8x20000x384, S8x20000x384] S8x20000x768 2
  bcast_S768_S1x1x768_2 : S768.BroadcastsInDim S1x1x768 (![2] : Fin 1 → Fin S1x1x768.rank)
  bcast_S1x1x768_S8x20000x768_0_1_2 : S1x1x768.BroadcastsInDim S8x20000x768 (![0, 1, 2] : Fin 3 → Fin S8x20000x768.rank)
  bcast_S_S8x20000x768 : S_.BroadcastsInDim S8x20000x768 (![] : Fin 0 → Fin S8x20000x768.rank)
  bcast_S12_S1x1x12_2 : S12.BroadcastsInDim S1x1x12 (![2] : Fin 1 → Fin S1x1x12.rank)
  bcast_S1x1x12_S8x20000x12_0_1_2 : S1x1x12.BroadcastsInDim S8x20000x12 (![0, 1, 2] : Fin 3 → Fin S8x20000x12.rank)
  gather_S8x12x1000x32_S60000x1_S8x12x60000x32_013_2_n_n_2_1_812132_wf : GatherDims.WF S8x12x1000x32 S60000x1 S8x12x60000x32 [0, 1, 3] [2] [] [2] [] 1 ![8, 12, 1, 32]
  scatter_S20000x8x12x32_S60000x1_S60000x8x12x32_123_0_0_1_wf : ScatterDims.WF S20000x8x12x32 S60000x1 S60000x8x12x32 [1, 2, 3] [0] [0] 1
  scatter_S20000_S60000x1_S60000_n_0_0_1_wf : ScatterDims.WF S20000 S60000x1 S60000 [] [0] [0] 1
  dot_S8x20000x768_S768x768_S8x20000x768_2_0_01_1_n_n_wf : DotDims.WF S8x20000x768 S768x768 S8x20000x768 [2] [0] [0, 1] [1] [] []
  dot_S8x20000x768_S768x12_S8x20000x12_2_0_01_1_n_n_wf : DotDims.WF S8x20000x768 S768x12 S8x20000x12 [2] [0] [0, 1] [1] [] []

variable [Facts₀]

def gather_S8x12x1000x32_S60000x1_S8x12x60000x32_013_2_n_n_2_1_812132 : GatherDims S8x12x1000x32 S60000x1 S8x12x60000x32 where
  offsetDims := [0, 1, 3]
  collapsedSliceDims := [2]
  operandBatchingDims := []
  startIndicesBatchingDims := []
  startIndexMap := [2]
  indexVectorDim := 1
  sliceSizes := ![8, 12, 1, 32]
  wf := gather_S8x12x1000x32_S60000x1_S8x12x60000x32_013_2_n_n_2_1_812132_wf
def scatter_S20000x8x12x32_S60000x1_S60000x8x12x32_123_0_0_1 : ScatterDims S20000x8x12x32 S60000x1 S60000x8x12x32 where
  updateWindowDims := [1, 2, 3]
  insertedWindowDims := [0]
  scatterDimsToOperandDims := [0]
  indexVectorDim := 1
  wf := scatter_S20000x8x12x32_S60000x1_S60000x8x12x32_123_0_0_1_wf
def scatter_S20000_S60000x1_S60000_n_0_0_1 : ScatterDims S20000 S60000x1 S60000 where
  updateWindowDims := []
  insertedWindowDims := [0]
  scatterDimsToOperandDims := [0]
  indexVectorDim := 1
  wf := scatter_S20000_S60000x1_S60000_n_0_0_1_wf
def dot_S8x20000x768_S768x768_S8x20000x768_2_0_01_1_n_n : DotDims S8x20000x768 S768x768 S8x20000x768 where
  lhsContracting := [2]
  rhsContracting := [0]
  lhsNonContracting := [0, 1]
  rhsNonContracting := [1]
  lhsBatch := []
  rhsBatch := []
  wf := dot_S8x20000x768_S768x768_S8x20000x768_2_0_01_1_n_n_wf
def dot_S8x20000x768_S768x12_S8x20000x12_2_0_01_1_n_n : DotDims S8x20000x768 S768x12 S8x20000x12 where
  lhsContracting := [2]
  rhsContracting := [0]
  lhsNonContracting := [0, 1]
  rhsNonContracting := [1]
  lhsBatch := []
  rhsBatch := []
  wf := dot_S8x20000x768_S768x12_S8x20000x12_2_0_01_1_n_n_wf

class Facts : Prop extends Facts₀ where

variable [Facts]
-- ==== Proof.PreFacts.lean ====
import proofs.«409963_j30348238914067_2_alg».proof.Pre_finite_inputs
import proofs.«409963_j30348238914067_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

/-! # What the precondition says

The precondition is one bit: the conjunction of "every entry of this float input is finite", for the six float inputs, and of
the four range tests `0 ≤ batch`, `batch < 1000`, `0 ≤ mapper`, `mapper < 20000` on the two index inputs. Read back: every
patch feature is a real number, every batch word is a patch number and every mapper word a node number. -/

noncomputable section

namespace Cert.PreFacts

open Idealize.ShloMosaic Idealize.ShloMosaic.ValueIdx

/-- The result of a reduction over every axis has one index. -/
instance : Subsingleton Cert.Pre_finite_inputs.S_.Idx := ⟨fun a b => funext fun d => d.elim0⟩

/-- The word `0x7F800000` is `+∞`. -/
theorem inf_word : Ideal.ofBits .f32 0x7F800000#32 = (⊤ : EReal) := by
  simp [Ideal.ofBits, Ideal.ieee]

/-- An extended real whose absolute value `max x (-x)` is below `+∞` is a real number: of the two infinities one
    has absolute value `+∞`, and so has the other. -/
theorem real_of_abs_lt_inf (x : EReal)
    (hx : Ideal.cmp .olt (max x (-x)) (Ideal.ofBits .f32 0x7F800000#32) = 1#1) : ∃ r : ℝ, x = (r : EReal) := by
  rw [inf_word] at hx
  unfold Ideal.cmp at hx
  rw [StableHlo.Predicate.ofBool_eq_one_iff] at hx
  simp only [decide_eq_true_eq] at hx
  induction x using EReal.rec with
  | bot => simp at hx
  | top => simp at hx
  | coe r => exact ⟨r, rfl⟩

/-- A 32-bit word that is, read signed, at least `0` and below `n` (for `n` below `2³¹`) is below `n` read
    unsigned: a nonnegative signed reading is the unsigned one. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge] at h0
  rw [IntOp.cmpi_slt, StableHlo.Predicate.toInt_ofNat_small n hn] at h1
  rw [show (0#32 : BitVec 32).toInt = 0 from by decide] at h0
  have := BitVec.toInt_eq_toNat_cond w
  split at this <;> omega

/-- The precondition read back. The one bit is a conjunction of ten bits, each an "all entries" test that is `1`
    only if its test holds at every index; of the ten, the first (patch features finite) and the last four (the two
    range tests on each index input) are kept. -/
theorem of_pre [Cert.Pre_finite_inputs.Facts]
    (a0 : (⟨4, ![8, 12, 1000, 32]⟩ : Shape).Idx → EReal) (a1 : (⟨4, ![8, 12, 20000, 32]⟩ : Shape).Idx → EReal)
    (a2 a3 : (⟨1, ![60000]⟩ : Shape).Idx → BitVec 32)
    (a4 : (⟨2, ![768, 768]⟩ : Shape).Idx → EReal) (a5 : (⟨1, ![768]⟩ : Shape).Idx → EReal)
    (a6 : (⟨2, ![768, 12]⟩ : Shape).Idx → EReal) (a7 : (⟨1, ![12]⟩ : Shape).Idx → EReal)
    (h : Cert.Pre_finite_inputs.fn (F := Ideal) a0 a1 a2 a3 a4 a5 a6 a7 = fun _ => 1#1) :
    (∀ i, ∃ r : ℝ, a0 i = (r : EReal))
      ∧ (∀ e : Fin 60000, (a2 (ix1 e)).toNat < 1000)
      ∧ (∀ e : Fin 60000, (a3 (ix1 e)).toNat < 20000) := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨⟨h0, -⟩, -⟩, -⟩, -⟩, -⟩, hb0⟩, hb1⟩, hm0⟩, hm1⟩ := e
  refine ⟨fun i => ?_, fun e => ?_, fun e => ?_⟩
  · exact real_of_abs_lt_inf (a0 i) (Host.reduce_andi_all _ _ _ _ _ h0 i)
  · exact toNat_lt_of_signed (a2 (ix1 e)) 1000 (by norm_num)
      (Host.reduce_andi_all _ _ _ _ _ hb0 (ix1 e)) (Host.reduce_andi_all _ _ _ _ _ hb1 (ix1 e))
  · exact toNat_lt_of_signed (a3 (ix1 e)) 20000 (by norm_num)
      (Host.reduce_andi_all _ _ _ _ _ hm0 (ix1 e)) (Host.reduce_andi_all _ _ _ _ _ hm1 (ix1 e))

end Cert.PreFacts

end
-- ==== Proof.Spec.lean ====
import Idealize.ShloMosaic.PureOps.Ideal
import Idealize.ShloMosaic.Lib.ValueIdx

/-! # What both programs compute

Eight batches, twelve time steps, a thousand patches and twenty thousand nodes with 32 features each, and sixty thousand
membership entries: entry `e` says that patch `batch[e]` belongs to node `mapper[e]`.

For node `n` the patch features of its entries are averaged: the sum over the entries `e` with `mapper[e] = n` of the
patch row `batch[e]`, divided by `max (number of such entries) 1`. Time step and feature are flattened to one axis of
384 = 12 · 32 (`d = t · 32 + f`). The node's own 384 features followed by these 384 averaged ones are the 768 inputs of a
two-layer perceptron: a 768 × 768 layer with bias and `max · 0`, then a 768 × 12 layer with bias.

Everything is over the extended reals, index by index, at literal shapes. -/

open scoped BigOperators

noncomputable section

namespace Cert.Spec

open Idealize.ShloMosaic Idealize.ShloMosaic.ValueIdx

/-- The float `1.0`, as both programs print it. -/
abbrev one : EReal := Ideal.ofBits .f32 0x3F800000#32

/-- Time step of the flattened feature `d = t · 32 + f`. -/
def tOf (d : Fin 384) : Fin 12 := ⟨d.val / 32, by have := d.isLt; omega⟩
/-- Feature of the flattened feature `d = t · 32 + f`. -/
def fOf (d : Fin 384) : Fin 32 := ⟨d.val % 32, Nat.mod_lt _ (by norm_num)⟩

/-- Row `d` of the first half of the 768 inputs. -/
def lo (d : Fin 384) : Fin 768 := ⟨d.val, by have := d.isLt; omega⟩
/-- Row `d` of the second half of the 768 inputs. -/
def hi (d : Fin 384) : Fin 768 := ⟨384 + d.val, by have := d.isLt; omega⟩

section
variable (px : (⟨4, ![8, 12, 1000, 32]⟩ : Shape).Idx → EReal) (nx : (⟨4, ![8, 12, 20000, 32]⟩ : Shape).Idx → EReal)
  (bt mp : (⟨1, ![60000]⟩ : Shape).Idx → BitVec 32)
  (W1 : (⟨2, ![768, 768]⟩ : Shape).Idx → EReal) (b1 : (⟨1, ![768]⟩ : Shape).Idx → EReal)
  (W2 : (⟨2, ![768, 12]⟩ : Shape).Idx → EReal) (b2 : (⟨1, ![12]⟩ : Shape).Idx → EReal)

/-- The entries of node `n`: those whose mapper word, read signed, is `n`. -/
def ents (n : Fin 20000) : Finset (Fin 60000) :=
  Finset.univ.filter fun e : Fin 60000 => (mp (ix1 e)).toInt = (n.val : Int)

/-- The divisor of node `n`: the number of its entries (a sum of ones), or one if it has none. -/
def den (n : Fin 20000) : EReal := max (0 + ∑ _e ∈ ents mp n, one) one

/-- The patch an entry names (its batch word; a word in range is its own remainder). -/
def prow (e : Fin 60000) : Fin 1000 := ⟨(bt (ix1 e)).toNat % 1000, Nat.mod_lt _ (by norm_num)⟩

/-- The mean over node `n`'s entries of their patches' feature `d`, in batch `b`. -/
def pmean (b : Fin 8) (n : Fin 20000) (d : Fin 384) : EReal :=
  Ideal.div (0 + ∑ e ∈ ents mp n, px (ix4 b (tOf d) (prow bt e) (fOf d))) (den mp n)

/-- Input `k` of the perceptron at (batch `b`, node `n`): the node's own features, then the averaged patch features. -/
def mlpIn (b : Fin 8) (n : Fin 20000) (k : Fin 768) : EReal :=
  if h : k.val < 384 then nx (ix4 b (tOf ⟨k.val, h⟩) n (fOf ⟨k.val, h⟩))
  else pmean px bt mp b n ⟨k.val - 384, by have := k.isLt; omega⟩

/-- Hidden unit `h`. -/
def hid (b : Fin 8) (n : Fin 20000) (h : Fin 768) : EReal :=
  max ((∑ k : Fin 768, mlpIn px nx bt mp b n k * W1 (ix2 k h)) + b1 (ix1 h)) 0

/-- THE RESULT at (batch, node, horizon). -/
def out (i : (⟨3, ![8, 20000, 12]⟩ : Shape).Idx) : EReal :=
  (∑ h : Fin 768, hid px nx bt mp W1 b1 (i 0) (i 1) h * W2 (ix2 h (i 2))) + b2 (ix1 (i 2))

/-! ## The same result as the kernel arranges it

The kernel does not walk the entries: it first counts, for every node `n` and patch `p`, the entries with mapper `n` and batch
`p`, multiplies the patch features by these counts and sums over ALL patches, then multiplies by the reciprocal of the divisor;
and it applies the first layer as two half-products, the node's own features against the first 384 rows and the averaged ones
against the last 384. -/

/-- The number of entries with mapper `n` and batch `p`, as a sum of ones. -/
def cnt (n : Fin 20000) (p : Fin 1000) : EReal :=
  0 + ∑ _e ∈ Finset.univ.filter (fun e : Fin 60000 => (mp (ix1 e)).toNat = n.val ∧ (bt (ix1 e)).toNat = p.val), one

/-- The count-weighted sum over all patches, times the reciprocal of the divisor. -/
def kmean (b : Fin 8) (n : Fin 20000) (d : Fin 384) : EReal :=
  (∑ p : Fin 1000, cnt bt mp n p * px (ix4 b (tOf d) p (fOf d))) * Ideal.div one (den mp n)

/-- Hidden unit `h`, the first layer as two half-products. -/
def khid (b : Fin 8) (n : Fin 20000) (h : Fin 768) : EReal :=
  max (((∑ d : Fin 384, nx (ix4 b (tOf d) n (fOf d)) * W1 (ix2 (lo d) h))
      + (∑ d : Fin 384, kmean px bt mp b n d * W1 (ix2 (hi d) h))) + b1 (ix1 h)) 0

/-- The kernel's result at (batch, node, horizon). -/
def kout (i : (⟨3, ![8, 20000, 12]⟩ : Shape).Idx) : EReal :=
  (∑ h : Fin 768, khid px nx bt mp W1 b1 (i 0) (i 1) h * W2 (ix2 h (i 2))) + b2 (ix1 (i 2))

end

end Cert.Spec

end
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.Algebra.lean ====
import proofs.«409963_j30348238914067_2_alg».proof.Proof.Spec
import proofs.«409963_j30348238914067_2_alg».proof.Proof.LibRealSums
import Idealize.ShloMosaic.Lib.IdealHost
import Idealize.ShloMosaic.Lib.StableHlo.Predicate

/-! # The kernel's arrangement computes the specification

With every patch feature a real number, every batch word a patch number and every mapper word a node number: the entries of node
`n` are the disjoint union over the patches `p` of the entries with mapper `n` and batch `p`, so the count-weighted sum over all
patches is the sum over the node's entries (a count times a real is the real added that many times); dividing by the divisor is
multiplying by its reciprocal; and a sum over 768 = 384 + 384 inputs is the sum of its two halves. -/

open scoped BigOperators

noncomputable section

namespace Cert.Algebra

open Idealize.ShloMosaic Idealize.ShloMosaic.ValueIdx Cert.Spec

/-! ## A sum over 768 indices is the sum of its two halves -/

/-- In any commutative additive monoid a sum over `Fin 768` is the sum over the first 384 indices plus the sum over the
    last 384. No finiteness is involved: only the order of the terms changes. -/
theorem sum_halves {M : Type*} [AddCommMonoid M] (f : Fin 768 → M) :
    ∑ k : Fin 768, f k = (∑ d : Fin 384, f (lo d)) + ∑ d : Fin 384, f (hi d) :=
  Fin.sum_univ_add (a := 384) (b := 384) f

section
variable (px : (⟨4, ![8, 12, 1000, 32]⟩ : Shape).Idx → EReal) (nx : (⟨4, ![8, 12, 20000, 32]⟩ : Shape).Idx → EReal)
  (bt mp : (⟨1, ![60000]⟩ : Shape).Idx → BitVec 32)
  (W1 : (⟨2, ![768, 768]⟩ : Shape).Idx → EReal) (b1 : (⟨1, ![768]⟩ : Shape).Idx → EReal)

/-- The first 384 inputs of the perceptron are the node's own features. -/
theorem mlpIn_lo (b : Fin 8) (n : Fin 20000) (d : Fin 384) :
    mlpIn px nx bt mp b n (lo d) = nx (ix4 b (tOf d) n (fOf d)) := by
  unfold mlpIn
  rw [dif_pos (show (lo d).val < 384 from d.isLt)]
  rfl

/-- The last 384 inputs of the perceptron are the averaged patch features. -/
theorem mlpIn_hi (b : Fin 8) (n : Fin 20000) (d : Fin 384) :
    mlpIn px nx bt mp b n (hi d) = pmean px bt mp b n d := by
  unfold mlpIn
  rw [dif_neg (show ¬ (hi d).val < 384 from by show ¬ (384 + d.val < 384); omega)]
  congr 1
  exact Fin.ext (by show 384 + d.val - 384 = d.val; omega)

/-! ## Counting entries -/

/-- The printed float `1.0` is the extended real one. -/
theorem one_eq : Spec.one = 1 := Ideal.ofBits_one_f32

/-- A count of ones times a REAL number is that number added once per counted element. (For an infinite factor this would
    fail at an empty count, where the left side is `0 · ∞`.) -/
theorem ones_mul {ι : Type*} (s : Finset ι) (x : ℝ) :
    (0 + ∑ _e ∈ s, (1 : EReal)) * (x : EReal) = ∑ _e ∈ s, (x : EReal) := by
  rw [zero_add, ← EReal.coe_one, ← RealSums.coe_sum, ← EReal.coe_mul, ← RealSums.coe_sum, Finset.sum_mul]
  simp only [one_mul]

/-- The divisor is at least one, hence not zero. -/
theorem den_ne_zero (n : Fin 20000) : den mp n ≠ 0 := by
  have h : (1 : EReal) ≤ den mp n := by
    unfold den; rw [one_eq]; exact le_max_right _ _
  exact (zero_lt_one.trans_le h).ne'

/-- With mapper words below 20000 and batch words below 1000, the entries with mapper `n` and batch `p` are exactly
    those entries of node `n` whose patch is `p`: a word below 2³¹ reads the same signed and unsigned, and a word
    below 1000 is its own remainder. -/
theorem cell_eq (hbt : ∀ e : Fin 60000, (bt (ix1 e)).toNat < 1000) (hmp : ∀ e : Fin 60000, (mp (ix1 e)).toNat < 20000)
    (n : Fin 20000) (p : Fin 1000) :
    Finset.univ.filter (fun e : Fin 60000 => (mp (ix1 e)).toNat = n.val ∧ (bt (ix1 e)).toNat = p.val)
      = (ents mp n).filter (fun e => prow bt e = p) := by
  ext e
  have h1 : (mp (ix1 e)).toInt = ((mp (ix1 e)).toNat : Int) :=
    StableHlo.Predicate.toInt_eq_toNat_of_lt (by have := hmp e; omega)
  have h2 : prow bt e = p ↔ (bt (ix1 e)).toNat = p.val := by
    rw [Fin.ext_iff]
    show (bt (ix1 e)).toNat % 1000 = p.val ↔ _
    rw [Nat.mod_eq_of_lt (hbt e)]
  simp only [ents, Finset.mem_filter, Finset.mem_univ, true_and, h1, h2, Nat.cast_inj]

/-- THE REGROUPING: the count-weighted sum over all patches is the sum over the node's entries of their patches' feature.
    Each entry of the node lies in exactly one cell (that of its own patch), and within a cell every entry names the same
    patch. -/
theorem weighted_eq (hpx : ∀ i, ∃ r : ℝ, px i = (r : EReal))
    (hbt : ∀ e : Fin 60000, (bt (ix1 e)).toNat < 1000) (hmp : ∀ e : Fin 60000, (mp (ix1 e)).toNat < 20000)
    (b : Fin 8) (n : Fin 20000) (d : Fin 384) :
    ∑ p : Fin 1000, cnt bt mp n p * px (ix4 b (tOf d) p (fOf d))
      = ∑ e ∈ ents mp n, px (ix4 b (tOf d) (prow bt e) (fOf d)) := by
  choose x hx using hpx
  have hcell : ∀ p : Fin 1000, cnt bt mp n p * px (ix4 b (tOf d) p (fOf d))
      = ∑ e ∈ (ents mp n).filter (fun e => prow bt e = p), px (ix4 b (tOf d) (prow bt e) (fOf d)) := by
    intro p
    unfold cnt
    rw [cell_eq bt mp hbt hmp n p, hx, one_eq, ones_mul]
    refine Finset.sum_congr rfl fun e he => ?_
    rw [(Finset.mem_filter.mp he).2, hx]
  rw [Finset.sum_congr rfl fun p _ => hcell p]
  exact Finset.sum_fiberwise _ _ _

/-- The kernel's mean is the specification's: regroup the numerator, and multiply by the reciprocal instead of dividing. -/
theorem kmean_eq_pmean (hpx : ∀ i, ∃ r : ℝ, px i = (r : EReal))
    (hbt : ∀ e : Fin 60000, (bt (ix1 e)).toNat < 1000) (hmp : ∀ e : Fin 60000, (mp (ix1 e)).toNat < 20000)
    (b : Fin 8) (n : Fin 20000) (d : Fin 384) :
    kmean px bt mp b n d = pmean px bt mp b n d := by
  unfold kmean pmean
  rw [weighted_eq px bt mp hpx hbt hmp b n d, one_eq, Ideal.mul_one_div (den_ne_zero mp n), zero_add]

/-- The kernel's hidden unit is the specification's: the 768-term sum is split into its halves. -/
theorem khid_eq_hid (hpx : ∀ i, ∃ r : ℝ, px i = (r : EReal))
    (hbt : ∀ e : Fin 60000, (bt (ix1 e)).toNat < 1000) (hmp : ∀ e : Fin 60000, (mp (ix1 e)).toNat < 20000)
    (b : Fin 8) (n : Fin 20000) (h : Fin 768) :
    khid px nx bt mp W1 b1 b n h = hid px nx bt mp W1 b1 b n h := by
  unfold khid hid
  rw [sum_halves (fun k => mlpIn px nx bt mp b n k * W1 (ix2 k h))]
  simp only [mlpIn_lo, mlpIn_hi, kmean_eq_pmean px bt mp hpx hbt hmp]

end

theorem kout_eq_out
    (px : (⟨4, ![8, 12, 1000, 32]⟩ : Shape).Idx → EReal) (nx : (⟨4, ![8, 12, 20000, 32]⟩ : Shape).Idx → EReal)
    (bt mp : (⟨1, ![60000]⟩ : Shape).Idx → BitVec 32)
    (W1 : (⟨2, ![768, 768]⟩ : Shape).Idx → EReal) (b1 : (⟨1, ![768]⟩ : Shape).Idx → EReal)
    (W2 : (⟨2, ![768, 12]⟩ : Shape).Idx → EReal) (b2 : (⟨1, ![12]⟩ : Shape).Idx → EReal)
    (hpx : ∀ i, ∃ r : ℝ, px i = (r : EReal))
    (hbt : ∀ e : Fin 60000, (bt (ix1 e)).toNat < 1000)
    (hmp : ∀ e : Fin 60000, (mp (ix1 e)).toNat < 20000) :
    Cert.Spec.kout px nx bt mp W1 b1 W2 b2 = Cert.Spec.out px nx bt mp W1 b1 W2 b2 := by
  have hk : khid px nx bt mp W1 b1 = hid px nx bt mp W1 b1 := by
    funext b n h
    exact khid_eq_hid px nx bt mp W1 b1 hpx hbt hmp b n h
  funext i
  unfold kout out
  rw [hk]

end Cert.Algebra

end
-- ==== Proof.LibFlatWord.lean ====
import Idealize.ShloMosaic.PureOps.ShapeOps
import Idealize.ShloMosaic.Lib.ValueIdx
import Idealize.ShloMosaic.Lib.StableHlo.Predicate

/-! # Index words of a flat cell

A cell of a batch of grids is numbered `batch * 262144 + cell`. As 32-bit words the product and the sum do not wrap while the batch
is below 8 and the cell below 262144 (`flat_toNat`), so the word reads the same signed and unsigned. A word below 2³¹ is not
negative, so the select that adds the array's length to a negative index returns it unchanged (`wrap_select_eq`). -/

namespace Idealize.ShloMosaic.FlatWord

open Idealize.ShloMosaic Idealize.ShloMosaic.ValueIdx

/-- `batch * 262144 + cell` as 32-bit words: no wrap for a batch below 8 and a cell below 262144. -/
theorem flat_toNat (b : ℕ) (hb : b < 8) (c : BitVec 32) (hc : c.toNat < 262144) :
    (IntOp.addi (IntOp.muli (BitVec.ofNat 32 b) 262144#32) c).toNat = b * 262144 + c.toNat := by
  unfold IntOp.addi IntOp.muli
  rw [BitVec.toNat_add, BitVec.toNat_mul, BitVec.toNat_ofNat, BitVec.toNat_ofNat]
  omega

/-- A word below 2³¹ is not negative. -/
theorem not_slt_zero (s : BitVec 32) (hs : s.toNat < 2 ^ 31) : IntOp.cmpi .slt s 0#32 = 0#1 := by
  refine eq_zero_of_ne_one (fun h => ?_)
  have := (StableHlo.Predicate.slt_iff_toNat (a := s) (b := 0#32) hs (by decide)).1 h
  simp at this

/-- The wrap of a negative index leaves a word below 2³¹ as it is. -/
theorem wrap_select_eq (s z : BitVec 32) (hs : s.toNat < 2 ^ 31) :
    Scalar.select (IntOp.cmpi .slt s 0#32) z s = s := by
  rw [not_slt_zero s hs, select_zero]

end Idealize.ShloMosaic.FlatWord
-- ==== Proof.LibScatterAddVec.lean ====
import Idealize.ShloMosaic.PureOps.Ideal
import Idealize.ShloMosaic.PureOps.Contract
import Idealize.ShloMosaic.Lib.ValueIdx

/-! # A float scatter-add of scalars into a flat array, read at an index

The accumulating float scatter `Host.scatterAdd d x idx upd` at the ideal values is, at every operand element, that
element plus the sum of the update elements that land on it. Worked out here, at any extents, for SCALARS added into a
rank-1 operand: operand `[N]`, scatter indices `[K, 1]` (the index vector on axis 1), updates `[K]`; update `e` is added
to the operand element named by the scatter index `idx[e, 0]` read as a SIGNED integer, and is dropped when that integer
is not a position of the operand (jax's `jax.ops.segment_sum` of a vector, `.at[ids].add(v)`). So operand element `i`
receives exactly the updates `e` whose scatter index is `i` (`hostScatterAdd_vec_apply`). Stated at the literal
dimension-number record `vecAddDims` and for ANY record with these fields. -/

open scoped BigOperators

namespace Idealize.ShloMosaic.ScatterAddVec

open Idealize.ShloMosaic Idealize.ShloMosaic.ValueIdx

/-- The dimension numbers of a scalar scatter into a vector: operand `[N]`, scatter indices `[K, 1]`, updates `[K]`; the
    update has no window axis, the operand's one axis is the inserted (scattered) axis. -/
abbrev vecAddDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

section
variable {N K w : Nat} (wf : ScatterDims.WF ⟨1, ![N]⟩ ⟨2, ![K, 1]⟩ ⟨1, ![K]⟩ [] [0] [0] 1)
  (idx : IVec ⟨2, ![K, 1]⟩ w) (e : Fin K)

/-- The window of update `e` starts at the scatter index `idx[e, 0]`, read signed. -/
theorem start_eq : (vecAddDims N K wf).start (ix1 e) idx (0 : Fin 1) = (idx (ix2 e (0 : Fin 1))).toInt := by
  unfold ScatterDims.start
  rw [dif_pos (show (0 : Fin 1) ∈ (vecAddDims N K wf).scatterDimsToOperandDims from List.mem_singleton.mpr rfl)]
  have hsi : (vecAddDims N K wf).siIdx (ix1 e) ⟨List.idxOf (0 : Fin 1) (vecAddDims N K wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- The one operand axis is inserted: no window coordinate on it. -/
theorem window_eq : (vecAddDims N K wf).window (ix1 e) (0 : Fin 1) = 0 := by
  unfold ScatterDims.window
  have hk : (vecAddDims N K wf).sKept = [] := rfl
  rw [dif_neg (show ¬ (0 : Fin 1) ∈ (vecAddDims N K wf).sKept from hk ▸ List.not_mem_nil)]

/-- WHERE AN UPDATE LANDS: update `e` lands on operand element `i` exactly when its scatter index reads `i`. -/
theorem resultIdx?_eq_some_iff (i : Fin N) :
    (vecAddDims N K wf).resultIdx? (ix1 e) idx = some (ix1 i) ↔ (idx (ix2 e (0 : Fin 1))).toInt = (i.val : Int) := by
  have hi : i.val < N := i.isLt
  unfold ScatterDims.resultIdx?
  split
  · rename_i h
    have h0 := h 0
    rw [start_eq, window_eq] at h0
    rw [Option.some.injEq]
    constructor
    · intro heq
      have e0 := congrArg (fun f : (⟨1, ![N]⟩ : Shape).Idx => (f (0 : Fin 1)).val) heq
      simp only [start_eq, window_eq] at e0
      have : ((idx (ix2 e (0 : Fin 1))).toInt + ((0 : Nat) : Int)).toNat = i.val := e0
      omega
    · intro hrow
      funext a; refine Fin.ext ?_
      match a with
      | ⟨0, _⟩ =>
        show ((vecAddDims N K wf).start (ix1 e) idx (0 : Fin 1) + (vecAddDims N K wf).window (ix1 e) (0 : Fin 1)).toNat = i.val
        rw [start_eq, window_eq]; omega
  · rename_i h
    constructor
    · intro heq; exact absurd heq (by simp)
    · intro hrow
      exfalso; apply h; intro a
      match a with
      | ⟨0, _⟩ =>
        show 0 ≤ (vecAddDims N K wf).start (ix1 e) idx (0 : Fin 1) + (vecAddDims N K wf).window (ix1 e) (0 : Fin 1)
          ∧ (vecAddDims N K wf).start (ix1 e) idx (0 : Fin 1) + (vecAddDims N K wf).window (ix1 e) (0 : Fin 1) < (N : Int)
        rw [start_eq, window_eq]; omega

end

/-- A sum over the indices of a flat array is the sum over its positions. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun a => rfl⟩ _ _ fun i => ?_
  exact congrArg f (eq_ix1 i)

/-- THE SCALAR SCATTER-ADD AT THE LITERAL RECORD, READ AT `i`: the operand's element plus the sum, over the updates `e`
    whose scatter index is `i`, of the update `e`. -/
theorem hostScatterAdd_vecAddDims_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal)
    (i : Fin N) :
    Ideal.hostScatterAdd (vecAddDims N K wf) x idx upd (ix1 i)
      = x (ix1 i) + ∑ e ∈ Finset.univ.filter (fun e : Fin K => (idx (ix2 e (0 : Fin 1))).toInt = (i.val : Int)), upd (ix1 e) := by
  unfold Ideal.hostScatterAdd
  congr 1
  rw [Finset.sum_filter, sum_idx1, Finset.sum_filter]
  refine Finset.sum_congr rfl fun e _ => ?_
  by_cases ht : (idx (ix2 e (0 : Fin 1))).toInt = (i.val : Int)
  · rw [if_pos ht, if_pos ((resultIdx?_eq_some_iff wf idx e i).mpr ht)]
  · rw [if_neg ht, if_neg (fun h => ht ((resultIdx?_eq_some_iff wf idx e i).mp h))]

/-- THE SCALAR SCATTER-ADD AT ANY RECORD WITH THESE FIELDS, READ AT `i`: a record is its fields, so it is the literal
    one. -/
theorem hostScatterAdd_vec_apply {N K w : Nat} (d : ScatterDims ⟨1, ![N]⟩ ⟨2, ![K, 1]⟩ ⟨1, ![K]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![K, 1]⟩ w) (upd : (⟨1, ![K]⟩ : Shape).Idx → EReal)
    (i : Fin N) :
    Ideal.hostScatterAdd d x idx upd (ix1 i)
      = x (ix1 i) + ∑ e ∈ Finset.univ.filter (fun e : Fin K => (idx (ix2 e (0 : Fin 1))).toInt = (i.val : Int)), upd (ix1 e) := by
  obtain ⟨uw, iw, sd, iv, wf⟩ := d
  simp only at hu hi hs hv
  subst hu hi hs hv
  exact hostScatterAdd_vecAddDims_apply wf x idx upd i

end Idealize.ShloMosaic.ScatterAddVec
-- ==== Proof.LibGatherSlabs.lean ====
import Idealize.ShloMosaic.PureOps.ShapeOps
import Idealize.ShloMosaic.Lib.ValueIdx

/-! # A gather of whole slabs along the third of four axes, read at an index

`x[:, :, idx, :]` of an array `x : [A, B, P, C]` at a column of start indices `idx : [K, 1]`: the result `[A, B, K, C]` has, for
every entry `e` of the column, the slab of `x` at position `idx[e, 0]` of the third axis. The slab is whole on the other three axes
(slice sizes `[A, B, 1, C]`, offset axes `0, 1, 3` of the result), the third axis is collapsed, and the start index is read as a signed
integer and clamped into `[0, P − 1]`, as every start index of a gather is. So result element `(a, b, e, c)` is `x` at
`(a, b, clamp idx[e, 0], c)` (`gather_slabs_apply`). Stated at the literal dimension-number record `slabDims` and for ANY record with
these fields (the field equations are `rfl` at a printed record). -/

namespace Idealize.ShloMosaic.GatherSlabs

open Idealize.ShloMosaic Idealize.ShloMosaic.ValueIdx

/-- The dimension numbers of the slab gather: operand `[A, B, P, C]`, start indices `[K, 1]` (the index vector on axis 1), result
    `[A, B, K, C]`; the start index names the operand's axis 2, which is collapsed; the other three axes are taken whole. -/
abbrev slabDims (A B P C K : Nat)
    (wf : GatherDims.WF ⟨4, ![A, B, P, C]⟩ ⟨2, ![K, 1]⟩ ⟨4, ![A, B, K, C]⟩ [0, 1, 3] [2] [] [2] [] 1 ![A, B, 1, C]) :
    GatherDims ⟨4, ![A, B, P, C]⟩ ⟨2, ![K, 1]⟩ ⟨4, ![A, B, K, C]⟩ where
  offsetDims := [0, 1, 3]
  collapsedSliceDims := [2]
  operandBatchingDims := []
  startIndicesBatchingDims := []
  startIndexMap := [2]
  indexVectorDim := 1
  sliceSizes := ![A, B, 1, C]
  wf := wf

section
variable {A B P C K w : Nat}
  (wf : GatherDims.WF ⟨4, ![A, B, P, C]⟩ ⟨2, ![K, 1]⟩ ⟨4, ![A, B, K, C]⟩ [0, 1, 3] [2] [] [2] [] 1 ![A, B, 1, C])
  (idx : IVec ⟨2, ![K, 1]⟩ w) (a : Fin A) (b : Fin B) (e : Fin K) (c : Fin C)

/-- On the gathered axis the slice of result element `(a, b, e, c)` starts at the start index `idx[e, 0]`, read signed and clamped
    into `[0, P − 1]`. -/
theorem start_axis2 :
    (slabDims A B P C K wf).start (ix4 a b e c) idx (2 : Fin 4) = min (idx (ix2 e (0 : Fin 1))).toInt.toNat (P - 1) := by
  unfold GatherDims.start
  rw [dif_pos (show (2 : Fin 4) ∈ (slabDims A B P C K wf).startIndexMap from List.mem_singleton.mpr rfl)]
  have hsi : (slabDims A B P C K wf).siIdx (ix4 a b e c) ⟨List.idxOf (2 : Fin 4) (slabDims A B P C K wf).startIndexMap,
      List.idxOf_lt_length_iff.2 (List.mem_singleton.mpr rfl)⟩ = ix2 e (0 : Fin 1) := by
    funext y; refine Fin.ext ?_
    match y with
    | ⟨0, _⟩ => rfl
    | ⟨1, _⟩ => rfl
  rw [hsi]
  rfl

/-- On the three whole axes the slice starts at `0`: the start index does not name them. -/
theorem start_whole (y : Fin 4) (hy : y ≠ 2) : (slabDims A B P C K wf).start (ix4 a b e c) idx y = 0 := by
  unfold GatherDims.start
  rw [dif_neg (show ¬ y ∈ (slabDims A B P C K wf).startIndexMap from fun h => hy (List.mem_singleton.mp h))]

/-- No axis is a batching axis. -/
theorem batchCoord_zero (y : Fin 4) : (slabDims A B P C K wf).batchCoord (ix4 a b e c) y = 0 :=
  GatherDims.batchCoord_eq_zero _ _ _ List.not_mem_nil

/-- On axis 0 the offset inside the slice is the result's own coordinate there. -/
theorem offCoord_axis0 : (slabDims A B P C K wf).offCoord (ix4 a b e c) (0 : Fin 4) = a.val := by
  unfold GatherDims.offCoord
  have h : (0 : Fin 4) ∈ [(0 : Fin 4), 1, 3] := by decide
  rw [dif_pos (show (0 : Fin 4) ∈ (slabDims A B P C K wf).sKept from h)]
  rfl

/-- On axis 1 the offset inside the slice is the result's own coordinate there. -/
theorem offCoord_axis1 : (slabDims A B P C K wf).offCoord (ix4 a b e c) (1 : Fin 4) = b.val := by
  unfold GatherDims.offCoord
  have h : (1 : Fin 4) ∈ [(0 : Fin 4), 1, 3] := by decide
  rw [dif_pos (show (1 : Fin 4) ∈ (slabDims A B P C K wf).sKept from h)]
  rfl

/-- The gathered axis is collapsed: no offset on it. -/
theorem offCoord_axis2 : (slabDims A B P C K wf).offCoord (ix4 a b e c) (2 : Fin 4) = 0 := by
  unfold GatherDims.offCoord
  have h : ¬ (2 : Fin 4) ∈ [(0 : Fin 4), 1, 3] := by decide
  rw [dif_neg (show ¬ (2 : Fin 4) ∈ (slabDims A B P C K wf).sKept from h)]

/-- On axis 3 the offset inside the slice is the result's coordinate on ITS axis 3 (the third offset axis). -/
theorem offCoord_axis3 : (slabDims A B P C K wf).offCoord (ix4 a b e c) (3 : Fin 4) = c.val := by
  unfold GatherDims.offCoord
  have h : (3 : Fin 4) ∈ [(0 : Fin 4), 1, 3] := by decide
  rw [dif_pos (show (3 : Fin 4) ∈ (slabDims A B P C K wf).sKept from h)]
  rfl

end

/-- THE SLAB GATHER AT THE LITERAL RECORD, READ AT `(a, b, e, c)`: the operand at `(a, b, p, c)`, `p` the start index `idx[e, 0]`
    read signed and clamped into `[0, P − 1]`. -/
theorem gather_slabDims_apply {α : Type} {A B P C K w : Nat} (hP : 0 < P)
    (wf : GatherDims.WF ⟨4, ![A, B, P, C]⟩ ⟨2, ![K, 1]⟩ ⟨4, ![A, B, K, C]⟩ [0, 1, 3] [2] [] [2] [] 1 ![A, B, 1, C])
    (x : (⟨4, ![A, B, P, C]⟩ : Shape).Idx → α) (idx : IVec ⟨2, ![K, 1]⟩ w) (a : Fin A) (b : Fin B) (e : Fin K) (c : Fin C) :
    Host.gather (slabDims A B P C K wf) x idx (ix4 a b e c)
      = x (ix4 a b ⟨min (idx (ix2 e (0 : Fin 1))).toInt.toNat (P - 1), by omega⟩ c) := by
  unfold Host.gather
  congr 1
  funext y; refine Fin.ext ?_
  match y with
  | ⟨0, _⟩ =>
    show (slabDims A B P C K wf).start (ix4 a b e c) idx (0 : Fin 4) + (slabDims A B P C K wf).batchCoord (ix4 a b e c) (0 : Fin 4)
      + (slabDims A B P C K wf).offCoord (ix4 a b e c) (0 : Fin 4) = a.val
    rw [start_whole wf idx a b e c 0 (by decide), batchCoord_zero, offCoord_axis0]
    omega
  | ⟨1, _⟩ =>
    show (slabDims A B P C K wf).start (ix4 a b e c) idx (1 : Fin 4) + (slabDims A B P C K wf).batchCoord (ix4 a b e c) (1 : Fin 4)
      + (slabDims A B P C K wf).offCoord (ix4 a b e c) (1 : Fin 4) = b.val
    rw [start_whole wf idx a b e c 1 (by decide), batchCoord_zero, offCoord_axis1]
    omega
  | ⟨2, _⟩ =>
    show (slabDims A B P C K wf).start (ix4 a b e c) idx (2 : Fin 4) + (slabDims A B P C K wf).batchCoord (ix4 a b e c) (2 : Fin 4)
      + (slabDims A B P C K wf).offCoord (ix4 a b e c) (2 : Fin 4) = min (idx (ix2 e (0 : Fin 1))).toInt.toNat (P - 1)
    rw [start_axis2, batchCoord_zero, offCoord_axis2]
    simp only [Nat.add_zero]
  | ⟨3, _⟩ =>
    show (slabDims A B P C K wf).start (ix4 a b e c) idx (3 : Fin 4) + (slabDims A B P C K wf).batchCoord (ix4 a b e c) (3 : Fin 4)
      + (slabDims A B P C K wf).offCoord (ix4 a b e c) (3 : Fin 4) = c.val
    rw [start_whole wf idx a b e c 3 (by decide), batchCoord_zero, offCoord_axis3]
    omega

/-- THE SLAB GATHER AT ANY RECORD WITH THESE FIELDS, READ AT `(a, b, e, c)`: a record is its fields, so it is the literal one. -/
theorem gather_slabs_apply {α : Type} {A B P C K w : Nat} (hP : 0 < P)
    (d : GatherDims ⟨4, ![A, B, P, C]⟩ ⟨2, ![K, 1]⟩ ⟨4, ![A, B, K, C]⟩)
    (ho : d.offsetDims = [0, 1, 3]) (hc : d.collapsedSliceDims = [2]) (hb : d.operandBatchingDims = [])
    (hsb : d.startIndicesBatchingDims = []) (hm : d.startIndexMap = [2]) (hv : d.indexVectorDim = 1)
    (hss : d.sliceSizes = ![A, B, 1, C])
    (x : (⟨4, ![A, B, P, C]⟩ : Shape).Idx → α) (idx : IVec ⟨2, ![K, 1]⟩ w) (a : Fin A) (b : Fin B) (e : Fin K) (c : Fin C) :
    Host.gather d x idx (ix4 a b e c)
      = x (ix4 a b ⟨min (idx (ix2 e (0 : Fin 1))).toInt.toNat (P - 1), by omega⟩ c) := by
  obtain ⟨od, cd, ob, sb, sm, iv, ss, wf⟩ := d
  simp only at ho hc hb hsb hm hv hss
  subst ho hc hb hsb hm hv hss
  exact gather_slabDims_apply hP wf x idx a b e c

end Idealize.ShloMosaic.GatherSlabs
-- ==== Proof.LibScatterAddSlabs.lean ====
import Idealize.ShloMosaic.PureOps.Ideal
import Idealize.ShloMosaic.PureOps.Contract
import Idealize.ShloMosaic.Lib.ValueIdx

/-! # A float scatter-add of rank-3 slabs into a rank-4 operand, read at an index

The accumulating float scatter `Host.scatterAdd d x idx upd` at the ideal values is, at every operand element, that element plus
the sum of the update elements that land on it. Worked out here, at any extents, for SLABS added along the first axis of a rank-4
operand: operand `[N, A, B, C]`, scatter indices `[K, 1]` (the index vector on axis 1), updates `[K, A, B, C]`; update slab `e` is
added, whole, to the operand slab named by the scatter index `idx[e, 0]` read as a SIGNED integer, and is dropped when that integer
is not a position of the operand's first axis. So operand element `(n, a, b, c)` receives exactly
the elements `(e, a, b, c)` of the update slabs `e` whose scatter index is `n` (`hostScatterAdd_slabs_apply`). Stated at the literal
dimension-number record `slabAddDims` and for ANY record with these fields (the field equations are `rfl` at a printed record). -/

open scoped BigOperators

namespace Idealize.ShloMosaic.ScatterAddSlabs

open Idealize.ShloMosaic Idealize.ShloMosaic.ValueIdx

/-- The dimension numbers of a slab scatter: operand `[N, A, B, C]`, scatter indices `[K, 1]`, updates `[K, A, B, C]`; the update's
    axes 1, 2, 3 are its window axes and go to the operand's axes 1, 2, 3, the operand's axis 0 is the inserted (scattered) axis. -/
abbrev slabAddDims (N A B C K : Nat)
    (wf : ScatterDims.WF ⟨4, ![N, A, B, C]⟩ ⟨2, ![K, 1]⟩ ⟨4, ![K, A, B, C]⟩ [1, 2, 3] [0] [0] 1) :
    ScatterDims ⟨4, ![N, A, B, C]⟩ ⟨2, ![K, 1]⟩ ⟨4, ![K, A, B, C]⟩ where
  updateWindowDims := [1, 2, 3]
  insertedWindowDims := [0]
  scatterDimsToOperandDims := [0]
  indexVectorDim := 1
  wf := wf

section
variable {N A B C K w : Nat} (wf : ScatterDims.WF ⟨4, ![N, A, B, C]⟩ ⟨2, ![K, 1]⟩ ⟨4, ![K, A, B, C]⟩ [1, 2, 3] [0] [0] 1)
  (idx : IVec ⟨2, ![K, 1]⟩ w) (e : Fin K) (a : Fin A) (b : Fin B) (c : Fin C)

/-- On the scattered axis the window of update `(e, a, b, c)` starts at the scatter index `idx[e, 0]`, read signed. -/
theorem start_axis0 :
    (slabAddDims N A B C K wf).start (ix4 e a b c) idx (0 : Fin 4) = (idx (ix2 e (0 : Fin 1))).toInt := by
  unfold ScatterDims.start
  rw [dif_pos (show (0 : Fin 4) ∈ (slabAddDims N A B C K wf).scatterDimsToOperandDims from List.mem_singleton.mpr rfl)]
  have hsi : (slabAddDims N A B C K wf).siIdx (ix4 e a b c) ⟨List.idxOf (0 : Fin 4) (slabAddDims N A B C K wf).scatterDimsToOperandDims,
      List.idxOf_lt_length_iff.2 (List.mem_singleton.mpr rfl)⟩ = ix2 e (0 : Fin 1) := by
    funext y; refine Fin.ext ?_
    match y with
    | ⟨0, _⟩ => rfl
    | ⟨1, _⟩ => rfl
  rw [hsi]

/-- On the three window axes the window starts at `0`: the scatter indices do not name them. -/
theorem start_window (y : Fin 4) (hy : y ≠ 0) : (slabAddDims N A B C K wf).start (ix4 e a b c) idx y = 0 := by
  unfold ScatterDims.start
  rw [dif_neg (show ¬ y ∈ (slabAddDims N A B C K wf).scatterDimsToOperandDims from fun h => hy (List.mem_singleton.mp h))]

/-- The scattered axis is inserted: no window coordinate on it. -/
theorem window_axis0 : (slabAddDims N A B C K wf).window (ix4 e a b c) (0 : Fin 4) = 0 := by
  unfold ScatterDims.window
  have h : ¬ (0 : Fin 4) ∈ [(1 : Fin 4), 2, 3] := by decide
  rw [dif_neg (show ¬ (0 : Fin 4) ∈ (slabAddDims N A B C K wf).sKept from h)]

/-- On axis 1 the window coordinate is the update's own coordinate there. -/
theorem window_axis1 : (slabAddDims N A B C K wf).window (ix4 e a b c) (1 : Fin 4) = a.val := by
  unfold ScatterDims.window
  have h : (1 : Fin 4) ∈ [(1 : Fin 4), 2, 3] := by decide
  rw [dif_pos (show (1 : Fin 4) ∈ (slabAddDims N A B C K wf).sKept from h)]
  rfl

/-- On axis 2 the window coordinate is the update's own coordinate there. -/
theorem window_axis2 : (slabAddDims N A B C K wf).window (ix4 e a b c) (2 : Fin 4) = b.val := by
  unfold ScatterDims.window
  have h : (2 : Fin 4) ∈ [(1 : Fin 4), 2, 3] := by decide
  rw [dif_pos (show (2 : Fin 4) ∈ (slabAddDims N A B C K wf).sKept from h)]
  rfl

/-- On axis 3 the window coordinate is the update's own coordinate there. -/
theorem window_axis3 : (slabAddDims N A B C K wf).window (ix4 e a b c) (3 : Fin 4) = c.val := by
  unfold ScatterDims.window
  have h : (3 : Fin 4) ∈ [(1 : Fin 4), 2, 3] := by decide
  rw [dif_pos (show (3 : Fin 4) ∈ (slabAddDims N A B C K wf).sKept from h)]
  rfl

/-- WHERE AN UPDATE LANDS: update `(e, a, b, c)` lands on operand element `(n, a', b', c')` exactly when its scatter index is
    position `n` and its window coordinates are `(a', b', c')`. -/
theorem resultIdx?_eq_some_iff (n : Fin N) (a' : Fin A) (b' : Fin B) (c' : Fin C) :
    (slabAddDims N A B C K wf).resultIdx? (ix4 e a b c) idx = some (ix4 n a' b' c')
      ↔ (idx (ix2 e (0 : Fin 1))).toInt = (n.val : Int) ∧ a = a' ∧ b = b' ∧ c = c' := by
  have hn : n.val < N := n.isLt
  have ha : a.val < A := a.isLt
  have hb : b.val < B := b.isLt
  have hc : c.val < C := c.isLt
  have s1 := start_window wf idx e a b c 1 (by decide)
  have s2 := start_window wf idx e a b c 2 (by decide)
  have s3 := start_window wf idx e a b c 3 (by decide)
  unfold ScatterDims.resultIdx?
  split
  · rename_i h
    have h0 := h 0
    rw [start_axis0, window_axis0] at h0
    rw [Option.some.injEq]
    constructor
    · intro heq
      have e0 := congrArg (fun f : (⟨4, ![N, A, B, C]⟩ : Shape).Idx => (f (0 : Fin 4)).val) heq
      have e1 := congrArg (fun f : (⟨4, ![N, A, B, C]⟩ : Shape).Idx => (f (1 : Fin 4)).val) heq
      have e2 := congrArg (fun f : (⟨4, ![N, A, B, C]⟩ : Shape).Idx => (f (2 : Fin 4)).val) heq
      have e3 := congrArg (fun f : (⟨4, ![N, A, B, C]⟩ : Shape).Idx => (f (3 : Fin 4)).val) heq
      simp only [start_axis0, s1, s2, s3, window_axis0, window_axis1, window_axis2, window_axis3] at e0 e1 e2 e3
      refine ⟨?_, Fin.ext ?_, Fin.ext ?_, Fin.ext ?_⟩
      · have : ((idx (ix2 e (0 : Fin 1))).toInt + ((0 : Nat) : Int)).toNat = n.val := e0
        omega
      · have : ((0 : Int) + (a.val : Int)).toNat = a'.val := e1
        omega
      · have : ((0 : Int) + (b.val : Int)).toNat = b'.val := e2
        omega
      · have : ((0 : Int) + (c.val : Int)).toNat = c'.val := e3
        omega
    · rintro ⟨hrow, rfl, rfl, rfl⟩
      funext y; refine Fin.ext ?_
      match y with
      | ⟨0, _⟩ =>
        show ((slabAddDims N A B C K wf).start (ix4 e a b c) idx (0 : Fin 4)
          + (slabAddDims N A B C K wf).window (ix4 e a b c) (0 : Fin 4)).toNat = n.val
        rw [start_axis0, window_axis0]; omega
      | ⟨1, _⟩ =>
        show ((slabAddDims N A B C K wf).start (ix4 e a b c) idx (1 : Fin 4)
          + (slabAddDims N A B C K wf).window (ix4 e a b c) (1 : Fin 4)).toNat = a.val
        rw [s1, window_axis1]; omega
      | ⟨2, _⟩ =>
        show ((slabAddDims N A B C K wf).start (ix4 e a b c) idx (2 : Fin 4)
          + (slabAddDims N A B C K wf).window (ix4 e a b c) (2 : Fin 4)).toNat = b.val
        rw [s2, window_axis2]; omega
      | ⟨3, _⟩ =>
        show ((slabAddDims N A B C K wf).start (ix4 e a b c) idx (3 : Fin 4)
          + (slabAddDims N A B C K wf).window (ix4 e a b c) (3 : Fin 4)).toNat = c.val
        rw [s3, window_axis3]; omega
  · rename_i h
    constructor
    · intro heq; exact absurd heq (by simp)
    · rintro ⟨hrow, rfl, rfl, rfl⟩
      exfalso; apply h; intro y
      match y with
      | ⟨0, _⟩ =>
        show 0 ≤ (slabAddDims N A B C K wf).start (ix4 e a b c) idx (0 : Fin 4) + (slabAddDims N A B C K wf).window (ix4 e a b c) (0 : Fin 4)
          ∧ (slabAddDims N A B C K wf).start (ix4 e a b c) idx (0 : Fin 4) + (slabAddDims N A B C K wf).window (ix4 e a b c) (0 : Fin 4) < (N : Int)
        rw [start_axis0, window_axis0]; omega
      | ⟨1, _⟩ =>
        show 0 ≤ (slabAddDims N A B C K wf).start (ix4 e a b c) idx (1 : Fin 4) + (slabAddDims N A B C K wf).window (ix4 e a b c) (1 : Fin 4)
          ∧ (slabAddDims N A B C K wf).start (ix4 e a b c) idx (1 : Fin 4) + (slabAddDims N A B C K wf).window (ix4 e a b c) (1 : Fin 4) < (A : Int)
        rw [s1, window_axis1]; omega
      | ⟨2, _⟩ =>
        show 0 ≤ (slabAddDims N A B C K wf).start (ix4 e a b c) idx (2 : Fin 4) + (slabAddDims N A B C K wf).window (ix4 e a b c) (2 : Fin 4)
          ∧ (slabAddDims N A B C K wf).start (ix4 e a b c) idx (2 : Fin 4) + (slabAddDims N A B C K wf).window (ix4 e a b c) (2 : Fin 4) < (B : Int)
        rw [s2, window_axis2]; omega
      | ⟨3, _⟩ =>
        show 0 ≤ (slabAddDims N A B C K wf).start (ix4 e a b c) idx (3 : Fin 4) + (slabAddDims N A B C K wf).window (ix4 e a b c) (3 : Fin 4)
          ∧ (slabAddDims N A B C K wf).start (ix4 e a b c) idx (3 : Fin 4) + (slabAddDims N A B C K wf).window (ix4 e a b c) (3 : Fin 4) < (C : Int)
        rw [s3, window_axis3]; omega

end

/-- THE SLAB SCATTER-ADD AT THE LITERAL RECORD, READ AT `(n, a, b, c)`: the operand's element plus the sum, over the update slabs
    `e` whose scatter index is `n`, of the update's element `(e, a, b, c)`. The updates that land on `(n, a, b, c)` are exactly the
    elements `(e, a, b, c)` of those slabs, one for each such `e`. -/
theorem hostScatterAdd_slabAddDims_apply {N A B C K w : Nat}
    (wf : ScatterDims.WF ⟨4, ![N, A, B, C]⟩ ⟨2, ![K, 1]⟩ ⟨4, ![K, A, B, C]⟩ [1, 2, 3] [0] [0] 1)
    (x : (⟨4, ![N, A, B, C]⟩ : Shape).Idx → EReal) (idx : IVec ⟨2, ![K, 1]⟩ w)
    (upd : (⟨4, ![K, A, B, C]⟩ : Shape).Idx → EReal) (n : Fin N) (a : Fin A) (b : Fin B) (c : Fin C) :
    Ideal.hostScatterAdd (slabAddDims N A B C K wf) x idx upd (ix4 n a b c)
      = x (ix4 n a b c)
        + ∑ e ∈ Finset.univ.filter (fun e : Fin K => (idx (ix2 e (0 : Fin 1))).toInt = (n.val : Int)), upd (ix4 e a b c) := by
  unfold Ideal.hostScatterAdd
  congr 1
  symm
  refine Finset.sum_bij (fun e _ => ix4 e a b c) ?_ ?_ ?_ ?_
  · intro e he
    rw [Finset.mem_filter] at he ⊢
    exact ⟨Finset.mem_univ _, (resultIdx?_eq_some_iff wf idx e a b c n a b c).mpr ⟨he.2, rfl, rfl, rfl⟩⟩
  · intro e₁ _ e₂ _ h
    exact congrFun h (0 : Fin 4)
  · intro j hj
    rw [Finset.mem_filter] at hj
    obtain ⟨e, a', b', c', rfl⟩ : ∃ (e : Fin K) (a' : Fin A) (b' : Fin B) (c' : Fin C), j = ix4 e a' b' c' :=
      ⟨j 0, j 1, j 2, j 3, eq_ix4 j⟩
    obtain ⟨hrow, rfl, rfl, rfl⟩ := (resultIdx?_eq_some_iff wf idx e a' b' c' n a b c).mp hj.2
    exact ⟨e, Finset.mem_filter.mpr ⟨Finset.mem_univ _, hrow⟩, rfl⟩
  · intro e _
    rfl

/-- THE SLAB SCATTER-ADD AT ANY RECORD WITH THESE FIELDS, READ AT `(n, a, b, c)`: a record is its fields, so it is the literal
    one. -/
theorem hostScatterAdd_slabs_apply {N A B C K w : Nat} (d : ScatterDims ⟨4, ![N, A, B, C]⟩ ⟨2, ![K, 1]⟩ ⟨4, ![K, A, B, C]⟩)
    (hu : d.updateWindowDims = [1, 2, 3]) (hi : d.insertedWindowDims = [0]) (hs : d.scatterDimsToOperandDims = [0])
    (hv : d.indexVectorDim = 1)
    (x : (⟨4, ![N, A, B, C]⟩ : Shape).Idx → EReal) (idx : IVec ⟨2, ![K, 1]⟩ w)
    (upd : (⟨4, ![K, A, B, C]⟩ : Shape).Idx → EReal) (n : Fin N) (a : Fin A) (b : Fin B) (c : Fin C) :
    Ideal.hostScatterAdd d x idx upd (ix4 n a b c)
      = x (ix4 n a b c)
        + ∑ e ∈ Finset.univ.filter (fun e : Fin K => (idx (ix2 e (0 : Fin 1))).toInt = (n.val : Int)), upd (ix4 e a b c) := by
  obtain ⟨uw, iw, sd, iv, wf⟩ := d
  simp only at hu hi hs hv
  subst hu hi hs hv
  exact hostScatterAdd_slabAddDims_apply wf x idx upd n a b c

end Idealize.ShloMosaic.ScatterAddSlabs
-- ==== Proof.RefMean.lean ====
import proofs.«409963_j30348238914067_2_alg».proof.Proof.Gen.ReferenceIdeal.Read
import proofs.«409963_j30348238914067_2_alg».proof.Proof.Spec
import proofs.«409963_j30348238914067_2_alg».proof.Proof.LibFlatWord
import proofs.«409963_j30348238914067_2_alg».proof.Proof.LibScatterAddVec
import proofs.«409963_j30348238914067_2_alg».proof.Proof.LibGatherSlabs
import proofs.«409963_j30348238914067_2_alg».proof.Proof.LibScatterAddSlabs
import Idealize.ShloMosaic.Lib.StableHlo.Predicate
import Idealize.ShloMosaic.PureOps.Ideal.Laws

/-! # The reference's averaged patch features

The reference wraps a negative batch word, gathers the patch rows the words name, moves the entry axis to the front, adds each entry's
slab into the node its mapper word names (a word that names no node is dropped), divides by `max count 1`, and moves the axes back
to (batch, node, time · 32 + feature). With every batch word a patch number, nothing is wrapped or clamped, and the result is the
mean over the node's entries of their patches' features.

The steps, each read at an index: the wrapped batch word of entry `e` is the word itself (`batch_word`); the gathered array at
`(b, t, e, f)` is the patch array at `(b, t, batch[e], f)` (`gathered`), and so is the entry-major array at `(e, b, t, f)` (`slabs`);
the scatter-add of these slabs into zeros at `(n, b, t, f)` is the sum over the entries of node `n` (`summed`); the scatter-add of
ones into zeros at `n` is the number of those entries as a sum of ones (`counted`); the quotient, read through the two transposes and
the reshape at `(b, n, t · 32 + f)`, is the mean (`pmean_eq`). -/

open scoped BigOperators

noncomputable section

namespace Cert.RefMean

open Idealize.ShloMosaic Idealize.ShloMosaic.ValueIdx Cert.ReferenceIdeal

section
variable [Cert.ReferenceIdeal.Facts]
  (x0 : (⟨4, ![8, 12, 1000, 32]⟩ : Shape).Idx → EReal) (x2 x3 : (⟨1, ![60000]⟩ : Shape).Idx → BitVec 32)

/-- The batch word of entry `e` after the wrap of negative words: a patch number is not negative, so it is the word itself. -/
theorem batch_word (e : Fin 60000) (he : (x2 (ix1 e)).toNat < 1000) :
    Read.val_main_v5 (F := Ideal) x2 (ix2 e (0 : Fin 1)) = x2 (ix1 e) := by
  have hi : Read.idx_main_v5 (ix2 e (0 : Fin 1)) = ix1 e := by
    funext y; refine Fin.ext ?_
    match y with
    | ⟨0, _⟩ => rfl
  rw [Read.val_main_v5_apply, hi, Read.val_main_v4_apply, Read.val_main_v1_apply, Read.val_main_v0_apply,
    Read.val_main_c_apply]
  exact FlatWord.wrap_select_eq _ _ (by omega)

/-- The patch entry `e` names, as the gather computes it — the wrapped word read signed and clamped into `[0, 999]` — is the
    word's own value. -/
theorem clamped_word (e : Fin 60000) (he : (x2 (ix1 e)).toNat < 1000) :
    (⟨min (Read.val_main_v5 (F := Ideal) x2 (ix2 e (0 : Fin 1))).toInt.toNat (1000 - 1), by omega⟩ : Fin 1000)
      = Cert.Spec.prow x2 e := by
  refine Fin.ext ?_
  show min (Read.val_main_v5 (F := Ideal) x2 (ix2 e (0 : Fin 1))).toInt.toNat (1000 - 1) = (x2 (ix1 e)).toNat % 1000
  rw [batch_word x2 e he, StableHlo.Predicate.toInt_eq_toNat_of_lt (by omega)]
  omega

/-- The gathered array at `(b, t, e, f)`: the patch array at the patch entry `e` names. -/
theorem gathered (hbt : ∀ e : Fin 60000, (x2 (ix1 e)).toNat < 1000) (b : Fin 8) (t : Fin 12) (e : Fin 60000) (f : Fin 32) :
    Read.val_main_v6 (F := Ideal) x0 x2 (ix4 b t e f) = x0 (ix4 b t (Cert.Spec.prow x2 e) f) := by
  unfold Read.val_main_v6
  rw [GatherSlabs.gather_slabs_apply (A := 8) (B := 12) (P := 1000) (C := 32) (K := 60000) (by norm_num)
    gather_S8x12x1000x32_S60000x1_S8x12x60000x32_013_2_n_n_2_1_812132 rfl rfl rfl rfl rfl rfl rfl,
    clamped_word x2 e (hbt e)]

/-- The entry-major array at `(e, b, t, f)`: the same element, the entry axis moved to the front. -/
theorem slabs (hbt : ∀ e : Fin 60000, (x2 (ix1 e)).toNat < 1000) (e : Fin 60000) (b : Fin 8) (t : Fin 12) (f : Fin 32) :
    Read.val_main_v7 (F := Ideal) x0 x2 (ix4 e b t f) = x0 (ix4 b t (Cert.Spec.prow x2 e) f) := by
  have hi : Read.idx_main_v7 (ix4 e b t f) = ix4 b t e f := by
    funext y; refine Fin.ext ?_
    match y with
    | ⟨0, _⟩ => rfl
    | ⟨1, _⟩ => rfl
    | ⟨2, _⟩ => rfl
    | ⟨3, _⟩ => rfl
  rw [Read.val_main_v7_apply, hi, gathered x0 x2 hbt]

/-- The mapper column at `(e, 0)` is the mapper word of entry `e`. -/
theorem mapper_word9 (e : Fin 60000) : Read.val_main_v9 (F := Ideal) x3 (ix2 e (0 : Fin 1)) = x3 (ix1 e) := by
  have hi : Read.idx_main_v9 (ix2 e (0 : Fin 1)) = ix1 e := by
    funext y; refine Fin.ext ?_
    match y with
    | ⟨0, _⟩ => rfl
  rw [Read.val_main_v9_apply, hi]

/-- The same column, as the count's scatter reads it. -/
theorem mapper_word13 (e : Fin 60000) : Read.val_main_v13 (F := Ideal) x3 (ix2 e (0 : Fin 1)) = x3 (ix1 e) := by
  have hi : Read.idx_main_v13 (ix2 e (0 : Fin 1)) = ix1 e := by
    funext y; refine Fin.ext ?_
    match y with
    | ⟨0, _⟩ => rfl
  rw [Read.val_main_v13_apply, hi]

/-- The slabs added into their nodes, at `(n, b, t, f)`: zero plus the sum over the entries of node `n` of their patches' element. -/
theorem summed (hbt : ∀ e : Fin 60000, (x2 (ix1 e)).toNat < 1000) (n : Fin 20000) (b : Fin 8) (t : Fin 12) (f : Fin 32) :
    Read.val_main_v10 (F := Ideal) x0 x2 x3 (ix4 n b t f)
      = 0 + ∑ e ∈ Cert.Spec.ents x3 n, x0 (ix4 b t (Cert.Spec.prow x2 e) f) := by
  unfold Read.val_main_v10
  show Ideal.hostScatterAdd scatter_S20000x8x12x32_S60000x1_S60000x8x12x32_123_0_0_1 _ _ _ _ = _
  rw [ScatterAddSlabs.hostScatterAdd_slabs_apply (N := 20000) (A := 8) (B := 12) (C := 32) (K := 60000)
    scatter_S20000x8x12x32_S60000x1_S60000x8x12x32_123_0_0_1 rfl rfl rfl rfl,
    Read.val_main_v8_apply, Read.val_main_cst_apply]
  show Ideal.ofBits .f32 0x00000000#32 + _ = _
  rw [Ideal.ofBits_zero_f32]
  unfold Cert.Spec.ents
  simp only [mapper_word9, slabs x0 x2 hbt]

/-- The ones added into their nodes, at `n`: zero plus one for every entry of node `n`. -/
theorem counted (n : Fin 20000) :
    Read.val_main_v14 (F := Ideal) x3 (ix1 n) = 0 + ∑ _e ∈ Cert.Spec.ents x3 n, Cert.Spec.one := by
  unfold Read.val_main_v14
  show Ideal.hostScatterAdd scatter_S20000_S60000x1_S60000_n_0_0_1 _ _ _ _ = _
  rw [ScatterAddVec.hostScatterAdd_vec_apply (N := 20000) (K := 60000) scatter_S20000_S60000x1_S60000_n_0_0_1 rfl rfl rfl rfl,
    Read.val_main_v12_apply, Read.val_main_cst_2_apply]
  show Ideal.ofBits .f32 0x00000000#32 + _ = _
  rw [Ideal.ofBits_zero_f32]
  unfold Cert.Spec.ents
  simp only [mapper_word13, Read.val_main_v11_apply, Read.val_main_cst_1_apply]
  rfl

end

theorem pmean_eq [Cert.ReferenceIdeal.Facts]
    (x0 : (⟨4, ![8, 12, 1000, 32]⟩ : Shape).Idx → EReal) (x2 x3 : (⟨1, ![60000]⟩ : Shape).Idx → BitVec 32)
    (hbt : ∀ e : Fin 60000, (x2 (ix1 e)).toNat < 1000) (b : Fin 8) (n : Fin 20000) (d : Fin 384) :
    (Cert.ReferenceIdeal.Read.val_main_v22 (F := Ideal) x0 x2 x3 : (⟨3, ![8, 20000, 384]⟩ : Shape).Idx → EReal) (ix3 b n d)
      = Cert.Spec.pmean x0 x2 x3 b n d := by
  have hb := b.isLt
  have hn := n.isLt
  have hd := d.isLt
  -- through the reshape and the two transposes, (b, n, t · 32 + f) reads the quotient at (n, b, t, f)
  have hi : Read.idx_main_v20 (Read.idx_main_v21 (Read.idx_main_v22 (ix3 b n d)))
      = ix4 n b (Cert.Spec.tOf d) (Cert.Spec.fOf d) := by
    funext y; refine Fin.ext ?_
    match y with
    | ⟨0, _⟩ => show ((b.val * 20000 + n.val) * 384 + d.val) / 384 % 20000 = n.val; omega
    | ⟨1, _⟩ => show ((b.val * 20000 + n.val) * 384 + d.val) / 7680000 = b.val; omega
    | ⟨2, _⟩ => show ((b.val * 20000 + n.val) * 384 + d.val) / 32 % 12 = d.val / 32; omega
    | ⟨3, _⟩ => show ((b.val * 20000 + n.val) * 384 + d.val) % 32 = d.val % 32; omega
  -- the divisor is broadcast from the node's own count
  have hj : Read.idx_main_v17 (Read.idx_main_v18 (ix4 n b (Cert.Spec.tOf d) (Cert.Spec.fOf d))) = ix1 n := by
    funext y; refine Fin.ext ?_
    match y with
    | ⟨0, _⟩ => rfl
  rw [Read.val_main_v22_apply, Read.val_main_v21_apply, Read.val_main_v20_apply, hi, Read.val_main_v19_apply,
    summed x0 x2 x3 hbt, Read.val_main_v18_apply, Read.val_main_v17_apply, hj, Read.val_main_v16_apply, counted x3,
    Read.val_main_v15_apply, Read.val_main_cst_3_apply]
  rfl

end Cert.RefMean

end
-- ==== Proof.RefValue.lean ====
import proofs.«409963_j30348238914067_2_alg».proof.Proof.Gen.ReferenceIdeal.Read
import proofs.«409963_j30348238914067_2_alg».proof.Proof.Spec
import proofs.«409963_j30348238914067_2_alg».proof.Proof.RefMean
import Idealize.ShloMosaic.Lib.Pipeline.Value
import Idealize.ShloMosaic.Lib.ValueIdx
import Idealize.ShloMosaic.PureOps.Ideal.Laws

/-! # The reference computes the specification

The reference gathers the patch rows the batch words name, adds them into their nodes, divides by the entry counts, lays the result
beside the nodes' own features and applies the two layers. With every batch word a patch number the gather reads exactly that patch. -/

open scoped BigOperators

noncomputable section

namespace Cert.RefValue

open Idealize.ShloMosaic Idealize.ShloMosaic.ValueIdx Cert.ReferenceIdeal Cert.ReferenceIdeal.Read

/-- The node features, moved to (batch, node, time, feature) and flattened to (batch, node, time · 32 + feature), read at
    flattened feature `d`: time step `d / 32`, feature `d % 32`. -/
theorem own_idx (b : Fin 8) (n : Fin 20000) (d : Fin 384) :
    idx_main_v23 (idx_main_v24 (ix3 b n d)) = ix4 b (Cert.Spec.tOf d) n (Cert.Spec.fOf d) := by
  have hb := b.isLt; have hn := n.isLt; have hd := d.isLt
  funext a
  apply Fin.ext
  match a with
  | ⟨0, _⟩ => show ((b.val * 20000 + n.val) * 384 + d.val) / 7680000 = b.val; omega
  | ⟨1, _⟩ => show ((b.val * 20000 + n.val) * 384 + d.val) / 32 % 12 = d.val / 32; omega
  | ⟨2, _⟩ => show ((b.val * 20000 + n.val) * 384 + d.val) / 384 % 20000 = n.val; omega
  | ⟨3, _⟩ => show ((b.val * 20000 + n.val) * 384 + d.val) % 32 = d.val % 32; omega

theorem own_apply [Cert.ReferenceIdeal.Facts] (x1 : (⟨4, ![8, 12, 20000, 32]⟩ : Shape).Idx → EReal)
    (b : Fin 8) (n : Fin 20000) (d : Fin 384) :
    (val_main_v24 (F := Ideal) x1 : (⟨3, ![8, 20000, 384]⟩ : Shape).Idx → EReal) (ix3 b n d)
      = x1 (ix4 b (Cert.Spec.tOf d) n (Cert.Spec.fOf d)) := by
  rw [val_main_v24_apply, val_main_v23_apply, own_idx]

/-- The 768 inputs of the first layer at (batch, node): the node's own features laid before the averaged patch features. -/
theorem cat_apply [Cert.ReferenceIdeal.Facts]
    (x0 : (⟨4, ![8, 12, 1000, 32]⟩ : Shape).Idx → EReal) (x1 : (⟨4, ![8, 12, 20000, 32]⟩ : Shape).Idx → EReal)
    (x2 x3 : (⟨1, ![60000]⟩ : Shape).Idx → BitVec 32)
    (hbt : ∀ e : Fin 60000, (x2 (ix1 e)).toNat < 1000) (b : Fin 8) (n : Fin 20000) (k : Fin 768) :
    (val_main_v25 (F := Ideal) x0 x1 x2 x3 : (⟨3, ![8, 20000, 768]⟩ : Shape).Idx → EReal) (ix3 b n k)
      = Cert.Spec.mlpIn x0 x1 x2 x3 b n k := by
  unfold val_main_v25 Cert.Spec.mlpIn
  by_cases hk : k.val < 384
  · rw [dif_pos hk, ← own_apply x1 b n ⟨k.val, hk⟩]
    exact concatenate_pair_apply_left (t := S8x20000x768) (s₁ := S8x20000x384) (s₂ := S8x20000x384) 2
      (val_main_v24 (F := Ideal) x1) (val_main_v22 (F := Ideal) x0 x2 x3) _ (ix3 b n k) rfl
      (ix3 b n (⟨k.val, hk⟩ : Fin 384)) (fun a => by
      match a with
      | ⟨0, _⟩ => rfl
      | ⟨1, _⟩ => rfl
      | ⟨2, _⟩ => rfl)
  · have hk' : k.val - 384 < 384 := by have := k.isLt; omega
    rw [dif_neg hk, ← Cert.RefMean.pmean_eq x0 x2 x3 hbt b n ⟨k.val - 384, hk'⟩]
    exact concatenate_pair_apply_right (t := S8x20000x768) (s₁ := S8x20000x384) (s₂ := S8x20000x384) 2
      (val_main_v24 (F := Ideal) x1) (val_main_v22 (F := Ideal) x0 x2 x3) _ (ix3 b n k) rfl rfl
      (ix3 b n (⟨k.val - 384, hk'⟩ : Fin 384))
      (fun a ha => by
        match a with
        | ⟨0, _⟩ => rfl
        | ⟨1, _⟩ => rfl
        | ⟨2, _⟩ => exact absurd rfl ha)
      (by show (k.val - 384) + 384 = k.val; omega)

/-- The first layer's bias, broadcast over batch and node, read at hidden unit `h`. -/
theorem bias1_idx (b : Fin 8) (n : Fin 20000) (h : Fin 768) :
    idx_main_v27 (idx_main_v28 (ix3 b n h)) = ix1 h :=
  funext fun a => Fin.ext (by match a with | ⟨0, _⟩ => rfl)

/-- The second layer's bias, broadcast over batch and node, read at horizon `j`. -/
theorem bias2_idx (b : Fin 8) (n : Fin 20000) (j : Fin 12) :
    idx_main_v32 (idx_main_v33 (ix3 b n j)) = ix1 j :=
  funext fun a => Fin.ext (by match a with | ⟨0, _⟩ => rfl)

/-- The first product contracts the 768 inputs at (batch, node) against column `h` of the first weight matrix. -/
theorem dot1_lidx (b : Fin 8) (n : Fin 20000) (h k : Fin 768) : lidx_main_v26 (ix3 b n h) k = ix3 b n k :=
  funext fun a => Fin.ext (by match a with | ⟨0, _⟩ => rfl | ⟨1, _⟩ => rfl | ⟨2, _⟩ => rfl)
theorem dot1_ridx (b : Fin 8) (n : Fin 20000) (h k : Fin 768) : ridx_main_v26 (ix3 b n h) k = ix2 k h :=
  funext fun a => Fin.ext (by match a with | ⟨0, _⟩ => rfl | ⟨1, _⟩ => rfl)

/-- The second product contracts the 768 hidden units at (batch, node) against column `j` of the second weight matrix. -/
theorem dot2_lidx (b : Fin 8) (n : Fin 20000) (j : Fin 12) (k : Fin 768) : lidx_main_v31 (ix3 b n j) k = ix3 b n k :=
  funext fun a => Fin.ext (by match a with | ⟨0, _⟩ => rfl | ⟨1, _⟩ => rfl | ⟨2, _⟩ => rfl)
theorem dot2_ridx (b : Fin 8) (n : Fin 20000) (j : Fin 12) (k : Fin 768) : ridx_main_v31 (ix3 b n j) k = ix2 k j :=
  funext fun a => Fin.ext (by match a with | ⟨0, _⟩ => rfl | ⟨1, _⟩ => rfl)

/-- Hidden unit `h` at (batch, node): the first product plus its bias, cut off below at zero. -/
theorem hid_apply [Cert.ReferenceIdeal.Facts]
    (x0 : (⟨4, ![8, 12, 1000, 32]⟩ : Shape).Idx → EReal) (x1 : (⟨4, ![8, 12, 20000, 32]⟩ : Shape).Idx → EReal)
    (x2 x3 : (⟨1, ![60000]⟩ : Shape).Idx → BitVec 32)
    (x4 : (⟨2, ![768, 768]⟩ : Shape).Idx → EReal) (x5 : (⟨1, ![768]⟩ : Shape).Idx → EReal)
    (hbt : ∀ e : Fin 60000, (x2 (ix1 e)).toNat < 1000) (b : Fin 8) (n : Fin 20000) (h : Fin 768) :
    (val_main_v30 (F := Ideal) x0 x1 x2 x3 x4 x5 : (⟨3, ![8, 20000, 768]⟩ : Shape).Idx → EReal) (ix3 b n h)
      = Cert.Spec.hid x0 x1 x2 x3 x4 x5 b n h := by
  rw [val_main_v30_apply, val_main_v29_apply, val_main_v26_apply, val_main_v28_apply, val_main_v27_apply,
    val_main_call0_v0_apply, val_main_call0_cst_apply, bias1_idx]
  simp only [dot1_lidx, dot1_ridx, Ideal.maximumf_def, Ideal.addf_def, Ideal.ofBits_def, Ideal.ofBits_zero_f32]
  unfold Cert.Spec.hid
  congr 2
  exact Finset.sum_congr rfl fun k _ => by rw [cat_apply x0 x1 x2 x3 hbt b n k]

theorem ref_eq [Cert.ReferenceIdeal.Facts]
    (x0 : (⟨4, ![8, 12, 1000, 32]⟩ : Shape).Idx → EReal) (x1 : (⟨4, ![8, 12, 20000, 32]⟩ : Shape).Idx → EReal)
    (x2 x3 : (⟨1, ![60000]⟩ : Shape).Idx → BitVec 32)
    (x4 : (⟨2, ![768, 768]⟩ : Shape).Idx → EReal) (x5 : (⟨1, ![768]⟩ : Shape).Idx → EReal)
    (x6 : (⟨2, ![768, 12]⟩ : Shape).Idx → EReal) (x7 : (⟨1, ![12]⟩ : Shape).Idx → EReal)
    (hbt : ∀ e : Fin 60000, (x2 (ix1 e)).toNat < 1000) :
    Cert.ReferenceIdeal.Read.val_main_v34 (F := Ideal) x0 x1 x2 x3 x4 x5 x6 x7
      = Cert.Spec.out x0 x1 x2 x3 x4 x5 x6 x7 := by
  funext i
  obtain ⟨b, n, j, rfl⟩ : ∃ (b : Fin 8) (n : Fin 20000) (j : Fin 12), i = ix3 b n j := ⟨i 0, i 1, i 2, eq_ix3 i⟩
  rw [val_main_v34_apply, val_main_v31_apply, val_main_v33_apply, val_main_v32_apply, bias2_idx]
  simp only [dot2_lidx, dot2_ridx, Ideal.addf_def]
  unfold Cert.Spec.out
  congr 1
  exact Finset.sum_congr rfl fun k _ => by rw [hid_apply x0 x1 x2 x3 x4 x5 hbt b n k]

end Cert.RefValue

end
-- ==== Proof.KBody.lean ====
import proofs.«409963_j30348238914067_2_alg».proof.Proof.Gen.KernelIdeal.Frame
import Idealize.ShloMosaic.Lib.Pipeline.Value
import Idealize.ShloMosaic.Lib.ValueIdx

/-! # What one grid point leaves in the output block

The body runs eight trips, one per batch. Trip `k` reads slab `k` of the patch block and of the node block, computes an 800 × 12
slab from them and from the seven blocks read whole before the loop, and stores it as slab `k` of the 8 × 800 × 12 output block.
The slabs are disjoint and fill the block, so entry (b, r, o) of the block is entry (0, r, o) of trip `b`'s slab: every store is the
restriction to its slab of one function of the block index. -/

set_option maxRecDepth 16384

noncomputable section

namespace Cert.KBody

open Idealize.ShloMosaic Idealize.ShloMosaic.TcCoe Idealize.ShloMosaic.ValueIdx Idealize.SL.Sem
open Cert.KernelIdeal Cert.KernelIdeal.Gen

variable {F : FTy → Type} [FloatOps F]

/-- The loop runs eight trips. -/
theorem trips_eq : k0_t1_loop.trips = 8 := by decide +kernel

section
variable (v0 : Vec F S800x1000 .bf16) (v2 : Vec F S800x1 .f32) (v4 : Vec F S384x768 .bf16) (v6 : Vec F S384x768 .bf16) (v8 : Vec F S1x768 .f32) (v10 : Vec F S768x12 .bf16) (v12 : Vec F S1x12 .f32)
  (X3 : S8x1000x384.Idx → Elt F .bf16) (X4 : S8x800x384.Idx → Elt F .bf16)

/-- What trip `k` stores: the body's arithmetic on the blocks read whole and on slab `k` of the patch and node blocks. -/
def slab (k : Fin k0_t1_loop.trips) : S1x800x12.Idx → Elt F .f32 :=
  k0_pay1 v0 v2 v4 v6 v8 v10 v12
    (View.ld X3 (Rect.unit (s := S8x1000x384) (k0_off1 k) S1x1000x384.size (k0_off1_inb k)))
    (View.ld X4 (Rect.unit (s := S8x800x384) (k0_off2 k) S1x800x384.size (k0_off2_inb k)))

/-- The whole output block: entry (b, r, o) is entry (0, r, o) of trip `b`'s slab. -/
def block (y : S8x800x12.Idx) : Elt F .f32 :=
  slab v0 v2 v4 v6 v8 v10 v12 X3 X4 ⟨(y 0).val, by rw [trips_eq]; exact (y 0).isLt⟩ (ix3 (0 : Fin 1) (y 1) (y 2))

/-- Trip `k`'s slab is the block function restricted to slab `k`. -/
theorem slab_agrees (k : Fin k0_t1_loop.trips)
    (x : (Rect.unit (s := S8x800x12) (k0_off3 k) S1x800x12.size (k0_off3_inb k)).shape.Idx) :
    slab v0 v2 v4 v6 v8 v10 v12 X3 X4 k x
      = block v0 v2 v4 v6 v8 v10 v12 X3 X4 ((Rect.unit (s := S8x800x12) (k0_off3 k) S1x800x12.size (k0_off3_inb k)).emb x) := by
  have h0 : (((Rect.unit (s := S8x800x12) (k0_off3 k) S1x800x12.size (k0_off3_inb k)).emb x) 0).val = k.val := by
    show k0_off3 k 0 + 1 * (x 0).val = k.val
    have e : k0_off3 k 0 = k.val := congrFun (k0_off3_eq k) 0
    have : (x 0).val < 1 := (x 0).isLt
    omega
  have h1 : (((Rect.unit (s := S8x800x12) (k0_off3 k) S1x800x12.size (k0_off3_inb k)).emb x) 1).val = (x 1).val := by
    show k0_off3 k 1 + 1 * (x 1).val = (x 1).val
    have e : k0_off3 k 1 = 0 := congrFun (k0_off3_eq k) 1
    omega
  have h2 : (((Rect.unit (s := S8x800x12) (k0_off3 k) S1x800x12.size (k0_off3_inb k)).emb x) 2).val = (x 2).val := by
    show k0_off3 k 2 + 1 * (x 2).val = (x 2).val
    have e : k0_off3 k 2 = 0 := congrFun (k0_off3_eq k) 2
    omega
  unfold block
  have e1 : (⟨(((Rect.unit (s := S8x800x12) (k0_off3 k) S1x800x12.size (k0_off3_inb k)).emb x) 0).val,
      by rw [trips_eq]; exact (((Rect.unit (s := S8x800x12) (k0_off3 k) S1x800x12.size (k0_off3_inb k)).emb x) 0).isLt⟩ : Fin k0_t1_loop.trips) = k :=
    Fin.ext h0
  have e2 : (ix3 (0 : Fin 1) (((Rect.unit (s := S8x800x12) (k0_off3 k) S1x800x12.size (k0_off3_inb k)).emb x) 1)
      (((Rect.unit (s := S8x800x12) (k0_off3 k) S1x800x12.size (k0_off3_inb k)).emb x) 2) : S1x800x12.Idx) = x := by
    funext a
    refine Fin.ext ?_
    match a with
    | ⟨0, _⟩ => have : (x 0).val < 1 := (x 0).isLt; show 0 = (x 0).val; omega
    | ⟨1, _⟩ => exact h1
    | ⟨2, _⟩ => exact h2
  rw [e1, e2]

end

/-- The one piece trip `k` writes. -/
theorem tripL_eq (𝒱 : Variants) (c : Dev nD) (bd : Option 𝒱.V) (i : grid0.Coords) (arg1 : Memref sig .tc .vmem S800x1000 .bf16) (harg1 : arg1.IsWhole) (arg2 : Memref sig .tc .vmem S800x1 .f32) (harg2 : arg2.IsWhole) (arg3 : Memref sig .tc .vmem S8x1000x384 .bf16) (harg3 : arg3.IsWhole) (arg4 : Memref sig .tc .vmem S8x800x384 .bf16) (harg4 : arg4.IsWhole) (arg5 : Memref sig .tc .vmem S384x768 .bf16) (harg5 : arg5.IsWhole) (arg6 : Memref sig .tc .vmem S384x768 .bf16) (harg6 : arg6.IsWhole) (arg7 : Memref sig .tc .vmem S1x768 .f32) (harg7 : arg7.IsWhole) (arg8 : Memref sig .tc .vmem S768x12 .bf16) (harg8 : arg8.IsWhole) (arg9 : Memref sig .tc .vmem S1x12 .f32) (harg9 : arg9.IsWhole) (arg10 : Memref sig .tc .vmem S8x800x12 .f32) (harg10 : arg10.IsWhole) (v0 : Vec F S800x1000 .bf16) (v2 : Vec F S800x1 .f32) (v4 : Vec F S384x768 .bf16) (v6 : Vec F S384x768 .bf16) (v8 : Vec F S1x768 .f32) (v10 : Vec F S768x12 .bf16) (v12 : Vec F S1x12 .f32) (X_arg3 : BufTy.Contents (Elt F) arg3.view.ty) (X_arg4 : BufTy.Contents (Elt F) arg4.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 v0 v2 v4 v6 v8 v10 v12 X_arg3 X_arg4 k
      = [⟨Rect.unit (s := S8x800x12) (k0_off3 k) S1x800x12.size (k0_off3_inb k),
          slab v0 v2 v4 v6 v8 v10 v12 (arg3.view.read (Elt F) X_arg3) (arg4.view.read (Elt F) X_arg4) k⟩] := by
  unfold tripL_k0_t1 trip_k0_t1
  rfl

/-- Every piece of the trips before `k` is the block function restricted to its slab. -/
theorem pb_agrees (𝒱 : Variants) (c : Dev nD) (bd : Option 𝒱.V) (i : grid0.Coords) (arg1 : Memref sig .tc .vmem S800x1000 .bf16) (harg1 : arg1.IsWhole) (arg2 : Memref sig .tc .vmem S800x1 .f32) (harg2 : arg2.IsWhole) (arg3 : Memref sig .tc .vmem S8x1000x384 .bf16) (harg3 : arg3.IsWhole) (arg4 : Memref sig .tc .vmem S8x800x384 .bf16) (harg4 : arg4.IsWhole) (arg5 : Memref sig .tc .vmem S384x768 .bf16) (harg5 : arg5.IsWhole) (arg6 : Memref sig .tc .vmem S384x768 .bf16) (harg6 : arg6.IsWhole) (arg7 : Memref sig .tc .vmem S1x768 .f32) (harg7 : arg7.IsWhole) (arg8 : Memref sig .tc .vmem S768x12 .bf16) (harg8 : arg8.IsWhole) (arg9 : Memref sig .tc .vmem S1x12 .f32) (harg9 : arg9.IsWhole) (arg10 : Memref sig .tc .vmem S8x800x12 .f32) (harg10 : arg10.IsWhole) (v0 : Vec F S800x1000 .bf16) (v2 : Vec F S800x1 .f32) (v4 : Vec F S384x768 .bf16) (v6 : Vec F S384x768 .bf16) (v8 : Vec F S1x768 .f32) (v10 : Vec F S768x12 .bf16) (v12 : Vec F S1x12 .f32)
    (X_arg3 : BufTy.Contents (Elt F) arg3.view.ty) (X_arg4 : BufTy.Contents (Elt F) arg4.view.ty) :
    ∀ k : ℕ, k ≤ k0_t1_loop.trips → ∀ p ∈ pb_k0_t1 (F := F) 𝒱 c bd i arg1 harg1 arg2 harg2 arg3 harg3 arg4 harg4 arg5 harg5 arg6 harg6 arg7 harg7 arg8 harg8 arg9 harg9 arg10 harg10 v0 v2 v4 v6 v8 v10 v12 X_arg3 X_arg4 k, ∀ x : p.1.shape.Idx,
      p.2 x = block v0 v2 v4 v6 v8 v10 v12 (arg3.view.read (Elt F) X_arg3) (arg4.view.read (Elt F) X_arg4) (p.1.emb x)
  | 0, _, p, hp, _ => by rw [pb_k0_t1] at hp; exact absurd hp List.not_mem_nil
  | k + 1, hk, p, hp, x => by
    have hk' : k < k0_t1_loop.trips := hk
    rw [pb_k0_t1_succ (F := F) 𝒱 c bd i arg1 harg1 arg2 harg2 arg3 harg3 arg4 harg4 arg5 harg5 arg6 harg6 arg7 harg7 arg8 harg8 arg9 harg9 arg10 harg10 v0 v2 v4 v6 v8 v10 v12 X_arg3 X_arg4 ⟨k, hk'⟩, List.mem_append, tripL_eq] at hp
    rcases hp with hp | hp
    · obtain rfl := List.mem_singleton.mp hp
      exact slab_agrees v0 v2 v4 v6 v8 v10 v12 _ _ ⟨k, hk'⟩ x
    · exact pb_agrees 𝒱 c bd i arg1 harg1 arg2 harg2 arg3 harg3 arg4 harg4 arg5 harg5 arg6 harg6 arg7 harg7 arg8 harg8 arg9 harg9 arg10 harg10 v0 v2 v4 v6 v8 v10 v12 X_arg3 X_arg4 k (Nat.le_of_lt hk') p hp x

/-- Two zero offsets, however spelt. -/
theorem zero2 : (![0, 0] : Fin 2 → ℕ) = fun _ => 0 := by
  funext a
  match a with
  | ⟨0, _⟩ => rfl
  | ⟨1, _⟩ => rfl

/-- WHAT THE BODY LEAVES in the output block, as a function of the nine input blocks: the block function. The run's stores are the
    eight slabs; they cover the block, and each is the block function on its slab. -/
theorem out0_eq (c : Dev nD) (i : grid0.Coords) (arg1 : Memref sig .tc .vmem S800x1000 .bf16) (harg1 : arg1.IsWhole) (arg2 : Memref sig .tc .vmem S800x1 .f32) (harg2 : arg2.IsWhole) (arg3 : Memref sig .tc .vmem S8x1000x384 .bf16) (harg3 : arg3.IsWhole) (arg4 : Memref sig .tc .vmem S8x800x384 .bf16) (harg4 : arg4.IsWhole) (arg5 : Memref sig .tc .vmem S384x768 .bf16) (harg5 : arg5.IsWhole) (arg6 : Memref sig .tc .vmem S384x768 .bf16) (harg6 : arg6.IsWhole) (arg7 : Memref sig .tc .vmem S1x768 .f32) (harg7 : arg7.IsWhole) (arg8 : Memref sig .tc .vmem S768x12 .bf16) (harg8 : arg8.IsWhole) (arg9 : Memref sig .tc .vmem S1x12 .f32) (harg9 : arg9.IsWhole) (arg10 : Memref sig .tc .vmem S8x800x12 .f32) (harg10 : arg10.IsWhole) (x0 : Vec F S800x1000 .bf16) (x1 : Vec F S800x1 .f32) (x2 : Vec F S8x1000x384 .bf16) (x3 : Vec F S8x800x384 .bf16) (x4 : Vec F S384x768 .bf16) (x5 : Vec F S384x768 .bf16) (x6 : Vec F S1x768 .f32) (x7 : Vec F S768x12 .bf16) (x8 : Vec F S1x12 .f32) :
    out0_A_9 (F := F) c i arg1 harg1 arg2 harg2 arg3 harg3 arg4 harg4 arg5 harg5 arg6 harg6 arg7 harg7 arg8 harg8 arg9 harg9 arg10 harg10 x0 x1 x2 x3 x4 x5 x6 x7 x8 = block x0 x1 x4 x5 x6 x7 x8 x2 x3 := by
  funext y
  unfold out0_A_9
  have hL : ∀ p ∈ (kernelRun0_A (F := F) c i arg1 harg1 arg2 harg2 arg3 harg3 arg4 harg4 arg5 harg5 arg6 harg6 arg7 harg7 arg8 harg8 arg9 harg9 arg10 harg10 x0 x1 x2 x3 x4 x5 x6 x7 x8).1, ∀ x : p.1.shape.Idx,
      p.2 x = block x0 x1 x4 x5 x6 x7 x8 x2 x3 (p.1.emb x) := by
    unfold kernelRun0_A
    dsimp only
    intro p hp x
    have h := pb_agrees (F := F) Variants.none c none i arg1 harg1 arg2 harg2 arg3 harg3 arg4 harg4 arg5 harg5 arg6 harg6 arg7 harg7 arg8 harg8 arg9 harg9 arg10 harg10 _ _ _ _ _ _ _ (harg3.unread x2) (harg4.unread x3) _ le_rfl p hp x
    simpa only [View.readAt_eq_ld, harg1.read_unread, harg2.read_unread, harg3.read_unread, harg4.read_unread, harg5.read_unread,
      harg6.read_unread, harg7.read_unread, harg8.read_unread, harg9.read_unread,
      View.ld_unit_zero (S := S800x1000) zero2, View.ld_unit_zero (S := S800x1) zero2, View.ld_unit_zero (S := S384x768) zero2,
      View.ld_unit_zero (S := S1x768) zero2, View.ld_unit_zero (S := S768x12) zero2, View.ld_unit_zero (S := S1x12) zero2] using h
  exact View.read_writes_apply_of_pieces VO0_9 _ _ _ hL y (cover0_A_9 (F := F) c i arg1 harg1 arg2 harg2 arg3 harg3 arg4 harg4 arg5 harg5 arg6 harg6 arg7 harg7 arg8 harg8 arg9 harg9 arg10 harg10 x0 x1 x2 x3 x4 x5 x6 x7 x8 y)

end Cert.KBody

end
-- ==== Proof.KPay.lean ====
import proofs.«409963_j30348238914067_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

/-! # One trip's slab of the kernel's output, entry by entry

For one batch the body multiplies the 800 × 1000 block of counts by the batch's 1000 × 384 patch features, scales each row by its
reciprocal, applies the first layer as the sum of two 384-term products plus the bias row, takes `max · 0`, and applies the second
layer plus its bias row. Changes of float format are the identity on the extended reals, and a product into a zero accumulator is
the plain sum over the contracted index. -/

open scoped BigOperators

noncomputable section

namespace Cert.KPay

open Idealize.ShloMosaic Idealize.ShloMosaic.ValueIdx Cert.KernelIdeal Cert.KernelIdeal.Gen

/-! ## The counts times the patch features: 800 × 1000 by 1000 × 384 -/

/-- The left operand's row is the output's row. -/
theorem lhs_cntFeat_0 (i : S800x384.Idx) (q : dot_S800x1000_S1000x384_S800x384_1_0_0_1_n_n.contr.Idx) :
    (dot_S800x1000_S1000x384_S800x384_1_0_0_1_n_n.lhsIdx i q 0).val = (i 0).val := by
  unfold DotDims.lhsIdx
  rw [dif_neg (show ¬(0 : Fin S800x1000.rank) ∈ dot_S800x1000_S1000x384_S800x384_1_0_0_1_n_n.lhsBatch by decide), dif_pos (show (0 : Fin S800x1000.rank) ∈ dot_S800x1000_S1000x384_S800x384_1_0_0_1_n_n.lhsNonContracting by decide)]
  rfl
/-- The left operand's column is the contracted coordinate. -/
theorem lhs_cntFeat_1 (i : S800x384.Idx) (q : dot_S800x1000_S1000x384_S800x384_1_0_0_1_n_n.contr.Idx) :
    (dot_S800x1000_S1000x384_S800x384_1_0_0_1_n_n.lhsIdx i q 1).val = (q ⟨0, by decide⟩).val :=
  dot_S800x1000_S1000x384_S800x384_1_0_0_1_n_n.lhsIdx_val_of_single rfl i q
/-- The right operand's row is the contracted coordinate. -/
theorem rhs_cntFeat_0 (i : S800x384.Idx) (q : dot_S800x1000_S1000x384_S800x384_1_0_0_1_n_n.contr.Idx) :
    (dot_S800x1000_S1000x384_S800x384_1_0_0_1_n_n.rhsIdx i q 0).val = (q ⟨0, by decide⟩).val :=
  dot_S800x1000_S1000x384_S800x384_1_0_0_1_n_n.rhsIdx_val_of_single rfl i q
/-- The right operand's column is the output's column. -/
theorem rhs_cntFeat_1 (i : S800x384.Idx) (q : dot_S800x1000_S1000x384_S800x384_1_0_0_1_n_n.contr.Idx) :
    (dot_S800x1000_S1000x384_S800x384_1_0_0_1_n_n.rhsIdx i q 1).val = (i 1).val := by
  unfold DotDims.rhsIdx
  rw [dif_neg (show ¬(1 : Fin S1000x384.rank) ∈ dot_S800x1000_S1000x384_S800x384_1_0_0_1_n_n.rhsBatch by decide), dif_pos (show (1 : Fin S1000x384.rank) ∈ dot_S800x1000_S1000x384_S800x384_1_0_0_1_n_n.rhsNonContracting by decide)]
  rfl

/-- Into the zero accumulator the product at `(a, c)` is `∑ k, l (a, k) · r (k, c)`. -/
theorem cntFeat_apply (l : FVec Ideal S800x1000 .bf16) (r : FVec Ideal S1000x384 .bf16) (a : Fin 800) (c : Fin 384) :
    matmul dot_S800x1000_S1000x384_S800x384_1_0_0_1_n_n none l r (constant (F := Ideal) S800x384 .f32 0x00000000#32) (ix2 a c)
      = ∑ k : Fin 1000, l (ix2 a k) * r (ix2 k c) := by
  simp only [matmul]
  rw [Ideal.matmul_constant_zero_apply, ← Equiv.sum_comp (contrEquiv1 dot_S800x1000_S1000x384_S800x384_1_0_0_1_n_n 1000 rfl rfl).symm]
  refine Finset.sum_congr rfl fun k _ => ?_
  have hk := contrEquiv1_symm_val dot_S800x1000_S1000x384_S800x384_1_0_0_1_n_n 1000 rfl rfl k
  have el : dot_S800x1000_S1000x384_S800x384_1_0_0_1_n_n.lhsIdx (ix2 a c) ((contrEquiv1 dot_S800x1000_S1000x384_S800x384_1_0_0_1_n_n 1000 rfl rfl).symm k) = ix2 a k := funext fun x => Fin.ext (by
    match x with
    | ⟨0, _⟩ => exact lhs_cntFeat_0 _ _
    | ⟨1, _⟩ => exact (lhs_cntFeat_1 _ _).trans hk)
  have er : dot_S800x1000_S1000x384_S800x384_1_0_0_1_n_n.rhsIdx (ix2 a c) ((contrEquiv1 dot_S800x1000_S1000x384_S800x384_1_0_0_1_n_n 1000 rfl rfl).symm k) = ix2 k c := funext fun x => Fin.ext (by
    match x with
    | ⟨0, _⟩ => exact (rhs_cntFeat_0 _ _).trans hk
    | ⟨1, _⟩ => exact rhs_cntFeat_1 _ _)
  rw [el, er]

/-! ## One half of the first layer: 800 × 384 by 384 × 768 -/

/-- The left operand's row is the output's row. -/
theorem lhs_half_0 (i : S800x768.Idx) (q : dot_S800x384_S384x768_S800x768_1_0_0_1_n_n.contr.Idx) :
    (dot_S800x384_S384x768_S800x768_1_0_0_1_n_n.lhsIdx i q 0).val = (i 0).val := by
  unfold DotDims.lhsIdx
  rw [dif_neg (show ¬(0 : Fin S800x384.rank) ∈ dot_S800x384_S384x768_S800x768_1_0_0_1_n_n.lhsBatch by decide), dif_pos (show (0 : Fin S800x384.rank) ∈ dot_S800x384_S384x768_S800x768_1_0_0_1_n_n.lhsNonContracting by decide)]
  rfl
/-- The left operand's column is the contracted coordinate. -/
theorem lhs_half_1 (i : S800x768.Idx) (q : dot_S800x384_S384x768_S800x768_1_0_0_1_n_n.contr.Idx) :
    (dot_S800x384_S384x768_S800x768_1_0_0_1_n_n.lhsIdx i q 1).val = (q ⟨0, by decide⟩).val :=
  dot_S800x384_S384x768_S800x768_1_0_0_1_n_n.lhsIdx_val_of_single rfl i q
/-- The right operand's row is the contracted coordinate. -/
theorem rhs_half_0 (i : S800x768.Idx) (q : dot_S800x384_S384x768_S800x768_1_0_0_1_n_n.contr.Idx) :
    (dot_S800x384_S384x768_S800x768_1_0_0_1_n_n.rhsIdx i q 0).val = (q ⟨0, by decide⟩).val :=
  dot_S800x384_S384x768_S800x768_1_0_0_1_n_n.rhsIdx_val_of_single rfl i q
/-- The right operand's column is the output's column. -/
theorem rhs_half_1 (i : S800x768.Idx) (q : dot_S800x384_S384x768_S800x768_1_0_0_1_n_n.contr.Idx) :
    (dot_S800x384_S384x768_S800x768_1_0_0_1_n_n.rhsIdx i q 1).val = (i 1).val := by
  unfold DotDims.rhsIdx
  rw [dif_neg (show ¬(1 : Fin S384x768.rank) ∈ dot_S800x384_S384x768_S800x768_1_0_0_1_n_n.rhsBatch by decide), dif_pos (show (1 : Fin S384x768.rank) ∈ dot_S800x384_S384x768_S800x768_1_0_0_1_n_n.rhsNonContracting by decide)]
  rfl

/-- Into the zero accumulator the product at `(a, c)` is `∑ k, l (a, k) · r (k, c)`. -/
theorem half_apply (l : FVec Ideal S800x384 .bf16) (r : FVec Ideal S384x768 .bf16) (a : Fin 800) (c : Fin 768) :
    matmul dot_S800x384_S384x768_S800x768_1_0_0_1_n_n none l r (constant (F := Ideal) S800x768 .f32 0x00000000#32) (ix2 a c)
      = ∑ k : Fin 384, l (ix2 a k) * r (ix2 k c) := by
  simp only [matmul]
  rw [Ideal.matmul_constant_zero_apply, ← Equiv.sum_comp (contrEquiv1 dot_S800x384_S384x768_S800x768_1_0_0_1_n_n 384 rfl rfl).symm]
  refine Finset.sum_congr rfl fun k _ => ?_
  have hk := contrEquiv1_symm_val dot_S800x384_S384x768_S800x768_1_0_0_1_n_n 384 rfl rfl k
  have el : dot_S800x384_S384x768_S800x768_1_0_0_1_n_n.lhsIdx (ix2 a c) ((contrEquiv1 dot_S800x384_S384x768_S800x768_1_0_0_1_n_n 384 rfl rfl).symm k) = ix2 a k := funext fun x => Fin.ext (by
    match x with
    | ⟨0, _⟩ => exact lhs_half_0 _ _
    | ⟨1, _⟩ => exact (lhs_half_1 _ _).trans hk)
  have er : dot_S800x384_S384x768_S800x768_1_0_0_1_n_n.rhsIdx (ix2 a c) ((contrEquiv1 dot_S800x384_S384x768_S800x768_1_0_0_1_n_n 384 rfl rfl).symm k) = ix2 k c := funext fun x => Fin.ext (by
    match x with
    | ⟨0, _⟩ => exact (rhs_half_0 _ _).trans hk
    | ⟨1, _⟩ => exact rhs_half_1 _ _)
  rw [el, er]

/-! ## The second layer: 800 × 768 by 768 × 12 -/

/-- The left operand's row is the output's row. -/
theorem lhs_second_0 (i : S800x12.Idx) (q : dot_S800x768_S768x12_S800x12_1_0_0_1_n_n.contr.Idx) :
    (dot_S800x768_S768x12_S800x12_1_0_0_1_n_n.lhsIdx i q 0).val = (i 0).val := by
  unfold DotDims.lhsIdx
  rw [dif_neg (show ¬(0 : Fin S800x768.rank) ∈ dot_S800x768_S768x12_S800x12_1_0_0_1_n_n.lhsBatch by decide), dif_pos (show (0 : Fin S800x768.rank) ∈ dot_S800x768_S768x12_S800x12_1_0_0_1_n_n.lhsNonContracting by decide)]
  rfl
/-- The left operand's column is the contracted coordinate. -/
theorem lhs_second_1 (i : S800x12.Idx) (q : dot_S800x768_S768x12_S800x12_1_0_0_1_n_n.contr.Idx) :
    (dot_S800x768_S768x12_S800x12_1_0_0_1_n_n.lhsIdx i q 1).val = (q ⟨0, by decide⟩).val :=
  dot_S800x768_S768x12_S800x12_1_0_0_1_n_n.lhsIdx_val_of_single rfl i q
/-- The right operand's row is the contracted coordinate. -/
theorem rhs_second_0 (i : S800x12.Idx) (q : dot_S800x768_S768x12_S800x12_1_0_0_1_n_n.contr.Idx) :
    (dot_S800x768_S768x12_S800x12_1_0_0_1_n_n.rhsIdx i q 0).val = (q ⟨0, by decide⟩).val :=
  dot_S800x768_S768x12_S800x12_1_0_0_1_n_n.rhsIdx_val_of_single rfl i q
/-- The right operand's column is the output's column. -/
theorem rhs_second_1 (i : S800x12.Idx) (q : dot_S800x768_S768x12_S800x12_1_0_0_1_n_n.contr.Idx) :
    (dot_S800x768_S768x12_S800x12_1_0_0_1_n_n.rhsIdx i q 1).val = (i 1).val := by
  unfold DotDims.rhsIdx
  rw [dif_neg (show ¬(1 : Fin S768x12.rank) ∈ dot_S800x768_S768x12_S800x12_1_0_0_1_n_n.rhsBatch by decide), dif_pos (show (1 : Fin S768x12.rank) ∈ dot_S800x768_S768x12_S800x12_1_0_0_1_n_n.rhsNonContracting by decide)]
  rfl

/-- Into the zero accumulator the product at `(a, c)` is `∑ k, l (a, k) · r (k, c)`. -/
theorem second_apply (l : FVec Ideal S800x768 .bf16) (r : FVec Ideal S768x12 .bf16) (a : Fin 800) (c : Fin 12) :
    matmul dot_S800x768_S768x12_S800x12_1_0_0_1_n_n none l r (constant (F := Ideal) S800x12 .f32 0x00000000#32) (ix2 a c)
      = ∑ k : Fin 768, l (ix2 a k) * r (ix2 k c) := by
  simp only [matmul]
  rw [Ideal.matmul_constant_zero_apply, ← Equiv.sum_comp (contrEquiv1 dot_S800x768_S768x12_S800x12_1_0_0_1_n_n 768 rfl rfl).symm]
  refine Finset.sum_congr rfl fun k _ => ?_
  have hk := contrEquiv1_symm_val dot_S800x768_S768x12_S800x12_1_0_0_1_n_n 768 rfl rfl k
  have el : dot_S800x768_S768x12_S800x12_1_0_0_1_n_n.lhsIdx (ix2 a c) ((contrEquiv1 dot_S800x768_S768x12_S800x12_1_0_0_1_n_n 768 rfl rfl).symm k) = ix2 a k := funext fun x => Fin.ext (by
    match x with
    | ⟨0, _⟩ => exact lhs_second_0 _ _
    | ⟨1, _⟩ => exact (lhs_second_1 _ _).trans hk)
  have er : dot_S800x768_S768x12_S800x12_1_0_0_1_n_n.rhsIdx (ix2 a c) ((contrEquiv1 dot_S800x768_S768x12_S800x12_1_0_0_1_n_n 768 rfl rfl).symm k) = ix2 k c := funext fun x => Fin.ext (by
    match x with
    | ⟨0, _⟩ => exact (rhs_second_0 _ _).trans hk
    | ⟨1, _⟩ => exact rhs_second_1 _ _)
  rw [el, er]

/-! ## A column broadcast along the rows -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The slab at an entry -/

theorem pay_apply
    (v0 : (⟨2, ![800, 1000]⟩ : Shape).Idx → EReal) (v2 : (⟨2, ![800, 1]⟩ : Shape).Idx → EReal)
    (v4 v6 : (⟨2, ![384, 768]⟩ : Shape).Idx → EReal) (v8 : (⟨2, ![1, 768]⟩ : Shape).Idx → EReal)
    (v10 : (⟨2, ![768, 12]⟩ : Shape).Idx → EReal) (v12 : (⟨2, ![1, 12]⟩ : Shape).Idx → EReal)
    (v16 : (⟨3, ![1, 1000, 384]⟩ : Shape).Idx → EReal) (v23 : (⟨3, ![1, 800, 384]⟩ : Shape).Idx → EReal)
    (r : Fin 800) (o : Fin 12) :
    (k0_pay1 (F := Ideal) v0 v2 v4 v6 v8 v10 v12 v16 v23 : (⟨3, ![1, 800, 12]⟩ : Shape).Idx → EReal) (ix3 (0 : Fin 1) r o)
      = (∑ h : Fin 768,
          max (((∑ d : Fin 384, v23 (ix3 (0 : Fin 1) r d) * v4 (ix2 d h))
              + (∑ d : Fin 384, ((∑ p : Fin 1000, v0 (ix2 r p) * v16 (ix3 (0 : Fin 1) p d)) * v2 (ix2 r (0 : Fin 1))) * v6 (ix2 d h)))
              + v8 (ix2 (0 : Fin 1) h)) 0
            * v10 (ix2 h o))
        + v12 (ix2 (0 : Fin 1) o) := by
  unfold k0_pay1
  -- the leading unit axis, then the second layer's sum plus its bias row
  refine (shapeCast_ab_1ab_apply _ _ (0 : Fin 1) r o).trans ?_
  refine congrArg₂ (· + ·) ?_ ?_
  · refine (second_apply _ _ r o).trans (Finset.sum_congr rfl fun h _ => ?_)
    refine congrArg₂ (· * ·) ?_ (congrFun (shapeCast_self v10 _) _)
    -- the hidden unit: the maximum with zero of the two half-products plus the bias row
    refine congrArg₂ max ?_ Ideal.ofBits_zero_f32
    refine congrArg₂ (· + ·) (congrArg₂ (· + ·) ?_ ?_) ?_
    · -- the node's own features against the first half
      refine (half_apply _ _ r h).trans (Finset.sum_congr rfl fun d _ => ?_)
      exact congrArg₂ (· * ·) (shapeCast_1ab_ab_apply v23 _ r d) (congrFun (shapeCast_self v4 _) _)
    · -- the averaged patch features against the second half
      refine (half_apply _ _ r h).trans (Finset.sum_congr rfl fun d _ => ?_)
      refine congrArg₂ (· * ·) ?_ (congrFun (shapeCast_self v6 _) _)
      refine (truncf_apply (ψ := .bf16) (φ := .f32) _ bitsLt_bf16_f32 (ix2 r d)).trans ?_
      refine (mulf_apply (φ := .f32) _ _ (ix2 r d)).trans (congrArg₂ (· * ·) ?_ ?_)
      · refine (cntFeat_apply _ _ r d).trans (Finset.sum_congr rfl fun p _ => ?_)
        exact congrArg₂ (· * ·) (congrFun (shapeCast_self v0 _) _) (shapeCast_1ab_ab_apply v16 _ p d)
      · exact (broadcastTo_a1_ab_apply _ _ r d).trans (congrFun (shapeCast_self v2 _) _)
    · exact (broadcastTo_1b_ab_apply _ _ r h).trans (congrFun (shapeCast_self v8 _) _)
  · exact (broadcastTo_1b_ab_apply _ _ r o).trans (congrFun (shapeCast_self v12 _) _)

end Cert.KPay

end
-- ==== Proof.KHost.lean ====
import proofs.«409963_j30348238914067_2_alg».proof.Proof.Gen.KernelIdeal.Frame
import proofs.«409963_j30348238914067_2_alg».proof.Proof.Spec
import proofs.«409963_j30348238914067_2_alg».proof.Proof.LibScatterAddVec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

/-! # The arrays the kernel's nine input windows stage

Before the one launch the program builds, on the host: the table of counts `C[n, p]` (how many entries have mapper `n` and batch
`p`: a scatter-add of ones at the flat position `mapper · 1000 + batch`, reshaped to 20000 × 1000), the reciprocal column
`1 / max (count[n]) 1`, the patch and node features with time step and feature flattened to one axis of 384, the two halves of the
first layer's matrix, and the biases as rows. Each is read here at an index from the program's arguments.

The layout steps are read by the row-major position (a reshape), by the permuted coordinates (a transpose) and by the shifted row
(a slice). The two scatter-adds of ones are read as sums of ones over the entries whose index word names the cell; for the table of
counts the word `mapper · 1000 + batch` does not wrap while the mapper is below 20000 and the batch below 1000, so it names
cell `(n, p)` exactly when the mapper is `n` and the batch is `p`. -/

open scoped BigOperators

noncomputable section

namespace Cert.KHost

open Idealize.ShloMosaic Idealize.ShloMosaic.TcCoe Idealize.ShloMosaic.ValueIdx Cert.KernelIdeal Cert.KernelIdeal.Gen Idealize.SL.Sem
open Idealize.ShloMosaic.ScatterAddVec

/-! ## The flat word of a cell -/

/-- `mapper · 1000 + batch` as 32-bit words: no wrap for a mapper below 20000 and a batch below 1000. -/
theorem cell_toNat (a b : BitVec 32) (ha : a.toNat < 20000) (hb : b.toNat < 1000) :
    (IntOp.addi (IntOp.muli a 1000#32) b).toNat = a.toNat * 1000 + b.toNat := by
  unfold IntOp.addi IntOp.muli
  rw [BitVec.toNat_add, BitVec.toNat_mul, BitVec.toNat_ofNat]
  omega

/-- The cell word is below 2³¹, so it reads the same signed; and it names cell `(n, p)` exactly when the mapper is `n` and
    the batch is `p` (quotient and remainder by 1000). -/
theorem cell_toInt_eq_iff (a b : BitVec 32) (ha : a.toNat < 20000) (hb : b.toNat < 1000) (n p : Nat) (hp : p < 1000) :
    (IntOp.addi (IntOp.muli a 1000#32) b).toInt = ((n * 1000 + p : Nat) : Int) ↔ a.toNat = n ∧ b.toNat = p := by
  have h := cell_toNat a b ha hb
  rw [BitVec.toInt_eq_toNat_of_lt (by rw [h]; omega), h]
  constructor
  · intro e
    have e' : a.toNat * 1000 + b.toNat = n * 1000 + p := by exact_mod_cast e
    omega
  · rintro ⟨rfl, rfl⟩; rfl

/-! ## The pieces the host operations are made of, read at an index -/

/-- A float constant spread over an array reads that constant everywhere. -/
theorem splat_apply {s : Shape} (h : S_.BroadcastsInDim s ![]) (w : BitVec 32) (i : s.Idx) :
    broadcastInDim s ![] h (constant (F := Ideal) S_ .f32 w) i = Ideal.ofBits .f32 w := rfl

/-- The host's quotient of two arrays, read at an index. -/
theorem hostDivf_apply {s : Shape} (a b : FVec Ideal s .f32) (i : s.Idx) :
    Host.divf (F := Ideal) a b i = Ideal.div (a i) (b i) := rfl

/-- The index column of a scatter: row `e` holds the word of entry `e`. -/
theorem column_apply (wd : IVec S60000 32) (e : Fin 60000) :
    broadcastInDim S60000x1 ![0] bcast_S60000_S60000x1_0 wd (ix2 e (0 : Fin 1)) = wd (ix1 e) :=
  broadcastInDim_apply _ bcast_S60000_S60000x1_0 wd _ (ix1 e) (fun a => match a with
    | ⟨0, _⟩ => by show e.val = if (60000 : Nat) = 1 then 0 else e.val; rw [if_neg (by decide)])

/-- A rank-4 array with its two middle axes swapped and its last two axes then flattened (the flat coordinate is
    `t · 32 + f`), read at `(b, r, d)`: the array at `(b, d / 32, r, d % 32)`. -/
theorem swap_flatten_apply {R : Nat} (x : (⟨4, ![8, 12, R, 32]⟩ : Shape).Idx → EReal)
    (ht : (⟨4, ![8, 12, R, 32]⟩ : Shape).Transposes [0, 2, 1, 3] ⟨4, ![8, R, 12, 32]⟩)
    (hc : (⟨4, ![8, R, 12, 32]⟩ : Shape).ShapeCasts ⟨3, ![8, R, 384]⟩)
    (b : Fin 8) (r : Fin R) (d : Fin 384) :
    shapeCast ⟨3, ![8, R, 384]⟩ (transpose ⟨4, ![8, R, 12, 32]⟩ [0, 2, 1, 3] x ht) hc (ix3 b r d)
      = x (ix4 b (Cert.Spec.tOf d) r (Cert.Spec.fOf d)) := by
  refine (shapeCast_apply _ hc (ix3 b r d) (ix4 b r (Cert.Spec.tOf d) (Cert.Spec.fOf d)) ?_).trans ?_
  · rw [Shape.rowMajor_val_four, Shape.rowMajor_val_three]
    have hd : d.val < 384 := d.isLt
    show ((b.val * R + r.val) * 12 + d.val / 32) * 32 + d.val % 32 = (b.val * R + r.val) * 384 + d.val
    omega
  · exact transpose_apply [0, 2, 1, 3] x ht _ (ix4 b (Cert.Spec.tOf d) r (Cert.Spec.fOf d)) (fun a => match a with
      | ⟨0, _⟩ => rfl
      | ⟨1, _⟩ => rfl
      | ⟨2, _⟩ => rfl
      | ⟨3, _⟩ => rfl)

/-! ## The two scatter-adds of ones -/

/-- The count column: a scatter-add of ones into zeros at the mapper words; cell `n` holds the number of entries of
    node `n`, as a sum of ones. -/
theorem countCol_apply (mpw : IVec S60000 32) (n : Fin 20000) :
    Host.scatterAdd (F := Ideal) scatter_S20000_S60000x1_S60000_n_0_0_1
        (broadcastInDim S20000 ![] bcast_S_S20000 (constant (F := Ideal) S_ .f32 0x00000000#32))
        (broadcastInDim S60000x1 ![0] bcast_S60000_S60000x1_0 mpw)
        (broadcastInDim S60000 ![] bcast_S_S60000 (constant (F := Ideal) S_ .f32 0x3F800000#32)) (ix1 n)
      = 0 + ∑ _e ∈ Cert.Spec.ents mpw n, Cert.Spec.one := by
  show Ideal.hostScatterAdd scatter_S20000_S60000x1_S60000_n_0_0_1 _ _ _ (ix1 n) = _
  rw [hostScatterAdd_vec_apply _ rfl rfl rfl rfl]
  have h0 : broadcastInDim S20000 ![] bcast_S_S20000 (constant (F := Ideal) S_ .f32 0x00000000#32) (ix1 n) = 0 :=
    Ideal.ofBits_zero_f32
  rw [h0]
  refine congrArg (fun s : EReal => 0 + s) (Finset.sum_congr (Finset.filter_congr fun e _ => ?_) fun _ _ => rfl)
  rw [column_apply]

/-- The reciprocal column: one over `max (count) 1`, as a column of width one. -/
theorem recipCol_apply (mpw : IVec S60000 32) (n : Fin 20000) (z : Fin 1) :
    shapeCast S20000x1 (Host.divf (F := Ideal) (broadcastInDim S20000 ![] bcast_S_S20000 (constant (F := Ideal) S_ .f32 0x3F800000#32))
        (maximumf (Host.scatterAdd (F := Ideal) scatter_S20000_S60000x1_S60000_n_0_0_1
            (broadcastInDim S20000 ![] bcast_S_S20000 (constant (F := Ideal) S_ .f32 0x00000000#32))
            (broadcastInDim S60000x1 ![0] bcast_S60000_S60000x1_0 mpw)
            (broadcastInDim S60000 ![] bcast_S_S60000 (constant (F := Ideal) S_ .f32 0x3F800000#32)))
          (broadcastInDim S20000 ![] bcast_S_S20000 (constant (F := Ideal) S_ .f32 0x3F800000#32))))
        shapeCasts_S20000_S20000x1 (ix2 n z)
      = Ideal.div Cert.Spec.one (Cert.Spec.den mpw n) := by
  refine (shapeCast_apply _ shapeCasts_S20000_S20000x1 (ix2 n z) (ix1 n) ?_).trans ?_
  · rw [Shape.rowMajor_val_one, Shape.rowMajor_val_two]
    have hz : z.val = 0 := by omega
    show n.val = n.val * 1 + z.val
    omega
  · rw [hostDivf_apply, maximumf_apply, countCol_apply, splat_apply]
    unfold Cert.Spec.den
    rfl

/-- The table of counts: a scatter-add of ones into twenty million zeros at the flat words `mapper · 1000 + batch`, cut into
    rows of a thousand; with the words in range, cell `(n, p)` holds the number of entries with mapper `n` and batch `p`. -/
theorem countTab_apply (mpw btw : IVec S60000 32) (hbt : ∀ e : Fin 60000, (btw (ix1 e)).toNat < 1000)
    (hmp : ∀ e : Fin 60000, (mpw (ix1 e)).toNat < 20000) (n : Fin 20000) (p : Fin 1000) :
    shapeCast S20000x1000 (Host.scatterAdd (F := Ideal) scatter_S20000000_S60000x1_S60000_n_0_0_1
        (broadcastInDim S20000000 ![] bcast_S_S20000000 (constant (F := Ideal) S_ .f32 0x00000000#32))
        (broadcastInDim S60000x1 ![0] bcast_S60000_S60000x1_0
          (addi (muli mpw (broadcastInDim S60000 ![] bcast_S_S60000 (constantI S_ 32 1000#32))) btw))
        (broadcastInDim S60000 ![] bcast_S_S60000 (constant (F := Ideal) S_ .f32 0x3F800000#32)))
        shapeCasts_S20000000_S20000x1000 (ix2 n p)
      = 0 + ∑ _e ∈ Finset.univ.filter (fun e : Fin 60000 => (mpw (ix1 e)).toNat = n.val ∧ (btw (ix1 e)).toNat = p.val), Cert.Spec.one := by
  have hn : n.val < 20000 := n.isLt
  have hp : p.val < 1000 := p.isLt
  refine (shapeCast_apply _ shapeCasts_S20000000_S20000x1000 (ix2 n p)
    (ix1 (⟨n.val * 1000 + p.val, by omega⟩ : Fin 20000000)) ?_).trans ?_
  · rw [Shape.rowMajor_val_one, Shape.rowMajor_val_two]
    rfl
  · show Ideal.hostScatterAdd scatter_S20000000_S60000x1_S60000_n_0_0_1 _ _ _ (ix1 _) = _
    rw [hostScatterAdd_vec_apply _ rfl rfl rfl rfl]
    have h0 : broadcastInDim S20000000 ![] bcast_S_S20000000 (constant (F := Ideal) S_ .f32 0x00000000#32)
        (ix1 (⟨n.val * 1000 + p.val, by omega⟩ : Fin 20000000)) = 0 := Ideal.ofBits_zero_f32
    rw [h0]
    refine congrArg (fun s : EReal => 0 + s) (Finset.sum_congr (Finset.filter_congr fun e _ => ?_) fun _ _ => rfl)
    rw [column_apply]
    exact cell_toInt_eq_iff (mpw (ix1 e)) (btw (ix1 e)) (hmp e) (hbt e) n.val p.val hp

/-! ## The nine windows -/

variable (m : (ℓ : Loc nD τ sig) → Buf (Elt Ideal) ℓ) (c : Dev nD)

/-- The program's arguments on core `c`, at their literal types. -/
abbrev px : (⟨4, ![8, 12, 1000, 32]⟩ : Shape).Idx → EReal := m ((c : Thread nD τ).loc main_arg0)
abbrev nx : (⟨4, ![8, 12, 20000, 32]⟩ : Shape).Idx → EReal := m ((c : Thread nD τ).loc main_arg1)
abbrev bt : (⟨1, ![60000]⟩ : Shape).Idx → BitVec 32 := m ((c : Thread nD τ).loc main_arg2)
abbrev mp : (⟨1, ![60000]⟩ : Shape).Idx → BitVec 32 := m ((c : Thread nD τ).loc main_arg3)
abbrev w1 : (⟨2, ![768, 768]⟩ : Shape).Idx → EReal := m ((c : Thread nD τ).loc main_arg4)
abbrev b1 : (⟨1, ![768]⟩ : Shape).Idx → EReal := m ((c : Thread nD τ).loc main_arg5)
abbrev w2 : (⟨2, ![768, 12]⟩ : Shape).Idx → EReal := m ((c : Thread nD τ).loc main_arg6)
abbrev b2 : (⟨1, ![12]⟩ : Shape).Idx → EReal := m ((c : Thread nD τ).loc main_arg7)

/-- Window 0, the counts: with every batch word a patch number and every mapper word a node number, cell (n, p) holds the number
    of entries with mapper `n` and batch `p`, as a sum of ones. -/
theorem counts_apply (hbt : ∀ e : Fin 60000, (bt m c (ix1 e)).toNat < 1000) (hmp : ∀ e : Fin 60000, (mp m c (ix1 e)).toNat < 20000)
    (n : Fin 20000) (p : Fin 1000) :
    (V m c main_v8 : (⟨2, ![20000, 1000]⟩ : Shape).Idx → EReal) (ix2 n p)
      = 0 + ∑ _e ∈ Finset.univ.filter (fun e : Fin 60000 => (mp m c (ix1 e)).toNat = n.val ∧ (bt m c (ix1 e)).toNat = p.val), Cert.Spec.one := by
  have e : (V m c main_v8 : (⟨2, ![20000, 1000]⟩ : Shape).Idx → EReal)
      = shapeCast S20000x1000 (Host.scatterAdd (F := Ideal) scatter_S20000000_S60000x1_S60000_n_0_0_1
          (broadcastInDim S20000000 ![] bcast_S_S20000000 (constant (F := Ideal) S_ .f32 0x00000000#32))
          (broadcastInDim S60000x1 ![0] bcast_S60000_S60000x1_0
            (addi (muli (mp m c) (broadcastInDim S60000 ![] bcast_S_S60000 (constantI S_ 32 1000#32))) (bt m c)))
          (broadcastInDim S60000 ![] bcast_S_S60000 (constant (F := Ideal) S_ .f32 0x3F800000#32)))
          shapeCasts_S20000000_S20000x1000 := by
    dsimp only [Gen.V, Gen.hostOps0]; after_results; rfl
  rw [e]
  exact countTab_apply (mp m c) (bt m c) hbt hmp n p

/-- Window 1, the reciprocal column: one over node `n`'s divisor. -/
theorem recip_apply (n : Fin 20000) (z : Fin 1) :
    (V m c main_v17 : (⟨2, ![20000, 1]⟩ : Shape).Idx → EReal) (ix2 n z) = Ideal.div Cert.Spec.one (Cert.Spec.den (mp m c) n) := by
  have e : (V m c main_v17 : (⟨2, ![20000, 1]⟩ : Shape).Idx → EReal)
      = shapeCast S20000x1 (Host.divf (F := Ideal) (broadcastInDim S20000 ![] bcast_S_S20000 (constant (F := Ideal) S_ .f32 0x3F800000#32))
          (maximumf (Host.scatterAdd (F := Ideal) scatter_S20000_S60000x1_S60000_n_0_0_1
              (broadcastInDim S20000 ![] bcast_S_S20000 (constant (F := Ideal) S_ .f32 0x00000000#32))
              (broadcastInDim S60000x1 ![0] bcast_S60000_S60000x1_0 (mp m c))
              (broadcastInDim S60000 ![] bcast_S_S60000 (constant (F := Ideal) S_ .f32 0x3F800000#32)))
            (broadcastInDim S20000 ![] bcast_S_S20000 (constant (F := Ideal) S_ .f32 0x3F800000#32))))
          shapeCasts_S20000_S20000x1 := by
    dsimp only [Gen.V, Gen.hostOps0]; after_results; rfl
  rw [e]
  exact recipCol_apply (mp m c) n z

/-- Window 2, the patch features with time step and feature flattened. -/
theorem patch_apply (b : Fin 8) (p : Fin 1000) (d : Fin 384) :
    (V m c main_v20 : (⟨3, ![8, 1000, 384]⟩ : Shape).Idx → EReal) (ix3 b p d) = px m c (ix4 b (Cert.Spec.tOf d) p (Cert.Spec.fOf d)) := by
  have e : (V m c main_v20 : (⟨3, ![8, 1000, 384]⟩ : Shape).Idx → EReal)
      = shapeCast S8x1000x384 (transpose S8x1000x12x32 [0, 2, 1, 3] (px m c) transposes_S8x12x1000x32_S8x1000x12x32_0_2_1_3)
          shapeCasts_S8x1000x12x32_S8x1000x384 := by
    dsimp only [Gen.V, Gen.hostOps0]; after_results; rfl
  rw [e]
  exact swap_flatten_apply (px m c) _ _ b p d

/-- Window 3, the node features with time step and feature flattened. -/
theorem nodes_apply (b : Fin 8) (n : Fin 20000) (d : Fin 384) :
    (V m c main_v23 : (⟨3, ![8, 20000, 384]⟩ : Shape).Idx → EReal) (ix3 b n d) = nx m c (ix4 b (Cert.Spec.tOf d) n (Cert.Spec.fOf d)) := by
  have e : (V m c main_v23 : (⟨3, ![8, 20000, 384]⟩ : Shape).Idx → EReal)
      = shapeCast S8x20000x384 (transpose S8x20000x12x32 [0, 2, 1, 3] (nx m c) transposes_S8x12x20000x32_S8x20000x12x32_0_2_1_3)
          shapeCasts_S8x20000x12x32_S8x20000x384 := by
    dsimp only [Gen.V, Gen.hostOps0]; after_results; rfl
  rw [e]
  exact swap_flatten_apply (nx m c) _ _ b n d

/-- Window 4, the first 384 rows of the first layer's matrix. -/
theorem w1lo_apply (d : Fin 384) (h : Fin 768) :
    (V m c main_v25 : (⟨2, ![384, 768]⟩ : Shape).Idx → EReal) (ix2 d h) = w1 m c (ix2 (Cert.Spec.lo d) h) := by
  have e : (V m c main_v25 : (⟨2, ![384, 768]⟩ : Shape).Idx → EReal)
      = extractStridedSlice S384x768 ![0, 0] (w1 m c) slices_S768x768_S384x768_0_0 := by
    dsimp only [Gen.V, Gen.hostOps0]; after_results; rfl
  rw [e]
  exact slice2_axis0_apply 0 (w1 m c) slices_S768x768_S384x768_0_0 d h (Cert.Spec.lo d) (by show d.val = 0 + d.val; omega)

/-- Window 5, its last 384 rows. -/
theorem w1hi_apply (d : Fin 384) (h : Fin 768) :
    (V m c main_v27 : (⟨2, ![384, 768]⟩ : Shape).Idx → EReal) (ix2 d h) = w1 m c (ix2 (Cert.Spec.hi d) h) := by
  have e : (V m c main_v27 : (⟨2, ![384, 768]⟩ : Shape).Idx → EReal)
      = extractStridedSlice S384x768 ![384, 0] (w1 m c) slices_S768x768_S384x768_384_0 := by
    dsimp only [Gen.V, Gen.hostOps0]; after_results; rfl
  rw [e]
  exact slice2_axis0_apply 384 (w1 m c) slices_S768x768_S384x768_384_0 d h (Cert.Spec.hi d) rfl

/-- Window 6, the first bias as a row. -/
theorem b1_apply (z : Fin 1) (h : Fin 768) :
    (V m c main_v29 : (⟨2, ![1, 768]⟩ : Shape).Idx → EReal) (ix2 z h) = b1 m c (ix1 h) := by
  have e : (V m c main_v29 : (⟨2, ![1, 768]⟩ : Shape).Idx → EReal) = shapeCast _ (b1 m c) shapeCasts_S768_S1x768 := by
    dsimp only [Gen.V, Gen.hostOps0]; after_results; rfl
  rw [e]
  exact shapeCast_a_1a_apply _ _ z h

/-- Window 7, the second layer's matrix. -/
theorem w2_apply (i : (⟨2, ![768, 12]⟩ : Shape).Idx) :
    (V m c main_v28 : (⟨2, ![768, 12]⟩ : Shape).Idx → EReal) i = w2 m c i := by
  have e : (V m c main_v28 : (⟨2, ![768, 12]⟩ : Shape).Idx → EReal) = w2 m c := by
    dsimp only [Gen.V, Gen.hostOps0]; after_results; rfl
  rw [e]

/-- Window 8, the second bias as a row. -/
theorem b2_apply (z : Fin 1) (o : Fin 12) :
    (V m c main_v30 : (⟨2, ![1, 12]⟩ : Shape).Idx → EReal) (ix2 z o) = b2 m c (ix1 o) := by
  have e : (V m c main_v30 : (⟨2, ![1, 12]⟩ : Shape).Idx → EReal) = shapeCast _ (b2 m c) shapeCasts_S12_S1x12 := by
    dsimp only [Gen.V, Gen.hostOps0]; after_results; rfl
  rw [e]
  exact shapeCast_a_1a_apply _ _ z o

end Cert.KHost

end
-- ==== Proof.KPoint.lean ====
import proofs.«409963_j30348238914067_2_alg».proof.Proof.Gen.KernelIdeal.Value
import proofs.«409963_j30348238914067_2_alg».proof.Proof.KBody
import proofs.«409963_j30348238914067_2_alg».proof.Proof.KPay
import proofs.«409963_j30348238914067_2_alg».proof.Proof.KHost
import proofs.«409963_j30348238914067_2_alg».proof.Proof.Spec

/-! # One grid point's block is the kernel's formula on that point's nodes

Grid point `t` handles the 800 nodes `t · 800 … t · 800 + 799`. Its windows onto the counts, the reciprocal column and the node
features are the rows (or the node slab) of those nodes; the patch features, the two halves of the first layer, the second layer and
the two bias rows are staged whole at every point. Reading each window's block through the array it stages turns the body's formula
on the blocks into the formula on the program's arguments, at node `t · 800 + r`. -/

set_option maxRecDepth 16384

open scoped BigOperators

noncomputable section

namespace Cert.KPoint

open Idealize.ShloMosaic Idealize.ShloMosaic.TcCoe Idealize.ShloMosaic.ValueIdx Idealize.SL.Sem
open Cert.KernelIdeal Cert.KernelIdeal.Gen Cert.KHost

variable (m : (ℓ : Loc nD τ sig) → Buf (Elt Ideal) ℓ) (c : Dev nD)

/-- The printed index maps, decided over the 25 grid points: windows 0, 1 move along their first axis with the point, windows 3 and 9
    along their second, every other window stays at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = t.val ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) = 0 ∧ win0_9.index t (1 : Fin 3) = t.val ∧ win0_9.index t (2 : Fin 3) = 0 :=
  (by decide +kernel : ∀ t : Fin grid0.N, _)

/-- There are 25 grid points. -/
theorem N_eq : cfg0.N = 25 := by decide +kernel

/-- Node `t · 800 + r`: row `r` of grid point `t`. -/
def node (t : Fin cfg0.N) (r : Fin 800) : Fin 20000 :=
  ⟨t.val * 800 + r.val, by have ht : t.val < 25 := N_eq ▸ t.isLt; have := r.isLt; omega⟩

/-- The nine input blocks at point `t`, at their literal types. -/
abbrev blk0 (t : Fin cfg0.N) : (⟨2, ![800, 1000]⟩ : Shape).Idx → EReal := iblk m c 0 t
abbrev blk1 (t : Fin cfg0.N) : (⟨2, ![800, 1]⟩ : Shape).Idx → EReal := iblk m c 1 t
abbrev blk2 (t : Fin cfg0.N) : (⟨3, ![8, 1000, 384]⟩ : Shape).Idx → EReal := iblk m c 2 t
abbrev blk3 (t : Fin cfg0.N) : (⟨3, ![8, 800, 384]⟩ : Shape).Idx → EReal := iblk m c 3 t
abbrev blk4 (t : Fin cfg0.N) : (⟨2, ![384, 768]⟩ : Shape).Idx → EReal := iblk m c 4 t
abbrev blk5 (t : Fin cfg0.N) : (⟨2, ![384, 768]⟩ : Shape).Idx → EReal := iblk m c 5 t
abbrev blk6 (t : Fin cfg0.N) : (⟨2, ![1, 768]⟩ : Shape).Idx → EReal := iblk m c 6 t
abbrev blk7 (t : Fin cfg0.N) : (⟨2, ![768, 12]⟩ : Shape).Idx → EReal := iblk m c 7 t
abbrev blk8 (t : Fin cfg0.N) : (⟨2, ![1, 12]⟩ : Shape).Idx → EReal := iblk m c 8 t

/-- Block 0 at (r, p): the number of entries with mapper `t · 800 + r` and batch `p`. -/
theorem blk0_apply (hbt : ∀ e : Fin 60000, (bt m c (ix1 e)).toNat < 1000) (hmp : ∀ e : Fin 60000, (mp m c (ix1 e)).toNat < 20000)
    (t : Fin cfg0.N) (r : Fin 800) (p : Fin 1000) :
    blk0 m c t (ix2 r p) = Cert.Spec.cnt (bt m c) (mp m c) (node t r) p := by
  show (V m c main_v8 : (⟨2, ![20000, 1000]⟩ : Shape).Idx → EReal) (((cfg0.win 0).blk t).view.emb (ix2 r p)) = _
  have he : ((cfg0.win 0).blk t).view.emb (ix2 r p) = ix2 (node t r) p := by
    obtain ⟨e0, e1, -⟩ := idx_facts t
    funext a; apply Fin.ext
    match a with
    | ⟨0, _⟩ => show win0_0.index t (0 : Fin 2) * 800 + 1 * r.val = t.val * 800 + r.val; omega
    | ⟨1, _⟩ => show win0_0.index t (1 : Fin 2) * 1000 + 1 * p.val = p.val; omega
  rw [he]
  exact KHost.counts_apply m c hbt hmp (node t r) p

/-- Block 1 at (r, 0): the reciprocal of node `t · 800 + r`'s divisor. -/
theorem blk1_apply (t : Fin cfg0.N) (r : Fin 800) :
    blk1 m c t (ix2 r (0 : Fin 1)) = Ideal.div Cert.Spec.one (Cert.Spec.den (mp m c) (node t r)) := by
  show (V m c main_v17 : (⟨2, ![20000, 1]⟩ : Shape).Idx → EReal) (((cfg0.win 1).blk t).view.emb (ix2 r (0 : Fin 1))) = _
  have he : ((cfg0.win 1).blk t).view.emb (ix2 r (0 : Fin 1)) = ix2 (node t r) (0 : Fin 1) := by
    obtain ⟨-, -, e0, e1, -⟩ := idx_facts t
    funext a; apply Fin.ext
    match a with
    | ⟨0, _⟩ => show win0_1.index t (0 : Fin 2) * 800 + 1 * r.val = t.val * 800 + r.val; omega
    | ⟨1, _⟩ => show win0_1.index t (1 : Fin 2) * 1 + 1 * ((0 : Fin 1) : ℕ) = ((0 : Fin 1) : ℕ); omega
  rw [he]
  exact KHost.recip_apply m c (node t r) 0

/-- Block 2, staged whole: the patch features. -/
theorem blk2_apply (t : Fin cfg0.N) (b : Fin 8) (p : Fin 1000) (d : Fin 384) :
    blk2 m c t (ix3 b p d) = px m c (ix4 b (Cert.Spec.tOf d) p (Cert.Spec.fOf d)) := by
  show (V m c main_v20 : (⟨3, ![8, 1000, 384]⟩ : Shape).Idx → EReal) (((cfg0.win 2).blk t).view.emb (ix3 b p d)) = _
  have he : ((cfg0.win 2).blk t).view.emb (ix3 b p d) = ix3 b p d := by
    obtain ⟨-, -, -, -, e0, e1, e2, -⟩ := idx_facts t
    funext a; apply Fin.ext
    match a with
    | ⟨0, _⟩ => show win0_2.index t (0 : Fin 3) * 8 + 1 * b.val = b.val; omega
    | ⟨1, _⟩ => show win0_2.index t (1 : Fin 3) * 1000 + 1 * p.val = p.val; omega
    | ⟨2, _⟩ => show win0_2.index t (2 : Fin 3) * 384 + 1 * d.val = d.val; omega
  rw [he]
  exact KHost.patch_apply m c b p d

/-- Block 3 at (b, r, d): the features of node `t · 800 + r`. -/
theorem blk3_apply (t : Fin cfg0.N) (b : Fin 8) (r : Fin 800) (d : Fin 384) :
    blk3 m c t (ix3 b r d) = nx m c (ix4 b (Cert.Spec.tOf d) (node t r) (Cert.Spec.fOf d)) := by
  show (V m c main_v23 : (⟨3, ![8, 20000, 384]⟩ : Shape).Idx → EReal) (((cfg0.win 3).blk t).view.emb (ix3 b r d)) = _
  have he : ((cfg0.win 3).blk t).view.emb (ix3 b r d) = ix3 b (node t r) d := by
    obtain ⟨-, -, -, -, -, -, -, e0, e1, e2, -⟩ := idx_facts t
    funext a; apply Fin.ext
    match a with
    | ⟨0, _⟩ => show win0_3.index t (0 : Fin 3) * 8 + 1 * b.val = b.val; omega
    | ⟨1, _⟩ => show win0_3.index t (1 : Fin 3) * 800 + 1 * r.val = t.val * 800 + r.val; omega
    | ⟨2, _⟩ => show win0_3.index t (2 : Fin 3) * 384 + 1 * d.val = d.val; omega
  rw [he]
  exact KHost.nodes_apply m c b (node t r) d

/-- Blocks 4 and 5, staged whole: the two halves of the first layer's matrix. -/
theorem blk4_apply (t : Fin cfg0.N) (d : Fin 384) (h : Fin 768) :
    blk4 m c t (ix2 d h) = w1 m c (ix2 (Cert.Spec.lo d) h) := by
  show (V m c main_v25 : (⟨2, ![384, 768]⟩ : Shape).Idx → EReal) (((cfg0.win 4).blk t).view.emb (ix2 d h)) = _
  have he : ((cfg0.win 4).blk t).view.emb (ix2 d h) = ix2 d h := by
    obtain ⟨-, -, -, -, -, -, -, -, -, -, e0, e1, -⟩ := idx_facts t
    funext a; apply Fin.ext
    match a with
    | ⟨0, _⟩ => show win0_4.index t (0 : Fin 2) * 384 + 1 * d.val = d.val; omega
    | ⟨1, _⟩ => show win0_4.index t (1 : Fin 2) * 768 + 1 * h.val = h.val; omega
  rw [he]
  exact KHost.w1lo_apply m c d h

theorem blk5_apply (t : Fin cfg0.N) (d : Fin 384) (h : Fin 768) :
    blk5 m c t (ix2 d h) = w1 m c (ix2 (Cert.Spec.hi d) h) := by
  show (V m c main_v27 : (⟨2, ![384, 768]⟩ : Shape).Idx → EReal) (((cfg0.win 5).blk t).view.emb (ix2 d h)) = _
  have he : ((cfg0.win 5).blk t).view.emb (ix2 d h) = ix2 d h := by
    obtain ⟨-, -, -, -, -, -, -, -, -, -, -, -, e0, e1, -⟩ := idx_facts t
    funext a; apply Fin.ext
    match a with
    | ⟨0, _⟩ => show win0_5.index t (0 : Fin 2) * 384 + 1 * d.val = d.val; omega
    | ⟨1, _⟩ => show win0_5.index t (1 : Fin 2) * 768 + 1 * h.val = h.val; omega
  rw [he]
  exact KHost.w1hi_apply m c d h

/-- Block 6, staged whole: the first bias as a row. -/
theorem blk6_apply (t : Fin cfg0.N) (h : Fin 768) :
    blk6 m c t (ix2 (0 : Fin 1) h) = b1 m c (ix1 h) := by
  show (V m c main_v29 : (⟨2, ![1, 768]⟩ : Shape).Idx → EReal) (((cfg0.win 6).blk t).view.emb (ix2 (0 : Fin 1) h)) = _
  have he : ((cfg0.win 6).blk t).view.emb (ix2 (0 : Fin 1) h) = ix2 (0 : Fin 1) h := by
    obtain ⟨-, -, -, -, -, -, -, -, -, -, -, -, -, -, e0, e1, -⟩ := idx_facts t
    funext a; apply Fin.ext
    match a with
    | ⟨0, _⟩ => show win0_6.index t (0 : Fin 2) * 1 + 1 * ((0 : Fin 1) : ℕ) = ((0 : Fin 1) : ℕ); omega
    | ⟨1, _⟩ => show win0_6.index t (1 : Fin 2) * 768 + 1 * h.val = h.val; omega
  rw [he]
  exact KHost.b1_apply m c 0 h

/-- Block 7, staged whole: the second layer's matrix. -/
theorem blk7_apply (t : Fin cfg0.N) (h : Fin 768) (o : Fin 12) :
    blk7 m c t (ix2 h o) = w2 m c (ix2 h o) := by
  show (V m c main_v28 : (⟨2, ![768, 12]⟩ : Shape).Idx → EReal) (((cfg0.win 7).blk t).view.emb (ix2 h o)) = _
  have he : ((cfg0.win 7).blk t).view.emb (ix2 h o) = ix2 h o := by
    obtain ⟨-, -, -, -, -, -, -, -, -, -, -, -, -, -, -, -, e0, e1, -⟩ := idx_facts t
    funext a; apply Fin.ext
    match a with
    | ⟨0, _⟩ => show win0_7.index t (0 : Fin 2) * 768 + 1 * h.val = h.val; omega
    | ⟨1, _⟩ => show win0_7.index t (1 : Fin 2) * 12 + 1 * o.val = o.val; omega
  rw [he]
  exact KHost.w2_apply m c (ix2 h o)

/-- Block 8, staged whole: the second bias as a row. -/
theorem blk8_apply (t : Fin cfg0.N) (o : Fin 12) :
    blk8 m c t (ix2 (0 : Fin 1) o) = b2 m c (ix1 o) := by
  show (V m c main_v30 : (⟨2, ![1, 12]⟩ : Shape).Idx → EReal) (((cfg0.win 8).blk t).view.emb (ix2 (0 : Fin 1) o)) = _
  have he : ((cfg0.win 8).blk t).view.emb (ix2 (0 : Fin 1) o) = ix2 (0 : Fin 1) o := by
    obtain ⟨-, -, -, -, -, -, -, -, -, -, -, -, -, -, -, -, -, -, e0, e1, -⟩ := idx_facts t
    funext a; apply Fin.ext
    match a with
    | ⟨0, _⟩ => show win0_8.index t (0 : Fin 2) * 1 + 1 * ((0 : Fin 1) : ℕ) = ((0 : Fin 1) : ℕ); omega
    | ⟨1, _⟩ => show win0_8.index t (1 : Fin 2) * 12 + 1 * o.val = o.val; omega
  rw [he]
  exact KHost.b2_apply m c 0 o

/-! ## The body's formula on the blocks, and then on the arguments -/

/-- Slab `k` of the patch block read at (0, p, d) is the block at (k, p, d). -/
theorem ld_patch (X : (⟨3, ![8, 1000, 384]⟩ : Shape).Idx → EReal) (k : Fin k0_t1_loop.trips) (p : Fin 1000) (d : Fin 384) :
    (View.ld (Val := Elt Ideal) (e' := .bf16) X (Rect.unit (s := S8x1000x384) (k0_off1 k) S1x1000x384.size (k0_off1_inb k))
        : (⟨3, ![1, 1000, 384]⟩ : Shape).Idx → EReal) (ix3 (0 : Fin 1) p d)
      = X (ix3 (⟨k.val, KBody.trips_eq ▸ k.isLt⟩ : Fin 8) p d) := by
  show X ((Rect.unit (s := S8x1000x384) (k0_off1 k) S1x1000x384.size (k0_off1_inb k)).idx (ix3 (0 : Fin 1) p d)) = _
  congr 1
  have e0 : k0_off1 k 0 = k.val := congrFun (k0_off1_eq k) 0
  have e1 : k0_off1 k 1 = 0 := congrFun (k0_off1_eq k) 1
  have e2 : k0_off1 k 2 = 0 := congrFun (k0_off1_eq k) 2
  funext a; apply Fin.ext
  match a with
  | ⟨0, _⟩ => show k0_off1 k 0 + 1 * ((0 : Fin 1) : ℕ) = k.val; omega
  | ⟨1, _⟩ => show k0_off1 k 1 + 1 * p.val = p.val; omega
  | ⟨2, _⟩ => show k0_off1 k 2 + 1 * d.val = d.val; omega

/-- Slab `k` of the node block read at (0, r, d) is the block at (k, r, d). -/
theorem ld_nodes (X : (⟨3, ![8, 800, 384]⟩ : Shape).Idx → EReal) (k : Fin k0_t1_loop.trips) (r : Fin 800) (d : Fin 384) :
    (View.ld (Val := Elt Ideal) (e' := .bf16) X (Rect.unit (s := S8x800x384) (k0_off2 k) S1x800x384.size (k0_off2_inb k))
        : (⟨3, ![1, 800, 384]⟩ : Shape).Idx → EReal) (ix3 (0 : Fin 1) r d)
      = X (ix3 (⟨k.val, KBody.trips_eq ▸ k.isLt⟩ : Fin 8) r d) := by
  show X ((Rect.unit (s := S8x800x384) (k0_off2 k) S1x800x384.size (k0_off2_inb k)).idx (ix3 (0 : Fin 1) r d)) = _
  congr 1
  have e0 : k0_off2 k 0 = k.val := congrFun (k0_off2_eq k) 0
  have e1 : k0_off2 k 1 = 0 := congrFun (k0_off2_eq k) 1
  have e2 : k0_off2 k 2 = 0 := congrFun (k0_off2_eq k) 2
  funext a; apply Fin.ext
  match a with
  | ⟨0, _⟩ => show k0_off2 k 0 + 1 * ((0 : Fin 1) : ℕ) = k.val; omega
  | ⟨1, _⟩ => show k0_off2 k 1 + 1 * r.val = r.val; omega
  | ⟨2, _⟩ => show k0_off2 k 2 + 1 * d.val = d.val; omega

/-- THE BLOCK FUNCTION AT (b, r, o), on any nine blocks: counts times patch features summed over the patches and scaled by the row's
    reciprocal, the two half-products of the first layer, bias, `max · 0`, the second layer and its bias. -/
theorem block_apply
    (v0 : (⟨2, ![800, 1000]⟩ : Shape).Idx → EReal) (v2 : (⟨2, ![800, 1]⟩ : Shape).Idx → EReal)
    (v4 v6 : (⟨2, ![384, 768]⟩ : Shape).Idx → EReal) (v8 : (⟨2, ![1, 768]⟩ : Shape).Idx → EReal)
    (v10 : (⟨2, ![768, 12]⟩ : Shape).Idx → EReal) (v12 : (⟨2, ![1, 12]⟩ : Shape).Idx → EReal)
    (X3 : (⟨3, ![8, 1000, 384]⟩ : Shape).Idx → EReal) (X4 : (⟨3, ![8, 800, 384]⟩ : Shape).Idx → EReal)
    (b : Fin 8) (r : Fin 800) (o : Fin 12) :
    (KBody.block (F := Ideal) v0 v2 v4 v6 v8 v10 v12 X3 X4 : (⟨3, ![8, 800, 12]⟩ : Shape).Idx → EReal) (ix3 b r o)
      = (∑ h : Fin 768,
          max (((∑ d : Fin 384, X4 (ix3 b r d) * v4 (ix2 d h))
              + (∑ d : Fin 384, ((∑ p : Fin 1000, v0 (ix2 r p) * X3 (ix3 b p d)) * v2 (ix2 r (0 : Fin 1))) * v6 (ix2 d h)))
              + v8 (ix2 (0 : Fin 1) h)) 0
            * v10 (ix2 h o))
        + v12 (ix2 (0 : Fin 1) o) := by
  unfold KBody.block KBody.slab
  refine (KPay.pay_apply v0 v2 v4 v6 v8 v10 v12 _ _ r o).trans ?_
  refine congrArg₂ (· + ·) (Finset.sum_congr rfl fun h _ => ?_) rfl
  refine congrArg₂ (· * ·) ?_ rfl
  refine congrArg (max · 0) ?_
  refine congrArg₂ (· + ·) (congrArg₂ (· + ·) (Finset.sum_congr rfl fun d _ => ?_) (Finset.sum_congr rfl fun d _ => ?_)) rfl
  · exact congrArg₂ (· * ·) (ld_nodes X4 _ r d) rfl
  · refine congrArg₂ (· * ·) (congrArg₂ (· * ·) (Finset.sum_congr rfl fun p _ => ?_) rfl) rfl
    exact congrArg₂ (· * ·) rfl (ld_patch X3 _ p d)

/-- AT GRID POINT `t` the block function of the point's nine blocks, at (b, r, o), is the kernel's formula on the program's arguments at
    (b, t · 800 + r, o). -/
theorem point_eq (hbt : ∀ e : Fin 60000, (bt m c (ix1 e)).toNat < 1000) (hmp : ∀ e : Fin 60000, (mp m c (ix1 e)).toNat < 20000)
    (t : Fin cfg0.N) (b : Fin 8) (r : Fin 800) (o : Fin 12) :
    (KBody.block (F := Ideal) (blk0 m c t) (blk1 m c t) (blk4 m c t) (blk5 m c t) (blk6 m c t) (blk7 m c t) (blk8 m c t)
        (blk2 m c t) (blk3 m c t) : (⟨3, ![8, 800, 12]⟩ : Shape).Idx → EReal) (ix3 b r o)
      = Cert.Spec.kout (px m c) (nx m c) (bt m c) (mp m c) (w1 m c) (b1 m c) (w2 m c) (b2 m c) (ix3 b (node t r) o) := by
  rw [block_apply]
  show _ = (∑ h : Fin 768,
      max (((∑ d : Fin 384, nx m c (ix4 b (Cert.Spec.tOf d) (node t r) (Cert.Spec.fOf d)) * w1 m c (ix2 (Cert.Spec.lo d) h))
          + (∑ d : Fin 384, ((∑ p : Fin 1000, Cert.Spec.cnt (bt m c) (mp m c) (node t r) p * px m c (ix4 b (Cert.Spec.tOf d) p (Cert.Spec.fOf d)))
              * Ideal.div Cert.Spec.one (Cert.Spec.den (mp m c) (node t r))) * w1 m c (ix2 (Cert.Spec.hi d) h)))
          + b1 m c (ix1 h)) 0
        * w2 m c (ix2 h o))
    + b2 m c (ix1 o)
  refine congrArg₂ (· + ·) (Finset.sum_congr rfl fun h _ => ?_) (blk8_apply m c t o)
  refine congrArg₂ (· * ·) ?_ (blk7_apply m c t h o)
  refine congrArg (max · 0) ?_
  refine congrArg₂ (· + ·) (congrArg₂ (· + ·) (Finset.sum_congr rfl fun d _ => ?_) (Finset.sum_congr rfl fun d _ => ?_)) (blk6_apply m c t h)
  · exact congrArg₂ (· * ·) (blk3_apply m c t b r d) (blk4_apply m c t d h)
  · refine congrArg₂ (· * ·) (congrArg₂ (· * ·) (Finset.sum_congr rfl fun p _ => ?_) (blk1_apply m c t r)) (blk5_apply m c t d h)
    exact congrArg₂ (· * ·) (blk0_apply m c hbt hmp t r p) (blk2_apply m c t b p d)

end Cert.KPoint

end
-- ==== Proof.KArray.lean ====
import proofs.«409963_j30348238914067_2_alg».proof.Proof.Gen.KernelIdeal.Value
import proofs.«409963_j30348238914067_2_alg».proof.Proof.KPoint
import Idealize.ShloMosaic.Lib.Pipeline.Value

/-! # From the points' blocks to the whole result

Grid point `t` writes back the 8 × 800 × 12 block of the nodes `t · 800 … t · 800 + 799`, and what it writes is the kernel's formula
on the program's arguments at those nodes. Node `n` lies in the block of point `n / 800`, so the 25 blocks cover the result, which
therefore ends holding the formula at every (batch, node, horizon). -/

set_option maxRecDepth 16384

noncomputable section

namespace Cert.KArray

open Idealize.ShloMosaic Idealize.ShloMosaic.TcCoe Idealize.ShloMosaic.ValueIdx Idealize.SL.Sem
open Idealize.ShloMosaic.Pipeline (Dat)
open Cert.KernelIdeal Cert.KernelIdeal.Gen Cert.KHost Cert.KPoint

variable (m : (ℓ : Loc nD τ sig) → Buf (Elt Ideal) ℓ) (ρ : Dev nD → PrngReg)

/-- The kernel's formula on core `c`'s arguments. -/
abbrev G (c : Dev nD) : (⟨3, ![8, 20000, 12]⟩ : Shape).Idx → EReal :=
  Cert.Spec.kout (px m c) (nx m c) (bt m c) (mp m c) (w1 m c) (b1 m c) (w2 m c) (b2 m c)

/-- WHAT POINT `t` WRITES BACK is block `t` of the formula. -/
theorem flushed_eq (c : Dev nD) (hbt : ∀ e : Fin 60000, (bt m c (ix1 e)).toNat < 1000)
    (hmp : ∀ e : Fin 60000, (mp m c (ix1 e)).toNat < 20000) (t : Fin cfg0.N) :
    (dats m 0 c).flushed 9 t = ((cfg0.win 9).blk t).view.read (Elt Ideal) (G m c) := by
  rw [Cert.KernelIdeal.Value.flushed9_A, Cert.KBody.out0_eq]
  funext j
  obtain ⟨b, r, o, rfl⟩ : ∃ (b : Fin 8) (r : Fin 800) (o : Fin 12), j = ix3 b r o := ⟨j 0, j 1, j 2, eq_ix3 j⟩
  show (Cert.KBody.block (F := Ideal) (blk0 m c t) (blk1 m c t) (blk4 m c t) (blk5 m c t) (blk6 m c t) (blk7 m c t) (blk8 m c t)
      (blk2 m c t) (blk3 m c t) : (⟨3, ![8, 800, 12]⟩ : Shape).Idx → EReal) (ix3 b r o)
    = G m c (((cfg0.win 9).blk t).view.emb (ix3 b r o))
  have he : ((cfg0.win 9).blk t).view.emb (ix3 b r o) = ix3 b (node t r) o := by
    obtain ⟨-, -, -, -, -, -, -, -, -, -, -, -, -, -, -, -, -, -, -, -, e0, e1, e2⟩ := idx_facts t
    funext a; apply Fin.ext
    match a with
    | ⟨0, _⟩ => show win0_9.index t (0 : Fin 3) * 8 + 1 * b.val = b.val; omega
    | ⟨1, _⟩ => show win0_9.index t (1 : Fin 3) * 800 + 1 * r.val = t.val * 800 + r.val; omega
    | ⟨2, _⟩ => show win0_9.index t (2 : Fin 3) * 12 + 1 * o.val = o.val; omega
  rw [he]
  exact point_eq m c hbt hmp t b r o

/-- An index of the result is in point `t`'s block iff each coordinate is in the block's range on its axis. -/
theorem mem_blk (t : Fin cfg0.N) (i : S8x20000x12.Idx) :
    i ∈ ((cfg0.win 9).blk t).view.set ↔ ∀ a : Fin 3, win0_9.index t a * S8x800x12.size a ≤ (i a).val
      ∧ (i a).val < win0_9.index t a * S8x800x12.size a + S8x800x12.size a := by
  show i ∈ ((View.whole main_v31).slice (win0_9.rect t)).set ↔ _
  rw [View.set_slice_whole, Rect.mem_set_unit]
  exact Iff.rfl

/-- Every index of the result is in the block of the point its node's hundreds name: node `n` in point `n / 800`. -/
theorem cover (i : S8x20000x12.Idx) : ∃ t : Fin cfg0.N, (cfg0.win 9).flush t = true ∧ i ∈ ((cfg0.win 9).blk t).view.set := by
  have h0 : (i 0).val < 8 := (i 0).isLt
  have h1 : (i 1).val < 20000 := (i 1).isLt
  have h2 : (i 2).val < 12 := (i 2).isLt
  obtain ⟨t, ht⟩ : ∃ t : Fin cfg0.N, t.val = (i 1).val / 800 := ⟨⟨(i 1).val / 800, by rw [N_eq]; omega⟩, rfl⟩
  refine ⟨t, flush0_9 t, ?_⟩
  rw [mem_blk]
  obtain ⟨-, -, -, -, -, -, -, -, -, -, -, -, -, -, -, -, -, -, -, -, e0, e1, e2⟩ := idx_facts t
  intro a
  match a with
  | ⟨0, _⟩ => show win0_9.index t (0 : Fin 3) * 8 ≤ (i 0).val ∧ (i 0).val < win0_9.index t (0 : Fin 3) * 8 + 8; omega
  | ⟨1, _⟩ => show win0_9.index t (1 : Fin 3) * 800 ≤ (i 1).val ∧ (i 1).val < win0_9.index t (1 : Fin 3) * 800 + 800; omega
  | ⟨2, _⟩ => show win0_9.index t (2 : Fin 3) * 12 ≤ (i 2).val ∧ (i 2).val < win0_9.index t (2 : Fin 3) * 12 + 12; omega

/-- THE RESULT after the run is the formula. -/
theorem final (c : Dev nD) (hbt : ∀ e : Fin 60000, (bt m c (ix1 e)).toNat < 1000)
    (hmp : ∀ e : Fin 60000, (mp m c (ix1 e)).toNat < 20000) :
    (dats m 0 c).arrAt 9 cfg0.N = G m c :=
  (dats m 0 c).arrAt_eq_of_cover 9 (G m c) (fun t _ => flushed_eq m c hbt hmp t) cover

/-- The kernel's run: it ends, with the result at the formula and the arguments as they were. -/
theorem run (hbt : ∀ (c : Dev nD) (e : Fin 60000), (bt m c (ix1 e)).toNat < 1000)
    (hmp : ∀ (c : Dev nD) (e : Fin 60000), (mp m c (ix1 e)).toNat < 20000) :
    θ_run defs (onTc (τ := τ) (main (F := Ideal))) ⟨m, fun _ => 0, ρ⟩ fun r => ∀ c : Dev nD,
      r.2.mem ((c : Thread nD τ).loc main_v31) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c (hbt c) (hmp c)), (h c).2⟩)
    (Cert.KernelIdeal.Value.run_blocks m ρ)

end Cert.KArray

end
-- ==== Proof.lean ====
/- Scatter-mean of patch features into nodes, then a two-layer perceptron per node: the kernel against its reference, over the reals.

   Entry `e` of 60000 says that patch `batch[e]` belongs to node `mapper[e]`. The reference gathers each entry's patch row, adds it
   into its node, divides by `max count 1`, lays the 384 averaged features beside the node's own 384, and applies a 768 × 768 layer
   with bias and `max · 0` and a 768 × 12 layer with bias. The kernel first builds the 20000 × 1000 table of counts (how many entries
   have mapper `n` and batch `p`) and the column of reciprocals `1 / max count 1`; then, 800 nodes at a grid point and one batch at a
   loop trip, it multiplies the counts by the patch features, scales by the reciprocal, and applies the first layer as two half-products.

   Under the precondition — every float input finite, every batch word a patch number, every mapper word a node number — the two are
   one function (`Cert.Spec.out`): the count-weighted sum over all patches is the sum over the node's entries (the patch features being
   real numbers, a count times a feature is the feature added that many times), dividing is multiplying by the reciprocal, and a sum
   over 768 inputs is the sum of its halves. Outside the index ranges the reference itself reads out of range, and the flat position
   `mapper · 1000 + batch` no longer names the cell (mapper, batch).

   The modules: `Spec` (the function, in both arrangements), `Algebra` (the two arrangements agree), `PreFacts` (what the precondition
   says), `RefMean` / `RefValue` (the reference computes the function), `KHost` (the arrays the kernel's windows stage), `KPay` (one
   trip's slab entry by entry), `KBody` (the eight trips fill the block), `KPoint` (a grid point's block is the formula on its nodes),
   `KArray` (the 25 blocks fill the result). -/
import proofs.«409963_j30348238914067_2_alg».proof.Defs
import proofs.«409963_j30348238914067_2_alg».proof.Proof.Gen.Kernel
import proofs.«409963_j30348238914067_2_alg».proof.Proof.Gen.Kernel.Skeleton
import proofs.«409963_j30348238914067_2_alg».proof.Proof.Gen.Kernel.Loops
import proofs.«409963_j30348238914067_2_alg».proof.Proof.Gen.Kernel.Launch
import proofs.«409963_j30348238914067_2_alg».proof.Proof.Gen.Kernel.Points
import proofs.«409963_j30348238914067_2_alg».proof.Proof.Gen.Kernel.Frame
import proofs.«409963_j30348238914067_2_alg».proof.Proof.Gen.KernelIdeal
import proofs.«409963_j30348238914067_2_alg».proof.Proof.Gen.KernelIdeal.Skeleton
import proofs.«409963_j30348238914067_2_alg».proof.Proof.Gen.KernelIdeal.Loops
import proofs.«409963_j30348238914067_2_alg».proof.Proof.Gen.KernelIdeal.Launch
import proofs.«409963_j30348238914067_2_alg».proof.Proof.Gen.KernelIdeal.Points
import proofs.«409963_j30348238914067_2_alg».proof.Proof.Gen.KernelIdeal.Frame
import proofs.«409963_j30348238914067_2_alg».proof.Proof.Gen.ReferenceIdeal
import proofs.«409963_j30348238914067_2_alg».proof.Proof.Gen.Pre_finite_inputs
import proofs.«409963_j30348238914067_2_alg».proof.Proof.Gen.KernelIdeal.Value
import proofs.«409963_j30348238914067_2_alg».proof.Proof.Gen.ReferenceIdeal.Run
import proofs.«409963_j30348238914067_2_alg».proof.Proof.Gen.ReferenceIdeal.Read
import proofs.«409963_j30348238914067_2_alg».proof.Proof.PreFacts
import proofs.«409963_j30348238914067_2_alg».proof.Proof.Algebra
import proofs.«409963_j30348238914067_2_alg».proof.Proof.RefValue
import proofs.«409963_j30348238914067_2_alg».proof.Proof.KArray
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- Both programs end at the kernel's formula on the arguments: the kernel by its run, the reference because its result is the
    specification, which the formula equals under the precondition. -/
theorem algebraic : Cert.algebraic_KernelIdeal_ReferenceIdeal := by
  intro m ρ m' ρ' hpre hagree
  have hf := fun c : Dev Cert.KernelIdeal.nD => Cert.PreFacts.of_pre _ _ _ _ _ _ _ _ (hpre c)
  refine ⟨fun c => Cert.KArray.G m c, Cert.KArray.run m ρ (fun c => (hf c).2.1) (fun c => (hf c).2.2), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  refine (Cert.ReferenceIdeal.Read.val_main_v34_eq (F := Ideal) _ _ _ _ _ _ _ _).trans ?_
  refine (Cert.RefValue.ref_eq _ _ _ _ _ _ _ _ (hf c).2.1).trans ?_
  exact (Cert.Algebra.kout_eq_out _ _ _ _ _ _ _ _ (hf c).1 (hf c).2.1 (hf c).2.2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
